-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v188) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x7x7x30 : Shape := ⟨4, ![16384, 7, 7, 30]⟩
abbrev S_ : Shape := ⟨0, ![]⟩

class Facts : Prop where
  bcast_S_S16384x7x7x30 : S_.BroadcastsInDim S16384x7x7x30 (![] : Fin 0 → Fin S16384x7x7x30.rank)
  reducesTo_S16384x7x7x30_S_d0_1_2_3 : S16384x7x7x30.ReducesTo [0, 1, 2, 3] S_
  h_S_ : 0 < S_.numel

variable [Facts]

def fn {F : FTy → Type} [FloatOps F] (main_arg0 : FVec F S16384x7x7x30 .f32) (main_arg1 : FVec F S16384x7x7x30 .f32) : IVec S_ 1 :=
  let main_v0 : FVec F S16384x7x7x30 .f32 := Host.absf main_arg0
  let main_cst : FVec F S_ .f32 := constant S_ .f32 0x7F800000#32
  let main_v1 : FVec F S16384x7x7x30 .f32 := broadcastInDim S16384x7x7x30 ![] bcast_S_S16384x7x7x30 main_cst
  let main_v2 : IVec S16384x7x7x30 1 := cmpf .olt main_v0 main_v1
  let main_c : IVec S_ 1 := constantI S_ 1 1#1
  let main_v3 : IVec S_ 1 := (fun x v => Host.reduce IntOp.andi x v reducesTo_S16384x7x7x30_S_d0_1_2_3 h_S_) main_v2 main_c
  let main_v4 : FVec F S16384x7x7x30 .f32 := Host.absf main_arg1
  let main_cst_0 : FVec F S_ .f32 := constant S_ .f32 0x7F800000#32
  let main_v5 : FVec F S16384x7x7x30 .f32 := broadcastInDim S16384x7x7x30 ![] bcast_S_S16384x7x7x30 main_cst_0
  let main_v6 : IVec S16384x7x7x30 1 := cmpf .olt main_v4 main_v5
  let main_c_1 : IVec S_ 1 := constantI S_ 1 1#1
  let main_v7 : IVec S_ 1 := (fun x v => Host.reduce IntOp.andi x v reducesTo_S16384x7x7x30_S_d0_1_2_3 h_S_) main_v6 main_c_1
  let main_v8 : IVec S_ 1 := andi main_v3 main_v7
  main_v8
-- ==== Kernel.lean ====
abbrev S16384x7x7x30 : Shape := ⟨4, ![16384, 7, 7, 30]⟩
abbrev S16384x49x30 : Shape := ⟨3, ![16384, 49, 30]⟩
abbrev S30x49x16384 : Shape := ⟨3, ![30, 49, 16384]⟩
abbrev S2x1x128 : Shape := ⟨3, ![2, 1, 128]⟩
abbrev S30x49x256 : Shape := ⟨3, ![30, 49, 256]⟩
abbrev S1x1x128 : Shape := ⟨3, ![1, 1, 128]⟩
abbrev S1x49x256 : Shape := ⟨3, ![1, 49, 256]⟩
abbrev S49x256 : Shape := ⟨2, ![49, 256]⟩
abbrev S20x49x256 : Shape := ⟨3, ![20, 49, 256]⟩
abbrev S49 : Shape := ⟨1, ![49]⟩
abbrev S49x1 : Shape := ⟨2, ![49, 1]⟩
abbrev S1 : Shape := ⟨1, ![1]⟩
abbrev S1x1 : Shape := ⟨2, ![1, 1]⟩
abbrev S_ : Shape := ⟨0, ![]⟩
abbrev S1x128 : Shape := ⟨2, ![1, 128]⟩
abbrev S1x5 : Shape := ⟨2, ![1, 5]⟩
abbrev S5 : Shape := ⟨1, ![5]⟩

abbrev nBuf : Space → Nat
  | .hbm => 11
  | .vmem => 6
  | .smem => 0
  | _ => 0

abbrev bufTy : (tb : Table) → Fin (tcTables nBuf tb) → BufTy
  | .hbm, ⟨0, _⟩ => ⟨S16384x7x7x30, .f32⟩
  | .hbm, ⟨1, _⟩ => ⟨S16384x7x7x30, .f32⟩
  | .hbm, ⟨2, _⟩ => ⟨S16384x49x30, .f32⟩
  | .hbm, ⟨3, _⟩ => ⟨S30x49x16384, .f32⟩
  | .hbm, ⟨4, _⟩ => ⟨S16384x49x30, .f32⟩
  | .hbm, ⟨5, _⟩ => ⟨S30x49x16384, .f32⟩
  | .hbm, ⟨6, _⟩ => ⟨S2x1x128, .f32⟩
  | .hbm, ⟨7, _⟩ => ⟨S_, .f32⟩
  | .hbm, ⟨8, _⟩ => ⟨S1x128, .f32⟩
  | .hbm, ⟨9, _⟩ => ⟨S1x5, .f32⟩
  | .hbm, ⟨10, _⟩ => ⟨S5, .f32⟩
  | .local _ .vmem, ⟨0, _⟩ => ⟨S30x49x256, .f32⟩
  | .local _ .vmem, ⟨1, _⟩ => ⟨S30x49x256, .f32⟩
  | .local _ .vmem, ⟨2, _⟩ => ⟨S30x49x256, .f32⟩
  | .local _ .vmem, ⟨3, _⟩ => ⟨S30x49x256, .f32⟩
  | .local _ .vmem, ⟨4, _⟩ => ⟨S1x1x128, .f32⟩
  | .local _ .vmem, ⟨5, _⟩ => ⟨S1x1x128, .f32⟩
  | _, _ => ⟨S16384x7x7x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S30x49x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S30x49x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16384x7x7x30_S16384x49x30 : S16384x7x7x30.ShapeCasts S16384x49x30
  transposes_S16384x49x30_S30x49x16384_2_1_0 : S16384x49x30.Transposes [2, 1, 0] S30x49x16384
  inb_S1x1x128_S1x1x128_0_0_0 : ∀ a, (![0, 0, 0] : Fin 3 → Nat) a + S1x1x128.size a ≤ S1x1x128.size a
  h_S1x1x128 : 0 < S1x1x128.numel
  inb_S30x49x256_S1x49x256_0_0_0 : ∀ a, (![0, 0, 0] : Fin 3 → Nat) a + S1x49x256.size a ≤ S30x49x256.size a
  h_S1x49x256 : 0 < S1x49x256.numel
  shapeCasts_S1x49x256_S49x256 : S1x49x256.ShapeCasts S49x256
  inb_S30x49x256_S1x49x256_1_0_0 : ∀ a, (![1, 0, 0] : Fin 3 → Nat) a + S1x49x256.size a ≤ S30x49x256.size a
  inb_S30x49x256_S1x49x256_2_0_0 : ∀ a, (![2, 0, 0] : Fin 3 → Nat) a + S1x49x256.size a ≤ S30x49x256.size a
  inb_S30x49x256_S1x49x256_3_0_0 : ∀ a, (![3, 0, 0] : Fin 3 → Nat) a + S1x49x256.size a ≤ S30x49x256.size a
  inb_S30x49x256_S1x49x256_4_0_0 : ∀ a, (![4, 0, 0] : Fin 3 → Nat) a + S1x49x256.size a ≤ S30x49x256.size a
  inb_S30x49x256_S1x49x256_6_0_0 : ∀ a, (![6, 0, 0] : Fin 3 → Nat) a + S1x49x256.size a ≤ S30x49x256.size a
  inb_S30x49x256_S1x49x256_7_0_0 : ∀ a, (![7, 0, 0] : Fin 3 → Nat) a + S1x49x256.size a ≤ S30x49x256.size a
  inb_S30x49x256_S1x49x256_8_0_0 : ∀ a, (![8, 0, 0] : Fin 3 → Nat) a + S1x49x256.size a ≤ S30x49x256.size a
  inb_S30x49x256_S1x49x256_9_0_0 : ∀ a, (![9, 0, 0] : Fin 3 → Nat) a + S1x49x256.size a ≤ S30x49x256.size a
  inb_S30x49x256_S20x49x256_10_0_0 : ∀ a, (![10, 0, 0] : Fin 3 → Nat) a + S20x49x256.size a ≤ S30x49x256.size a
  h_S20x49x256 : 0 < S20x49x256.numel
  shapeCasts_S20x49x256_S20x49x256 : S20x49x256.ShapeCasts S20x49x256
  reduces_S20x49x256_S49x256 : S20x49x256.Reduces [0] S49x256
  reduces_S49x256_S49 : S49x256.Reduces [1] S49
  shapeCasts_S49_S49x1 : S49.ShapeCasts S49x1
  reduces_S49x1_S1 : S49x1.Reduces [0] S1
  shapeCasts_S1_S1x1 : S1.ShapeCasts S1x1
  inpos_S1x1_p0_0 : ∀ a, (![0, 0] : Fin 2 → Nat) a < S1x1.size a
  iota_S1x1x128_d2_w32 : S1x1x128.Iotas .tc 32 [2]
  shapeCasts_S1x1x128_S1x1x128 : S1x1x128.ShapeCasts S1x1x128
  reducesTo_S2x1x128_S1x128_d0 : S2x1x128.ReducesTo [0] S1x128
  h_S_ : 0 < S_.numel
  slices_S1x128_S1x5_0_0 : S1x128.Slices ![0, 0] S1x5
  shapeCasts_S1x5_S5 : S1x5.ShapeCasts S5
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S30x49x256.size a ≤ S30x49x16384.size a
  hwx0_0 : ∀ i : grid0.Coords, EltTy.bits .f32 = 32 ∨ (Rect.block (s := S30x49x16384) S30x49x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S30x49x256.size a ≤ S30x49x16384.size a
  hwx0_1 : ∀ i : grid0.Coords, EltTy.bits .f32 = 32 ∨ (Rect.block (s := S30x49x16384) S30x49x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)

variable [Facts₀]

abbrev win0_0 : Pipeline.Window sig grid0 :=
  Pipeline.Window.ofSpec (Memref.whole main_v1) S30x49x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S30x49x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x7x7x30 : Shape := ⟨4, ![16384, 7, 7, 30]⟩
abbrev S16384x7x7x1 : Shape := ⟨4, ![16384, 7, 7, 1]⟩
abbrev S16384x7x7 : Shape := ⟨3, ![16384, 7, 7]⟩
abbrev S16384x7x7x5 : Shape := ⟨4, ![16384, 7, 7, 5]⟩
abbrev S_ : Shape := ⟨0, ![]⟩
abbrev S16384x7x7x20 : Shape := ⟨4, ![16384, 7, 7, 20]⟩
abbrev S1 : Shape := ⟨1, ![1]⟩
abbrev S5 : Shape := ⟨1, ![5]⟩

abbrev nBuf : Space → Nat
  | .hbm => 226
  | .vmem => 0
  | .smem => 0
  | _ => 0

abbrev hbmTy0_0 (i : Nat) : BufTy := match i % 128 with
  | 0 => ⟨S16384x7x7x30, .f32⟩
  | 1 => ⟨S16384x7x7x30, .f32⟩
  | 2 => ⟨S16384x7x7x1, .f32⟩
  | 3 => ⟨S16384x7x7, .f32⟩
  | 4 => ⟨S16384x7x7x5, .f32⟩
  | 5 => ⟨S16384x7x7x5, .f32⟩
  | 6 => ⟨S16384x7x7x5, .f32⟩
  | 7 => ⟨S16384x7x7x1, .f32⟩
  | 8 => ⟨S16384x7x7, .f32⟩
  | 9 => ⟨S16384x7x7x1, .f32⟩
  | 10 => ⟨S16384x7x7, .f32⟩
  | 11 => ⟨S16384x7x7x1, .f32⟩
  | 12 => ⟨S16384x7x7, .f32⟩
  | 13 => ⟨S16384x7x7x1, .f32⟩
  | 14 => ⟨S16384x7x7, .f32⟩
  | 15 => ⟨S_, .f32⟩
  | 16 => ⟨S16384x7x7, .f32⟩
  | 17 => ⟨S16384x7x7, .f32⟩
  | 18 => ⟨S16384x7x7, .f32⟩
  | 19 => ⟨S_, .f32⟩
  | 20 => ⟨S16384x7x7, .f32⟩
  | 21 => ⟨S16384x7x7, .f32⟩
  | 22 => ⟨S16384x7x7, .f32⟩
  | 23 => ⟨S_, .f32⟩
  | 24 => ⟨S16384x7x7, .f32⟩
  | 25 => ⟨S16384x7x7, .f32⟩
  | 26 => ⟨S16384x7x7, .f32⟩
  | 27 => ⟨S_, .f32⟩
  | 28 => ⟨S16384x7x7, .f32⟩
  | 29 => ⟨S16384x7x7, .f32⟩
  | 30 => ⟨S16384x7x7, .f32⟩
  | 31 => ⟨S16384x7x7x1, .f32⟩
  | 32 => ⟨S16384x7x7, .f32⟩
  | 33 => ⟨S16384x7x7x1, .f32⟩
  | 34 => ⟨S16384x7x7, .f32⟩
  | 35 => ⟨S16384x7x7x1, .f32⟩
  | 36 => ⟨S16384x7x7, .f32⟩
  | 37 => ⟨S16384x7x7x1, .f32⟩
  | 38 => ⟨S16384x7x7, .f32⟩
  | 39 => ⟨S_, .f32⟩
  | 40 => ⟨S16384x7x7, .f32⟩
  | 41 => ⟨S16384x7x7, .f32⟩
  | 42 => ⟨S16384x7x7, .f32⟩
  | 43 => ⟨S_, .f32⟩
  | 44 => ⟨S16384x7x7, .f32⟩
  | 45 => ⟨S16384x7x7, .f32⟩
  | 46 => ⟨S16384x7x7, .f32⟩
  | 47 => ⟨S_, .f32⟩
  | 48 => ⟨S16384x7x7, .f32⟩
  | 49 => ⟨S16384x7x7, .f32⟩
  | 50 => ⟨S16384x7x7, .f32⟩
  | 51 => ⟨S_, .f32⟩
  | 52 => ⟨S16384x7x7, .f32⟩
  | 53 => ⟨S16384x7x7, .f32⟩
  | 54 => ⟨S16384x7x7, .f32⟩
  | 55 => ⟨S16384x7x7, .f32⟩
  | 56 => ⟨S16384x7x7, .f32⟩
  | 57 => ⟨S16384x7x7, .f32⟩
  | 58 => ⟨S16384x7x7, .f32⟩
  | 59 => ⟨S16384x7x7, .f32⟩
  | 60 => ⟨S16384x7x7, .f32⟩
  | 61 => ⟨S_, .f32⟩
  | 62 => ⟨S16384x7x7, .f32⟩
  | 63 => ⟨S16384x7x7, .i1⟩
  | 64 => ⟨S_, .f32⟩
  | 65 => ⟨S16384x7x7, .f32⟩
  | 66 => ⟨S16384x7x7, .i1⟩
  | 67 => ⟨S16384x7x7, .i1⟩
  | 68 => ⟨S16384x7x7, .f32⟩
  | 69 => ⟨S_, .f32⟩
  | 70 => ⟨S_, .f32⟩
  | 71 => ⟨S16384x7x7, .f32⟩
  | 72 => ⟨S16384x7x7, .f32⟩
  | 73 => ⟨S16384x7x7, .f32⟩
  | 74 => ⟨S16384x7x7, .f32⟩
  | 75 => ⟨S16384x7x7, .f32⟩
  | 76 => ⟨S16384x7x7, .f32⟩
  | 77 => ⟨S16384x7x7, .f32⟩
  | 78 => ⟨S16384x7x7, .f32⟩
  | 79 => ⟨S16384x7x7, .f32⟩
  | 80 => ⟨S16384x7x7, .f32⟩
  | 81 => ⟨S16384x7x7, .f32⟩
  | 82 => ⟨S16384x7x7x1, .f32⟩
  | 83 => ⟨S16384x7x7, .f32⟩
  | 84 => ⟨S16384x7x7x1, .f32⟩
  | 85 => ⟨S16384x7x7, .f32⟩
  | 86 => ⟨S16384x7x7x1, .f32⟩
  | 87 => ⟨S16384x7x7, .f32⟩
  | 88 => ⟨S16384x7x7x1, .f32⟩
  | 89 => ⟨S16384x7x7, .f32⟩
  | 90 => ⟨S_, .f32⟩
  | 91 => ⟨S16384x7x7, .f32⟩
  | 92 => ⟨S16384x7x7, .f32⟩
  | 93 => ⟨S16384x7x7, .f32⟩
  | 94 => ⟨S_, .f32⟩
  | 95 => ⟨S16384x7x7, .f32⟩
  | 96 => ⟨S16384x7x7, .f32⟩
  | 97 => ⟨S16384x7x7, .f32⟩
  | 98 => ⟨S_, .f32⟩
  | 99 => ⟨S16384x7x7, .f32⟩
  | 100 => ⟨S16384x7x7, .f32⟩
  | 101 => ⟨S16384x7x7, .f32⟩
  | 102 => ⟨S_, .f32⟩
  | 103 => ⟨S16384x7x7, .f32⟩
  | 104 => ⟨S16384x7x7, .f32⟩
  | 105 => ⟨S16384x7x7, .f32⟩
  | 106 => ⟨S16384x7x7x1, .f32⟩
  | 107 => ⟨S16384x7x7, .f32⟩
  | 108 => ⟨S16384x7x7x1, .f32⟩
  | 109 => ⟨S16384x7x7, .f32⟩
  | 110 => ⟨S16384x7x7x1, .f32⟩
  | 111 => ⟨S16384x7x7, .f32⟩
  | 112 => ⟨S16384x7x7x1, .f32⟩
  | 113 => ⟨S16384x7x7, .f32⟩
  | 114 => ⟨S_, .f32⟩
  | 115 => ⟨S16384x7x7, .f32⟩
  | 116 => ⟨S16384x7x7, .f32⟩
  | 117 => ⟨S16384x7x7, .f32⟩
  | 118 => ⟨S_, .f32⟩
  | 119 => ⟨S16384x7x7, .f32⟩
  | 120 => ⟨S16384x7x7, .f32⟩
  | 121 => ⟨S16384x7x7, .f32⟩
  | 122 => ⟨S_, .f32⟩
  | 123 => ⟨S16384x7x7, .f32⟩
  | 124 => ⟨S16384x7x7, .f32⟩
  | 125 => ⟨S16384x7x7, .f32⟩
  | 126 => ⟨S_, .f32⟩
  | 127 => ⟨S16384x7x7, .f32⟩
  | _ => ⟨S16384x7x7x30, .f32⟩

abbrev hbmTy0_1 (i : Nat) : BufTy := match i % 128 with
  | 0 => ⟨S16384x7x7, .f32⟩
  | 1 => ⟨S16384x7x7, .f32⟩
  | 2 => ⟨S16384x7x7, .f32⟩
  | 3 => ⟨S16384x7x7, .f32⟩
  | 4 => ⟨S16384x7x7, .f32⟩
  | 5 => ⟨S16384x7x7, .f32⟩
  | 6 => ⟨S16384x7x7, .f32⟩
  | 7 => ⟨S16384x7x7, .f32⟩
  | 8 => ⟨S_, .f32⟩
  | 9 => ⟨S16384x7x7, .f32⟩
  | 10 => ⟨S16384x7x7, .i1⟩
  | 11 => ⟨S_, .f32⟩
  | 12 => ⟨S16384x7x7, .f32⟩
  | 13 => ⟨S16384x7x7, .i1⟩
  | 14 => ⟨S16384x7x7, .i1⟩
  | 15 => ⟨S16384x7x7, .f32⟩
  | 16 => ⟨S_, .f32⟩
  | 17 => ⟨S_, .f32⟩
  | 18 => ⟨S16384x7x7, .f32⟩
  | 19 => ⟨S16384x7x7, .f32⟩
  | 20 => ⟨S16384x7x7, .f32⟩
  | 21 => ⟨S16384x7x7, .f32⟩
  | 22 => ⟨S16384x7x7, .f32⟩
  | 23 => ⟨S16384x7x7, .f32⟩
  | 24 => ⟨S16384x7x7, .f32⟩
  | 25 => ⟨S16384x7x7, .f32⟩
  | 26 => ⟨S16384x7x7, .f32⟩
  | 27 => ⟨S16384x7x7, .f32⟩
  | 28 => ⟨S16384x7x7, .f32⟩
  | 29 => ⟨S16384x7x7, .i1⟩
  | 30 => ⟨S16384x7x7x1, .i1⟩
  | 31 => ⟨S16384x7x7x5, .i1⟩
  | 32 => ⟨S16384x7x7x5, .f32⟩
  | 33 => ⟨S16384x7x7, .f32⟩
  | 34 => ⟨S16384x7x7, .f32⟩
  | 35 => ⟨S16384x7x7x1, .f32⟩
  | 36 => ⟨S16384x7x7, .f32⟩
  | 37 => ⟨S16384x7x7x1, .f32⟩
  | 38 => ⟨S16384x7x7, .f32⟩
  | 39 => ⟨S16384x7x7, .f32⟩
  | 40 => ⟨S16384x7x7, .f32⟩
  | 41 => ⟨S16384x7x7x1, .f32⟩
  | 42 => ⟨S16384x7x7, .f32⟩
  | 43 => ⟨S16384x7x7x1, .f32⟩
  | 44 => ⟨S16384x7x7, .f32⟩
  | 45 => ⟨S16384x7x7, .f32⟩
  | 46 => ⟨S16384x7x7, .f32⟩
  | 47 => ⟨S16384x7x7, .f32⟩
  | 48 => ⟨S_, .f32⟩
  | 49 => ⟨S16384x7x7, .f32⟩
  | 50 => ⟨S16384x7x7, .f32⟩
  | 51 => ⟨S16384x7x7x1, .f32⟩
  | 52 => ⟨S16384x7x7, .f32⟩
  | 53 => ⟨S16384x7x7, .f32⟩
  | 54 => ⟨S16384x7x7x1, .f32⟩
  | 55 => ⟨S16384x7x7, .f32⟩
  | 56 => ⟨S16384x7x7, .f32⟩
  | 57 => ⟨S16384x7x7, .f32⟩
  | 58 => ⟨S16384x7x7, .f32⟩
  | 59 => ⟨S16384x7x7x1, .f32⟩
  | 60 => ⟨S16384x7x7, .f32⟩
  | 61 => ⟨S16384x7x7, .f32⟩
  | 62 => ⟨S16384x7x7x1, .f32⟩
  | 63 => ⟨S16384x7x7, .f32⟩
  | 64 => ⟨S16384x7x7, .f32⟩
  | 65 => ⟨S16384x7x7, .f32⟩
  | 66 => ⟨S16384x7x7, .f32⟩
  | 67 => ⟨S16384x7x7, .f32⟩
  | 68 => ⟨S_, .f32⟩
  | 69 => ⟨S16384x7x7, .f32⟩
  | 70 => ⟨S16384x7x7, .f32⟩
  | 71 => ⟨S16384x7x7x20, .f32⟩
  | 72 => ⟨S16384x7x7x20, .f32⟩
  | 73 => ⟨S16384x7x7x20, .f32⟩
  | 74 => ⟨S16384x7x7x20, .f32⟩
  | 75 => ⟨S_, .f32⟩
  | 76 => ⟨S16384x7x7, .f32⟩
  | 77 => ⟨S16384x7x7, .f32⟩
  | 78 => ⟨S_, .f32⟩
  | 79 => ⟨S_, .f32⟩
  | 80 => ⟨S16384x7x7, .f32⟩
  | 81 => ⟨S_, .f32⟩
  | 82 => ⟨S_, .f32⟩
  | 83 => ⟨S16384x7x7, .f32⟩
  | 84 => ⟨S_, .f32⟩
  | 85 => ⟨S_, .f32⟩
  | 86 => ⟨S16384x7x7, .f32⟩
  | 87 => ⟨S_, .f32⟩
  | 88 => ⟨S_, .f32⟩
  | 89 => ⟨S16384x7x7, .f32⟩
  | 90 => ⟨S_, .f32⟩
  | 91 => ⟨S_, .f32⟩
  | 92 => ⟨S1, .f32⟩
  | 93 => ⟨S1, .f32⟩
  | 94 => ⟨S1, .f32⟩
  | 95 => ⟨S1, .f32⟩
  | 96 => ⟨S1, .f32⟩
  | 97 => ⟨S5, .f32⟩
  | _ => ⟨S16384x7x7x30, .f32⟩

abbrev hbmTy (i : Nat) : BufTy := match i / 128 with
  | 0 => hbmTy0_0 i
  | 1 => hbmTy0_1 i
  | _ => ⟨S16384x7x7x30, .f32⟩

abbrev bufTy : (tb : Table) → Fin (tcTables nBuf tb) → BufTy
  | .hbm, ⟨i, _⟩ => hbmTy i
  | _, _ => ⟨S16384x7x7x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_3 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_4 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_5 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_6 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_7 : Ref sig .tc := ⟨.hbm, 61, rfl⟩
abbrev main_v51 : Ref sig .tc := ⟨.hbm, 62, rfl⟩
abbrev main_v52 : Ref sig .tc := ⟨.hbm, 63, rfl⟩
abbrev main_cst_8 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_9 : Ref sig .tc := ⟨.hbm, 69, rfl⟩
abbrev main_call0_v0 : Ref sig .tc := ⟨.hbm, 70, rfl⟩
abbrev main_call0_v1 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_10 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_11 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_12 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_13 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_cst_14 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_cst_15 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_cst_16 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_cst_17 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_cst_18 : Ref sig .tc := ⟨.hbm, 136, rfl⟩
abbrev main_v113 : Ref sig .tc := ⟨.hbm, 137, rfl⟩
abbrev main_v114 : Ref sig .tc := ⟨.hbm, 138, rfl⟩
abbrev main_cst_19 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_cst_20 : Ref sig .tc := ⟨.hbm, 144, rfl⟩
abbrev main_call1_v0 : Ref sig .tc := ⟨.hbm, 145, rfl⟩
abbrev main_call1_v1 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_call2_v0 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_cst_21 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_cst_22 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_cst_23 : Ref sig .tc := ⟨.hbm, 203, rfl⟩
abbrev main_v172 : Ref sig .tc := ⟨.hbm, 204, rfl⟩
abbrev main_v173 : Ref sig .tc := ⟨.hbm, 205, rfl⟩
abbrev main_cst_24 : Ref sig .tc := ⟨.hbm, 206, rfl⟩
abbrev main_v174 : Ref sig .tc := ⟨.hbm, 207, rfl⟩
abbrev main_v175 : Ref sig .tc := ⟨.hbm, 208, rfl⟩
abbrev main_cst_25 : Ref sig .tc := ⟨.hbm, 209, rfl⟩
abbrev main_v176 : Ref sig .tc := ⟨.hbm, 210, rfl⟩
abbrev main_v177 : Ref sig .tc := ⟨.hbm, 211, rfl⟩
abbrev main_cst_26 : Ref sig .tc := ⟨.hbm, 212, rfl⟩
abbrev main_v178 : Ref sig .tc := ⟨.hbm, 213, rfl⟩
abbrev main_v179 : Ref sig .tc := ⟨.hbm, 214, rfl⟩
abbrev main_cst_27 : Ref sig .tc := ⟨.hbm, 215, rfl⟩
abbrev main_v180 : Ref sig .tc := ⟨.hbm, 216, rfl⟩
abbrev main_v181 : Ref sig .tc := ⟨.hbm, 217, rfl⟩
abbrev main_cst_28 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩

abbrev nD : Nat := 1
abbrev τ : Topo := Topo.v7x

variable {F : FTy → Type} [FloatOps F]

class Facts₀ : Prop where
  slices_S16384x7x7x30_S16384x7x7x1_0_0_0_0 : S16384x7x7x30.Slices ![0, 0, 0, 0] S16384x7x7x1
  shapeCasts_S16384x7x7x1_S16384x7x7 : S16384x7x7x1.ShapeCasts S16384x7x7
  slices_S16384x7x7x30_S16384x7x7x5_0_0_0_0 : S16384x7x7x30.Slices ![0, 0, 0, 0] S16384x7x7x5
  slices_S16384x7x7x30_S16384x7x7x5_0_0_0_5 : S16384x7x7x30.Slices ![0, 0, 0, 5] S16384x7x7x5
  slices_S16384x7x7x5_S16384x7x7x1_0_0_0_1 : S16384x7x7x5.Slices ![0, 0, 0, 1] S16384x7x7x1
  slices_S16384x7x7x5_S16384x7x7x1_0_0_0_2 : S16384x7x7x5.Slices ![0, 0, 0, 2] S16384x7x7x1
  slices_S16384x7x7x5_S16384x7x7x1_0_0_0_3 : S16384x7x7x5.Slices ![0, 0, 0, 3] S16384x7x7x1
  slices_S16384x7x7x5_S16384x7x7x1_0_0_0_4 : S16384x7x7x5.Slices ![0, 0, 0, 4] S16384x7x7x1
  bcast_S_S16384x7x7 : S_.BroadcastsInDim S16384x7x7 (![] : Fin 0 → Fin S16384x7x7.rank)
  bcast_S16384x7x7_S16384x7x7x1_0_1_2 : S16384x7x7.BroadcastsInDim S16384x7x7x1 (![0, 1, 2] : Fin 3 → Fin S16384x7x7x1.rank)
  bcast_S16384x7x7x1_S16384x7x7x5_0_1_2_3 : S16384x7x7x1.BroadcastsInDim S16384x7x7x5 (![0, 1, 2, 3] : Fin 4 → Fin S16384x7x7x5.rank)
  slices_S16384x7x7x30_S16384x7x7x20_0_0_0_10 : S16384x7x7x30.Slices ![0, 0, 0, 10] S16384x7x7x20
  reducesTo_S16384x7x7x20_S16384x7x7_d3 : S16384x7x7x20.ReducesTo [3] S16384x7x7
  h_S_ : 0 < S_.numel
  reducesTo_S16384x7x7_S_d0_1_2 : S16384x7x7.ReducesTo [0, 1, 2] S_
  bcast_S_S1 : S_.BroadcastsInDim S1 (![] : Fin 0 → Fin S1.rank)
  concatenates_S1_S1_S1_S1_S1_S5_d0 : Shape.Concatenates [S1, S1, S1, S1, S1] S5 0

variable [Facts₀]

class Facts : Prop extends Facts₀ where

variable [Facts]
-- ==== Proof.Contrib.lean ====
/-
  One grid step of the kernel as a pure function of the two input blocks and of the accumulator block:
  the body's named values, threaded in program order. `step x0 x1 acc` is what the body stores into the output
  block: `acc` plus the vector whose lanes 0 … 4 hold the block's five masked sums and whose other lanes hold zero.
-/
import proofs.«407106_j42099269435938_3_alg».proof.Proof.Gen.KernelIdeal.Skeleton
import Idealize.ShloMosaic.Lib.Pipeline.FrameBody

noncomputable section

namespace Cert.KernelIdeal.Hand

open Idealize.ShloMosaic Idealize.SL.Sem Cert.KernelIdeal Cert.KernelIdeal.Gen

variable {F : FTy → Type} [FloatOps F]
variable (x0 x1 : Vec F S30x49x256 .f32)

/-- One channel's [1, 49, 256] slab of a block, and the twenty class channels' slab. -/
abbrev s0 (x : Vec F S30x49x256 .f32) := View.ld x (Rect.unit (s := S30x49x256) ![0, 0, 0] S1x49x256.size inb_S30x49x256_S1x49x256_0_0_0)
abbrev s1 (x : Vec F S30x49x256 .f32) := View.ld x (Rect.unit (s := S30x49x256) ![1, 0, 0] S1x49x256.size inb_S30x49x256_S1x49x256_1_0_0)
abbrev s2 (x : Vec F S30x49x256 .f32) := View.ld x (Rect.unit (s := S30x49x256) ![2, 0, 0] S1x49x256.size inb_S30x49x256_S1x49x256_2_0_0)
abbrev s3 (x : Vec F S30x49x256 .f32) := View.ld x (Rect.unit (s := S30x49x256) ![3, 0, 0] S1x49x256.size inb_S30x49x256_S1x49x256_3_0_0)
abbrev s4 (x : Vec F S30x49x256 .f32) := View.ld x (Rect.unit (s := S30x49x256) ![4, 0, 0] S1x49x256.size inb_S30x49x256_S1x49x256_4_0_0)
abbrev s6 (x : Vec F S30x49x256 .f32) := View.ld x (Rect.unit (s := S30x49x256) ![6, 0, 0] S1x49x256.size inb_S30x49x256_S1x49x256_6_0_0)
abbrev s7 (x : Vec F S30x49x256 .f32) := View.ld x (Rect.unit (s := S30x49x256) ![7, 0, 0] S1x49x256.size inb_S30x49x256_S1x49x256_7_0_0)
abbrev s8 (x : Vec F S30x49x256 .f32) := View.ld x (Rect.unit (s := S30x49x256) ![8, 0, 0] S1x49x256.size inb_S30x49x256_S1x49x256_8_0_0)
abbrev s9 (x : Vec F S30x49x256 .f32) := View.ld x (Rect.unit (s := S30x49x256) ![9, 0, 0] S1x49x256.size inb_S30x49x256_S1x49x256_9_0_0)
abbrev slabCls (x : Vec F S30x49x256 .f32) := View.ld x (Rect.unit (s := S30x49x256) ![10, 0, 0] S20x49x256.size inb_S30x49x256_S20x49x256_10_0_0)

/-- The indicator, the first box, the second box, the true box, each as a [49, 256] tile. -/
abbrev vMask : FVec F S49x256 .f32 := k0_pay3 (s0 x1)
abbrev vX1 : FVec F S49x256 .f32 := k0_pay4 (s1 x0)
abbrev vY1 : FVec F S49x256 .f32 := k0_pay5 (s2 x0)
abbrev vW1 : FVec F S49x256 .f32 := k0_pay6 (s3 x0)
abbrev vH1 : FVec F S49x256 .f32 := k0_pay7 (s4 x0)
abbrev vX2 : FVec F S49x256 .f32 := k0_pay8 (s6 x0)
abbrev vY2 : FVec F S49x256 .f32 := k0_pay9 (s7 x0)
abbrev vW2 : FVec F S49x256 .f32 := k0_pay10 (s8 x0)
abbrev vH2 : FVec F S49x256 .f32 := k0_pay11 (s9 x0)
abbrev vXg : FVec F S49x256 .f32 := k0_pay12 (s1 x1)
abbrev vYg : FVec F S49x256 .f32 := k0_pay13 (s2 x1)
abbrev vWg : FVec F S49x256 .f32 := k0_pay14 (s3 x1)
abbrev vHg : FVec F S49x256 .f32 := k0_pay15 (s4 x1)

/-- The first box's intersection-over-union with the true box (the edges, the clipped product, the quotient). -/
def vIou1 : FVec F S49x256 .f32 :=
  k0_pay28 (k0_pay16 (vX1 x0) (vW1 x0)) (k0_pay17 (vX1 x0) (vW1 x0)) (k0_pay18 (vY1 x0) (vH1 x0)) (k0_pay19 (vY1 x0) (vH1 x0))
    (k0_pay20 (vXg x1) (s3 x1)) (k0_pay21 (vXg x1) (s3 x1)) (k0_pay22 (s2 x1) (s4 x1)) (k0_pay23 (s2 x1) (s4 x1))
    (k0_pay26 (vX1 x0) (vY1 x0) (vW1 x0) (vH1 x0) (vXg x1) (s2 x1) (s3 x1) (s4 x1))
    (k0_pay27 (vX1 x0) (vY1 x0) (vW1 x0) (vH1 x0) (vXg x1) (s2 x1) (s3 x1) (s4 x1))
    (FloatOps.ofBits .f32 0x00000000#32)

/-- The second box's edges, the true box's edges as the body computes them again, and the clipped product. -/
abbrev e78 : FVec F S49x256 .f32 := k0_pay29 (vX2 x0) (vW2 x0)
abbrev e81 : FVec F S49x256 .f32 := k0_pay30 (vX2 x0) (vW2 x0)
abbrev e84 : FVec F S49x256 .f32 := k0_pay31 (vY2 x0) (vH2 x0)
abbrev e87 : FVec F S49x256 .f32 := k0_pay32 (vY2 x0) (vH2 x0)
abbrev e90 : FVec F S49x256 .f32 := k0_pay33 (vXg x1) (vWg x1)
abbrev e93 : FVec F S49x256 .f32 := k0_pay34 (vXg x1) (vWg x1)
abbrev e96 : FVec F S49x256 .f32 := k0_pay35 (vYg x1) (vHg x1)
abbrev e99 : FVec F S49x256 .f32 := k0_pay36 (vYg x1) (vHg x1)
def vInter2 : FVec F S49x256 .f32 := k0_pay37 (vX2 x0) (vY2 x0) (vW2 x0) (vH2 x0) (vXg x1) (vYg x1) (vWg x1) (vHg x1)

/-- The larger and the smaller intersection-over-union. -/
def vIouMax : FVec F S49x256 .f32 :=
  k0_pay40 (vIou1 x0 x1) (e78 x0) (e81 x0) (e84 x0) (e87 x0) (e90 x1) (e93 x1) (e96 x1) (e99 x1) (vInter2 x0 x1)
def vIouMin : FVec F S49x256 .f32 :=
  k0_pay41 (vIou1 x0 x1) (e78 x0) (e81 x0) (e84 x0) (e87 x0) (e90 x1) (e93 x1) (e96 x1) (e99 x1) (vInter2 x0 x1)

/-- The class term, summed over the twenty class channels. -/
def vCls : FVec F S49x256 .f32 := k0_pay42 (slabCls x0) (slabCls x1)

/-- The block's masked sum of the centre term (a scalar) and the masked extent term (a tile). -/
def sCentre : F .f32 :=
  k0_pay43 (vMask x1) (vX1 x0) (vY1 x0) (vX2 x0) (vY2 x0) (vXg x1) (vYg x1) (vIou1 x0 x1)
    (e78 x0) (e81 x0) (e84 x0) (e87 x0) (e90 x1) (e93 x1) (e96 x1) (e99 x1) (vInter2 x0 x1)
def vExtentMasked : FVec F S49x256 .f32 :=
  k0_pay44 (vMask x1) (vW1 x0) (vH1 x0) (vW2 x0) (vH2 x0) (vWg x1) (vHg x1) (vIou1 x0 x1)
    (e78 x0) (e81 x0) (e84 x0) (e87 x0) (e90 x1) (e93 x1) (e96 x1) (e99 x1) (vInter2 x0 x1)

/-- The block's masked sum of the class term; lanes 0 … 2 of the contribution; lane 3's value. -/
def sCls : F .f32 := k0_pay45 (vMask x1) (vCls x0 x1)
def lanes012 : FVec F S1x1x128 .f32 := k0_pay46 (vMask x1) (vIouMax x0 x1) (sCentre x0 x1) (vExtentMasked x0 x1)
def lane3 : FVec F S1x1x128 .f32 := k0_pay48 (vMask x1) (vIouMin x0 x1)

/-- What one grid step stores into the output block that held `acc`. -/
def step (acc : Vec F S1x1x128 .f32) : FVec F S1x1x128 .f32 :=
  k0_pay1 (sCls x0 x1) (iota .tc S1x1x128 32 [2] iota_S1x1x128_d2_w32) (lanes012 x0 x1) k0_pay47 (lane3 x0 x1) k0_pay49 acc

end Cert.KernelIdeal.Hand

end
-- ==== Proof.Pieces.lean ====
/-
  What each of the body's two control cases leaves in the output block, as the pure step function:
  at the first step of a core's row the block is reset to zero and then accumulated into; at every other step it is
  accumulated into over what the step before left.
-/
import proofs.«407106_j42099269435938_3_alg».proof.Proof.Gen.KernelIdeal.Frame
import proofs.«407106_j42099269435938_3_alg».proof.Proof.Contrib
import Idealize.ShloMosaic.Lib.Pipeline.Value
import Idealize.ShloMosaic.Lib.Tactic

noncomputable section

namespace Cert.KernelIdeal.Hand

open Idealize.ShloMosaic Idealize.ShloMosaic.TcCoe Idealize.SL.Sem Cert.KernelIdeal Cert.KernelIdeal.Gen

variable {F : FTy → Type} [FloatOps F]

theorem hz3 : (![0, 0, 0] : Fin 3 → Nat) = fun _ => 0 := funext fun a => by fin_cases a <;> rfl

/-- A step that does not reset: the one covering store writes `step` of the two input blocks over the block's
    contents `xo`, which the body's load reads back whole. -/
theorem out_B (c : Dev nD) (i : grid0.Coords) (a2 : Memref sig .tc .vmem S30x49x256 .f32) (h2 : a2.IsWhole)
    (a3 : Memref sig .tc .vmem S30x49x256 .f32) (h3 : a3.IsWhole) (a4 : Memref sig .tc .vmem S1x1x128 .f32) (h4 : a4.IsWhole)
    (hc : ¬cond0_0 i) (x0 x1 : Vec F S30x49x256 .f32) (xo : Vec F S1x1x128 .f32) :
    out0_B_2 c i a2 h2 a3 h3 a4 h4 hc x0 x1 xo = step x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S1x1x128) hz3]
  rfl

/-- A resetting step: the zero block is stored first and read back by the accumulation, so the later covering store
    writes `step` over the zero block. -/
theorem out_A (c : Dev nD) (i : grid0.Coords) (a2 : Memref sig .tc .vmem S30x49x256 .f32) (h2 : a2.IsWhole)
    (a3 : Memref sig .tc .vmem S30x49x256 .f32) (h3 : a3.IsWhole) (a4 : Memref sig .tc .vmem S1x1x128 .f32) (h4 : a4.IsWhole)
    (hc : cond0_0 i) (x0 x1 : Vec F S30x49x256 .f32) :
    out0_A_2 c i a2 h2 a3 h3 a4 h4 hc x0 x1 = step x0 x1 k0_pay2 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, View.ld_unit_zero (S := S1x1x128) hz3]
  rfl

end Cert.KernelIdeal.Hand

end
-- ==== Proof.Tiles.lean ====
/-
  The five masked [49, 256] tiles whose sums over the tile are the five scalars one grid step adds to lanes 0 … 4,
  and the two-stage sum (over the 256 lanes, then over the 49 rows) the body takes of each.
-/
import proofs.«407106_j42099269435938_3_alg».proof.Proof.Contrib

noncomputable section

namespace Cert.KernelIdeal.Hand

open Idealize.ShloMosaic Idealize.SL.Sem Cert.KernelIdeal Cert.KernelIdeal.Gen

variable {F : FTy → Type} [FloatOps F]

/-- The body's sum of a tile: lanes first, then rows, then the one entry taken out. -/
def msum2 (v : FVec F S49x256 .f32) : F .f32 :=
  extractAt ![0, 0]
    (shapeCast S1x1
      (multiReduction .add [0] S1
        (shapeCast S49x1 (multiReduction .add [1] S49 v 0x00000000#32 reduces_S49x256_S49 (.inl rfl) rfl) shapeCasts_S49_S49x1)
        0x00000000#32 reduces_S49x1_S1 (.inl rfl) rfl)
      shapeCasts_S1_S1x1)
    inpos_S1x1_p0_0

variable (x0 x1 : Vec F S30x49x256 .f32)

/-- Whether the first box is the responsible one, per cell of the tile. -/
def vBest : IVec S49x256 1 :=
  k0_pay39 (vIou1 x0 x1) (e78 x0) (e81 x0) (e84 x0) (e87 x0) (e90 x1) (e93 x1) (e96 x1) (e99 x1) (vInter2 x0 x1)

/-- The masked centre term. -/
def tCentre : FVec F S49x256 .f32 :=
  mulf
    (mulf (broadcast S49x256 (Scalar.ofBits .f32 0x40A00000#32))
      (addf
        (mulf (subf (select (vBest x0 x1) (vX1 x0) (vX2 x0)) (vXg x1)) (subf (select (vBest x0 x1) (vX1 x0) (vX2 x0)) (vXg x1)))
        (mulf (subf (select (vBest x0 x1) (vY1 x0) (vY2 x0)) (vYg x1)) (subf (select (vBest x0 x1) (vY1 x0) (vY2 x0)) (vYg x1)))))
    (vMask x1)

/-- The masked extent term, the masked larger and smaller intersection-over-union, the masked class term. -/
abbrev tExtent : FVec F S49x256 .f32 := vExtentMasked x0 x1
def tMax : FVec F S49x256 .f32 := mulf (vIouMax x0 x1) (vMask x1)
def tMin : FVec F S49x256 .f32 := mulf (vIouMin x0 x1) (vMask x1)
def tCls : FVec F S49x256 .f32 := mulf (vCls x0 x1) (vMask x1)

/-- Tile `j` of the five. -/
def tile (j : Fin 5) : FVec F S49x256 .f32 :=
  match j with
  | ⟨0, _⟩ => tCentre x0 x1
  | ⟨1, _⟩ => tExtent x0 x1
  | ⟨2, _⟩ => tMax x0 x1
  | ⟨3, _⟩ => tMin x0 x1
  | ⟨4, _⟩ => tCls x0 x1

/-- The scalars the step broadcasts are the body's sums of these tiles (the payloads unfolded). -/
theorem sCentre_eq : sCentre x0 x1 = msum2 (tCentre x0 x1) := rfl
theorem sCls_eq : sCls x0 x1 = msum2 (tCls x0 x1) := rfl

end Cert.KernelIdeal.Hand

end
-- ==== Proof.StepLanes.lean ====
/-
  Lane `j` (j < 5) of what one grid step stores is the accumulator's lane plus the sum over the [49, 256] tile of
  tile `j`: the lane selects keep one of the five broadcast scalars and add zeros for the others, and each scalar is
  the two-stage sum of its tile.
-/
import proofs.«407106_j42099269435938_3_alg».proof.Proof.Tiles
import Idealize.ShloMosaic.PureOps.Ideal.Laws
import Idealize.ShloMosaic.Lib.ValueIdx
import Idealize.ShloMosaic.Lib.Pipeline.Value

noncomputable section

namespace Cert.KernelIdeal.Hand

open Idealize.ShloMosaic Idealize.ShloMosaic.ValueIdx Idealize.SL.Sem Cert.KernelIdeal Cert.KernelIdeal.Gen

/-- Lane `j` of the [1, 1, 128] output block, for the five lanes that are read. -/
abbrev lane (j : Fin 5) : S1x1x128.Idx := ix3 (0 : Fin 1) (0 : Fin 1) (⟨j.val, by omega⟩ : Fin 128)

/-- The two-stage sum of a tile (over the 256 lanes, then over the 49 rows) is the double sum over its coordinates. -/
theorem msum2_eq (v : FVec Ideal S49x256 .f32) :
    msum2 (F := Ideal) v = ∑ s : Fin 49, ∑ l : Fin 256, v (ix2 s l) := by
  unfold msum2 extractAt
  refine (shapeCast_apply _ _ _ (ix1 (0 : Fin 1)) ?_).trans ?_
  · rw [Shape.rowMajor_val_two, Shape.rowMajor_val_one]; rfl
  refine (Ideal.multiReduction_add_single _ _ _ _ _ _).trans ?_
  refine Finset.sum_congr rfl fun k _ => ?_
  refine (shapeCast_apply _ _ _ (ix1 (⟨k.val, k.isLt⟩ : Fin 49)) ?_).trans ?_
  · rw [Shape.rowMajor_val_two, Shape.rowMajor_val_one]
    show k.val = k.val * 1 + 0
    omega
  refine (Ideal.multiReduction_add_single _ _ _ _ _ _).trans ?_
  refine Finset.sum_congr rfl fun l _ => ?_
  refine congrArg v (funext fun a => ?_)
  match a with
  | ⟨0, _⟩ => first | rfl | exact Fin.ext rfl
  | ⟨1, _⟩ => first | rfl | exact Fin.ext rfl

/-- The lane counter of the [1, 1, 128] block: at an index, its coordinate on the last axis as a 32-bit word. -/
abbrev laneIota : IVec S1x1x128 32 := iota .tc S1x1x128 32 [2] iota_S1x1x128_d2_w32

/-- One lane select read at an index: the scalar where the lane counter equals `k`, the zero constant elsewhere. -/
def laneSel (i : S1x1x128.Idx) (k : BitVec 32) (S : Ideal .f32) : Ideal .f32 :=
  Scalar.select (IntOp.cmpi .eq (laneIota i) k) S (Ideal.ofBits .f32 0x00000000#32)

theorem laneSel_hit (i : S1x1x128.Idx) (k : BitVec 32) (S : Ideal .f32) (h : IntOp.cmpi .eq (laneIota i) k = 1#1) :
    laneSel i k S = S := by
  unfold laneSel; rw [h]; exact select_one _ _

theorem laneSel_miss (i : S1x1x128.Idx) (k : BitVec 32) (S : Ideal .f32) (h : IntOp.cmpi .eq (laneIota i) k = 0#1) :
    laneSel i k S = 0 := by
  unfold laneSel; rw [h, select_zero]; exact Ideal.ofBits_zero_f32

/-- What one grid step adds to the accumulator, read at an index: the five lane selects of the five masked sums. -/
def contrib (x0 x1 : Vec Ideal S30x49x256 .f32) (i : S1x1x128.Idx) : Ideal .f32 :=
  (((laneSel i 0#32 (sCentre x0 x1) + laneSel i 1#32 (msum2 (tExtent x0 x1))) + laneSel i 2#32 (msum2 (tMax x0 x1)))
    + laneSel i 3#32 (msum2 (tMin x0 x1))) + laneSel i 4#32 (sCls x0 x1)

/-- The stored vector at an index is the accumulator there plus the five lane selects. -/
theorem step_apply (x0 x1 : Vec Ideal S30x49x256 .f32) (acc : Vec Ideal S1x1x128 .f32) (i : S1x1x128.Idx) :
    step (F := Ideal) x0 x1 acc i = acc i + contrib x0 x1 i := by
  have h : step (F := Ideal) x0 x1 acc i
      = shapeCast S1x1x128 acc shapeCasts_S1x1x128_S1x1x128 i + contrib x0 x1 i := rfl
  rw [h, shapeCast_self]

/-- At lane `j` below 5 the select for `j` keeps its scalar and the other four give zero. -/
theorem contrib_lane (x0 x1 : Vec Ideal S30x49x256 .f32) (j : Fin 5) :
    contrib x0 x1 (lane j) = msum2 (tile (F := Ideal) x0 x1 j) := by
  match j with
  | ⟨0, hj⟩ =>
    unfold contrib
    rw [laneSel_hit (lane ⟨0, hj⟩) 0#32 _ (by first | rfl | decide), laneSel_miss (lane ⟨0, hj⟩) 1#32 _ (by first | rfl | decide),
      laneSel_miss (lane ⟨0, hj⟩) 2#32 _ (by first | rfl | decide), laneSel_miss (lane ⟨0, hj⟩) 3#32 _ (by first | rfl | decide),
      laneSel_miss (lane ⟨0, hj⟩) 4#32 _ (by first | rfl | decide)]
    simp only [add_zero, zero_add]
    exact sCentre_eq x0 x1
  | ⟨1, hj⟩ =>
    unfold contrib
    rw [laneSel_miss (lane ⟨1, hj⟩) 0#32 _ (by first | rfl | decide), laneSel_hit (lane ⟨1, hj⟩) 1#32 _ (by first | rfl | decide),
      laneSel_miss (lane ⟨1, hj⟩) 2#32 _ (by first | rfl | decide), laneSel_miss (lane ⟨1, hj⟩) 3#32 _ (by first | rfl | decide),
      laneSel_miss (lane ⟨1, hj⟩) 4#32 _ (by first | rfl | decide)]
    simp only [add_zero, zero_add]
    rfl
  | ⟨2, hj⟩ =>
    unfold contrib
    rw [laneSel_miss (lane ⟨2, hj⟩) 0#32 _ (by first | rfl | decide), laneSel_miss (lane ⟨2, hj⟩) 1#32 _ (by first | rfl | decide),
      laneSel_hit (lane ⟨2, hj⟩) 2#32 _ (by first | rfl | decide), laneSel_miss (lane ⟨2, hj⟩) 3#32 _ (by first | rfl | decide),
      laneSel_miss (lane ⟨2, hj⟩) 4#32 _ (by first | rfl | decide)]
    simp only [add_zero, zero_add]
    rfl
  | ⟨3, hj⟩ =>
    unfold contrib
    rw [laneSel_miss (lane ⟨3, hj⟩) 0#32 _ (by first | rfl | decide), laneSel_miss (lane ⟨3, hj⟩) 1#32 _ (by first | rfl | decide),
      laneSel_miss (lane ⟨3, hj⟩) 2#32 _ (by first | rfl | decide), laneSel_hit (lane ⟨3, hj⟩) 3#32 _ (by first | rfl | decide),
      laneSel_miss (lane ⟨3, hj⟩) 4#32 _ (by first | rfl | decide)]
    simp only [add_zero, zero_add]
    rfl
  | ⟨4, hj⟩ =>
    unfold contrib
    rw [laneSel_miss (lane ⟨4, hj⟩) 0#32 _ (by first | rfl | decide), laneSel_miss (lane ⟨4, hj⟩) 1#32 _ (by first | rfl | decide),
      laneSel_miss (lane ⟨4, hj⟩) 2#32 _ (by first | rfl | decide), laneSel_miss (lane ⟨4, hj⟩) 3#32 _ (by first | rfl | decide),
      laneSel_hit (lane ⟨4, hj⟩) 4#32 _ (by first | rfl | decide)]
    simp only [add_zero, zero_add]
    exact sCls_eq x0 x1

theorem step_lane_tiles (x0 x1 : Vec Ideal S30x49x256 .f32) (acc : Vec Ideal S1x1x128 .f32) (j : Fin 5) :
    step (F := Ideal) x0 x1 acc (lane j)
      = acc (lane j) + ∑ s : Fin 49, ∑ l : Fin 256, tile (F := Ideal) x0 x1 j (ix2 s l) := by
  rw [step_apply, contrib_lane, msum2_eq]

end Cert.KernelIdeal.Hand

end
-- ==== Proof.Spec.lean ====
/-
  The loss of one grid cell, and the whole loss vector, over the extended reals.

  A cell holds 30 channels of the prediction `p` and of the labels `q`: `q 0` is the object indicator, `p 1 … p 4` and
  `p 6 … p 9` are two predicted boxes (centre x, centre y, width, height), `q 1 … q 4` the true box, channels 10 … 29
  the class scores. The five entries of a cell's loss are, each times the indicator:
    0: 5 · ((x̂ − x)² + (ŷ − y)²) of the responsible box (the one whose intersection-over-union with the true box is larger),
    1: 5 · ((√ŵ − √w)² + (√ĥ − √h)²) of the responsible box,
    2: the larger of the two intersection-over-unions,  3: the smaller,
    4: the sum over the 20 classes of the squared difference of the scores.
  The loss vector sums each entry over all 16384 · 7 · 7 cells.
-/
import Idealize.ShloMosaic.PureOps.Ideal
import Idealize.ShloMosaic.Lib.ValueIdx

noncomputable section

namespace Cert.Yolo

open Idealize.ShloMosaic Idealize.ShloMosaic.ValueIdx

/-- The literals 0.5, 0 and 5 as the extended reals their words denote. -/
abbrev half : EReal := Ideal.ofBits .f32 0x3F000000#32
abbrev zero : EReal := Ideal.ofBits .f32 0x00000000#32
abbrev five : EReal := Ideal.ofBits .f32 0x40A00000#32

/-- The lower and the upper edge of an interval given by its centre and its extent. -/
def lo (c e : EReal) : EReal := c - half * e
def hi (c e : EReal) : EReal := c + half * e

/-- The overlap of two boxes along one axis (negative when they are apart). -/
def overlap (c e cg eg : EReal) : EReal := min (hi c e) (hi cg eg) - max (lo c e) (lo cg eg)

/-- The area of the intersection of two boxes: zero when either overlap is negative. -/
def inter (x y w h xg yg wg hg : EReal) : EReal :=
  Scalar.select (IntOp.ori (Ideal.cmp .olt (overlap y h yg hg) zero) (Ideal.cmp .olt (overlap x w xg wg) zero)) zero
    (overlap y h yg hg * overlap x w xg wg)

/-- Intersection over union of the box (x, y, w, h) and the box (xg, yg, wg, hg). -/
def iou (x y w h xg yg wg hg : EReal) : EReal :=
  Ideal.div (inter x y w h xg yg wg hg)
    ((hi y h - lo y h) * (hi x w - lo x w) + (hi yg hg - lo yg hg) * (hi xg wg - lo xg wg) - inter x y w h xg yg wg hg)

variable (p q : Fin 30 → EReal)

/-- The two predicted boxes' intersection-over-union with the true box. -/
def iou1 : EReal := iou (p 1) (p 2) (p 3) (p 4) (q 1) (q 2) (q 3) (q 4)
def iou2 : EReal := iou (p 6) (p 7) (p 8) (p 9) (q 1) (q 2) (q 3) (q 4)

/-- Whether the first box is the responsible one. -/
def best : BitVec 1 := Ideal.cmp .oge (iou1 p q) (iou2 p q)

/-- A channel of the responsible box: channel `a` of the first box or channel `b` of the second. -/
def sel (a b : Fin 30) : EReal := Scalar.select (best p q) (p a) (p b)

def sq (a : EReal) : EReal := a * a

/-- The five entries of a cell's loss before the indicator. -/
def centre : EReal := five * (sq (sel p q 1 6 - q 1) + sq (sel p q 2 7 - q 2))
def extent : EReal := five * (sq (Ideal.sqrt (sel p q 3 8) - Ideal.sqrt (q 3)) + sq (Ideal.sqrt (sel p q 4 9) - Ideal.sqrt (q 4)))
def iouMax : EReal := Scalar.select (best p q) (iou1 p q) (iou2 p q)
def iouMin : EReal := Scalar.select (best p q) (iou2 p q) (iou1 p q)
def classes : EReal := ∑ k : Fin 20, sq (p ⟨10 + k.val, by omega⟩ - q ⟨10 + k.val, by omega⟩)

/-- The cell's loss vector: each entry times the object indicator `q 0`. -/
def cell (j : Fin 5) : EReal :=
  match j with
  | ⟨0, _⟩ => centre p q * q 0
  | ⟨1, _⟩ => extent p q * q 0
  | ⟨2, _⟩ => iouMax p q * q 0
  | ⟨3, _⟩ => iouMin p q * q 0
  | ⟨4, _⟩ => classes p q * q 0

/-- The loss vector of a prediction array `P` and a label array `Q`, both [16384, 7, 7, 30]: the cells' vectors summed. -/
def total (P Q : (⟨4, ![16384, 7, 7, 30]⟩ : Shape).Idx → EReal) (j : Fin 5) : EReal :=
  ∑ b : Fin 16384, ∑ g1 : Fin 7, ∑ g2 : Fin 7,
    cell (fun ch => P (ix4 b g1 g2 ch)) (fun ch => Q (ix4 b g1 g2 ch)) j

end Cert.Yolo

end
-- ==== Proof.TileCell.lean ====
/-
  Each of the five masked tiles, read at row `s` and lane `l`, is the cell's loss entry of the 30 prediction channels
  and the 30 label channels the two blocks hold at (·, s, l).
-/
import proofs.«407106_j42099269435938_3_alg».proof.Proof.Tiles
import proofs.«407106_j42099269435938_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Idealize.ShloMosaic Idealize.ShloMosaic.ValueIdx Idealize.SL.Sem Cert.KernelIdeal Cert.KernelIdeal.Gen

namespace TileCellAux

/-- The 30 channel values a block holds at row `s`, lane `l`. -/
abbrev chan (x : Vec Ideal S30x49x256 .f32) (s : Fin 49) (l : Fin 256) : Fin 30 → EReal := fun ch => x (ix3 ch s l)

/-- One channel's slab, cast to a tile, read at row `s` and lane `l`: the block at (k, s, l). -/
theorem rd (x : Vec Ideal S30x49x256 .f32) (k : Nat) (hk : k < 30)
    (inb : ∀ a, (![k, 0, 0] : Fin 3 → Nat) a + S1x49x256.size a ≤ S30x49x256.size a) (s : Fin 49) (l : Fin 256) :
    shapeCast S49x256 (View.ld x (Rect.unit (s := S30x49x256) ![k, 0, 0] S1x49x256.size inb)) shapeCasts_S1x49x256_S49x256 (ix2 s l)
      = x (ix3 ⟨k, hk⟩ s l) := by
  refine (shapeCast_1ab_ab_apply _ _ s l).trans ?_
  show x _ = x _
  congr 1
  funext a
  apply Fin.ext
  match a with
  | ⟨0, _⟩ => show k + 1 * 0 = k; omega
  | ⟨1, _⟩ => show 0 + 1 * s.val = s.val; omega
  | ⟨2, _⟩ => show 0 + 1 * l.val = l.val; omega

variable (x0 x1 : Vec Ideal S30x49x256 .f32) (s : Fin 49) (l : Fin 256)

theorem vMask_rd : vMask x1 (ix2 s l) = x1 (ix3 0 s l) := rd x1 0 (by omega) _ s l
theorem vX1_rd : vX1 x0 (ix2 s l) = x0 (ix3 1 s l) := rd x0 1 (by omega) _ s l
theorem vY1_rd : vY1 x0 (ix2 s l) = x0 (ix3 2 s l) := rd x0 2 (by omega) _ s l
theorem vW1_rd : vW1 x0 (ix2 s l) = x0 (ix3 3 s l) := rd x0 3 (by omega) _ s l
theorem vH1_rd : vH1 x0 (ix2 s l) = x0 (ix3 4 s l) := rd x0 4 (by omega) _ s l
theorem vX2_rd : vX2 x0 (ix2 s l) = x0 (ix3 6 s l) := rd x0 6 (by omega) _ s l
theorem vY2_rd : vY2 x0 (ix2 s l) = x0 (ix3 7 s l) := rd x0 7 (by omega) _ s l
theorem vW2_rd : vW2 x0 (ix2 s l) = x0 (ix3 8 s l) := rd x0 8 (by omega) _ s l
theorem vH2_rd : vH2 x0 (ix2 s l) = x0 (ix3 9 s l) := rd x0 9 (by omega) _ s l
theorem vXg_rd : vXg x1 (ix2 s l) = x1 (ix3 1 s l) := rd x1 1 (by omega) _ s l
theorem vYg_rd : vYg x1 (ix2 s l) = x1 (ix3 2 s l) := rd x1 2 (by omega) _ s l
theorem vWg_rd : vWg x1 (ix2 s l) = x1 (ix3 3 s l) := rd x1 3 (by omega) _ s l
theorem vHg_rd : vHg x1 (ix2 s l) = x1 (ix3 4 s l) := rd x1 4 (by omega) _ s l
/-- The true box's y, width and height where the body casts the raw slab in place. -/
theorem rawY_rd : k0_pay13 (s2 x1) (ix2 s l) = x1 (ix3 2 s l) := rd x1 2 (by omega) _ s l
theorem rawW_rd : k0_pay14 (s3 x1) (ix2 s l) = x1 (ix3 3 s l) := rd x1 3 (by omega) _ s l
theorem rawH_rd : k0_pay15 (s4 x1) (ix2 s l) = x1 (ix3 4 s l) := rd x1 4 (by omega) _ s l

/-- Intersection-over-union as the body computes it for the first box (the true box's y, width, height cast in place). -/
theorem iou_pt (X Y W H Xg : FVec Ideal S49x256 .f32) (r2 r3 r4 : Vec Ideal S1x49x256 .f32) (i : S49x256.Idx) :
    k0_pay28 (k0_pay16 X W) (k0_pay17 X W) (k0_pay18 Y H) (k0_pay19 Y H)
        (k0_pay20 Xg r3) (k0_pay21 Xg r3) (k0_pay22 r2 r4) (k0_pay23 r2 r4)
        (k0_pay26 X Y W H Xg r2 r3 r4) (k0_pay27 X Y W H Xg r2 r3 r4) (FloatOps.ofBits .f32 0x00000000#32) i
      = Cert.Yolo.iou (X i) (Y i) (W i) (H i) (Xg i) (k0_pay13 r2 i) (k0_pay14 r3 i) (k0_pay15 r4 i) := rfl

/-- The clipped product of the overlaps as the body computes it for the second box. -/
theorem inter2_pt (X Y W H Xg Yg Wg Hg : FVec Ideal S49x256 .f32) (i : S49x256.Idx) :
    k0_pay37 X Y W H Xg Yg Wg Hg i = Cert.Yolo.inter (X i) (Y i) (W i) (H i) (Xg i) (Yg i) (Wg i) (Hg i) := rfl

/-- Intersection-over-union as the body computes it for the second box. -/
theorem iou2_pt (X Y W H Xg Yg Wg Hg : FVec Ideal S49x256 .f32) (i : S49x256.Idx) :
    k0_pay38 (k0_pay29 X W) (k0_pay30 X W) (k0_pay31 Y H) (k0_pay32 Y H) (k0_pay33 Xg Wg) (k0_pay34 Xg Wg)
        (k0_pay35 Yg Hg) (k0_pay36 Yg Hg) (k0_pay37 X Y W H Xg Yg Wg Hg) i
      = Cert.Yolo.iou (X i) (Y i) (W i) (H i) (Xg i) (Yg i) (Wg i) (Hg i) := rfl

/-- The second box's intersection-over-union as a tile. -/
def vIou2 : FVec Ideal S49x256 .f32 :=
  k0_pay38 (e78 x0) (e81 x0) (e84 x0) (e87 x0) (e90 x1) (e93 x1) (e96 x1) (e99 x1) (vInter2 x0 x1)

theorem vIou1_rd : vIou1 x0 x1 (ix2 s l) = Cert.Yolo.iou1 (chan x0 s l) (chan x1 s l) := by
  refine (iou_pt (vX1 x0) (vY1 x0) (vW1 x0) (vH1 x0) (vXg x1) (s2 x1) (s3 x1) (s4 x1) (ix2 s l)).trans ?_
  rw [vX1_rd, vY1_rd, vW1_rd, vH1_rd, vXg_rd, rawY_rd, rawW_rd, rawH_rd]
  rfl

theorem vIou2_rd : vIou2 x0 x1 (ix2 s l) = Cert.Yolo.iou2 (chan x0 s l) (chan x1 s l) := by
  refine (iou2_pt (vX2 x0) (vY2 x0) (vW2 x0) (vH2 x0) (vXg x1) (vYg x1) (vWg x1) (vHg x1) (ix2 s l)).trans ?_
  rw [vX2_rd, vY2_rd, vW2_rd, vH2_rd, vXg_rd, vYg_rd, vWg_rd, vHg_rd]
  rfl

theorem vBest_rd : vBest x0 x1 (ix2 s l) = Cert.Yolo.best (chan x0 s l) (chan x1 s l) := by
  show Ideal.cmp .oge (vIou1 x0 x1 (ix2 s l)) (vIou2 x0 x1 (ix2 s l)) = _
  rw [vIou1_rd, vIou2_rd]
  rfl

theorem tCentre_rd : tCentre x0 x1 (ix2 s l) = Cert.Yolo.centre (chan x0 s l) (chan x1 s l) * x1 (ix3 0 s l) := by
  show Cert.Yolo.five
      * (Cert.Yolo.sq (Scalar.select (vBest x0 x1 (ix2 s l)) (vX1 x0 (ix2 s l)) (vX2 x0 (ix2 s l)) - vXg x1 (ix2 s l))
        + Cert.Yolo.sq (Scalar.select (vBest x0 x1 (ix2 s l)) (vY1 x0 (ix2 s l)) (vY2 x0 (ix2 s l)) - vYg x1 (ix2 s l)))
      * vMask x1 (ix2 s l) = _
  rw [vBest_rd, vX1_rd, vX2_rd, vXg_rd, vY1_rd, vY2_rd, vYg_rd, vMask_rd]
  rfl

theorem tExtent_rd : tExtent x0 x1 (ix2 s l) = Cert.Yolo.extent (chan x0 s l) (chan x1 s l) * x1 (ix3 0 s l) := by
  show Cert.Yolo.five
      * (Cert.Yolo.sq (Ideal.sqrt (Scalar.select (vBest x0 x1 (ix2 s l)) (vW1 x0 (ix2 s l)) (vW2 x0 (ix2 s l))) - Ideal.sqrt (vWg x1 (ix2 s l)))
        + Cert.Yolo.sq (Ideal.sqrt (Scalar.select (vBest x0 x1 (ix2 s l)) (vH1 x0 (ix2 s l)) (vH2 x0 (ix2 s l))) - Ideal.sqrt (vHg x1 (ix2 s l))))
      * vMask x1 (ix2 s l) = _
  rw [vBest_rd, vW1_rd, vW2_rd, vWg_rd, vH1_rd, vH2_rd, vHg_rd, vMask_rd]
  rfl

theorem tMax_rd : tMax x0 x1 (ix2 s l) = Cert.Yolo.iouMax (chan x0 s l) (chan x1 s l) * x1 (ix3 0 s l) := by
  show Scalar.select (vBest x0 x1 (ix2 s l)) (vIou1 x0 x1 (ix2 s l)) (vIou2 x0 x1 (ix2 s l)) * vMask x1 (ix2 s l) = _
  rw [vBest_rd, vIou1_rd, vIou2_rd, vMask_rd]
  rfl

theorem tMin_rd : tMin x0 x1 (ix2 s l) = Cert.Yolo.iouMin (chan x0 s l) (chan x1 s l) * x1 (ix3 0 s l) := by
  show Scalar.select (vBest x0 x1 (ix2 s l)) (vIou2 x0 x1 (ix2 s l)) (vIou1 x0 x1 (ix2 s l)) * vMask x1 (ix2 s l) = _
  rw [vBest_rd, vIou1_rd, vIou2_rd, vMask_rd]
  rfl

/-- The class slab's index at class `k`, row `s`, lane `l` is the block's (10 + k, s, l). -/
theorem cls_idx (k : Fin 20) :
    (Rect.unit (s := S30x49x256) ![10, 0, 0] S20x49x256.size inb_S30x49x256_S20x49x256_10_0_0).idx
        (reduces_S20x49x256_S49x256.lift (ix2 s l) k) = ix3 ⟨10 + k.val, by omega⟩ s l := by
  funext a
  apply Fin.ext
  match a with
  | ⟨0, _⟩ => show 10 + 1 * k.val = 10 + k.val; omega
  | ⟨1, _⟩ => show 0 + 1 * s.val = s.val; omega
  | ⟨2, _⟩ => show 0 + 1 * l.val = l.val; omega

theorem clsCast_rd (x : Vec Ideal S30x49x256 .f32) (k : Fin 20) :
    shapeCast S20x49x256 (slabCls x) shapeCasts_S20x49x256_S20x49x256 (reduces_S20x49x256_S49x256.lift (ix2 s l) k)
      = x (ix3 ⟨10 + k.val, by omega⟩ s l) := by
  exact (congrFun (shapeCast_self (slabCls x) shapeCasts_S20x49x256_S20x49x256) _).trans (congrArg x (cls_idx s l k))

theorem vCls_rd : vCls x0 x1 (ix2 s l) = Cert.Yolo.classes (chan x0 s l) (chan x1 s l) := by
  refine (Ideal.multiReduction_add_single (φ := .f32)
    (mulf
      (subf (shapeCast S20x49x256 (slabCls x0) shapeCasts_S20x49x256_S20x49x256)
        (shapeCast S20x49x256 (slabCls x1) shapeCasts_S20x49x256_S20x49x256))
      (subf (shapeCast S20x49x256 (slabCls x0) shapeCasts_S20x49x256_S20x49x256)
        (shapeCast S20x49x256 (slabCls x1) shapeCasts_S20x49x256_S20x49x256)))
    0x00000000#32 reduces_S20x49x256_S49x256 (.inl rfl) rfl (ix2 s l)).trans ?_
  refine Finset.sum_congr rfl fun k _ => ?_
  exact congrArg₂ (fun a b => Cert.Yolo.sq (a - b)) (clsCast_rd s l x0 k) (clsCast_rd s l x1 k)

theorem tCls_rd : tCls x0 x1 (ix2 s l) = Cert.Yolo.classes (chan x0 s l) (chan x1 s l) * x1 (ix3 0 s l) := by
  show vCls x0 x1 (ix2 s l) * vMask x1 (ix2 s l) = _
  rw [vCls_rd, vMask_rd]

end TileCellAux

open TileCellAux in
theorem tile_cell (x0 x1 : Vec Ideal S30x49x256 .f32) (j : Fin 5) (s : Fin 49) (l : Fin 256) :
    tile (F := Ideal) x0 x1 j (ix2 s l)
      = Cert.Yolo.cell (fun ch => x0 (ix3 ch s l)) (fun ch => x1 (ix3 ch s l)) j := by
  match j with
  | ⟨0, _⟩ => exact tCentre_rd x0 x1 s l
  | ⟨1, _⟩ => exact tExtent_rd x0 x1 s l
  | ⟨2, _⟩ => exact tMax_rd x0 x1 s l
  | ⟨3, _⟩ => exact tMin_rd x0 x1 s l
  | ⟨4, _⟩ => exact tCls_rd x0 x1 s l

end Cert.KernelIdeal.Hand

end
-- ==== Proof.StepValue.lean ====
/-
  Lane `j` of one grid step: the accumulator's lane plus the block's sum of the cells' loss entry `j`.
-/
import proofs.«407106_j42099269435938_3_alg».proof.Proof.StepLanes
import proofs.«407106_j42099269435938_3_alg».proof.Proof.TileCell

noncomputable section

namespace Cert.KernelIdeal.Hand

open Idealize.ShloMosaic Idealize.ShloMosaic.ValueIdx Idealize.SL.Sem Cert.KernelIdeal Cert.KernelIdeal.Gen

/-- The sum over a block's 49 · 256 cells of loss entry `j`. -/
def blockLoss (x0 x1 : Vec Ideal S30x49x256 .f32) (j : Fin 5) : EReal :=
  ∑ s : Fin 49, ∑ l : Fin 256, Cert.Yolo.cell (fun ch => x0 (ix3 ch s l)) (fun ch => x1 (ix3 ch s l)) j

theorem step_lane (x0 x1 : Vec Ideal S30x49x256 .f32) (acc : Vec Ideal S1x1x128 .f32) (j : Fin 5) :
    step (F := Ideal) x0 x1 acc (lane j) = acc (lane j) + blockLoss x0 x1 j := by
  rw [step_lane_tiles]
  unfold blockLoss
  simp only [tile_cell]

end Cert.KernelIdeal.Hand

end
-- ==== Proof.Blocks.lean ====
/-
  What the two input windows hold at grid point `t`: the host transposes the [16384, 7, 7, 30] arrays to
  [30, 49, 16384] (reshape to [16384, 49, 30], then reverse the axes), and point `t` stages columns
  256 t … 256 t + 255: entry (ch, s, l) of the block is entry (256 t + l, s / 7, s % 7, ch) of the argument.
-/
import proofs.«407106_j42099269435938_3_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Hand

open Idealize.ShloMosaic Idealize.ShloMosaic.TcCoe Idealize.ShloMosaic.ValueIdx Idealize.SL.Sem Cert.KernelIdeal Cert.KernelIdeal.Gen

variable {F : FTy → Type} [FloatOps F]
variable (m : (ℓ : Loc nD τ sig) → Buf (Elt F) ℓ)

/-- The two input blocks at point `t`, at their literal type. -/
abbrev xblk0 (c : Dev nD) (t : Fin cfg0.N) : Vec F S30x49x256 .f32 := iblk m c 0 t
abbrev xblk1 (c : Dev nD) (t : Fin cfg0.N) : Vec F S30x49x256 .f32 := iblk m c 1 t

theorem t_lt (t : Fin cfg0.N) : t.val < 64 := lt_of_lt_of_eq t.isLt (show cfg0.N = 64 from N_0)

/-- The argument's index a block entry comes from. -/
abbrev src (t : Fin cfg0.N) (ch : Fin 30) (s : Fin 49) (l : Fin 256) : S16384x7x7x30.Idx :=
  ix4 (⟨256 * t.val + l.val, by have := t_lt t; have := l.isLt; omega⟩ : Fin 16384)
    (⟨s.val / 7, by have := s.isLt; omega⟩ : Fin 7) (⟨s.val % 7, by omega⟩ : Fin 7) ch

/-- The printed index map of input window 0, decided over the grid: point `t` stages block (0, 0, t). -/
theorem idx0 : ∀ t : Fin cfg0.N, win0_0.index t 0 = 0 ∧ win0_0.index t 1 = 0 ∧ win0_0.index t 2 = t.val :=
  (by decide +kernel : ∀ t : Fin grid0.N, win0_0.index t 0 = 0 ∧ win0_0.index t 1 = 0 ∧ win0_0.index t 2 = t.val)

/-- The same for input window 1. -/
theorem idx1 : ∀ t : Fin cfg0.N, win0_1.index t 0 = 0 ∧ win0_1.index t 1 = 0 ∧ win0_1.index t 2 = t.val :=
  (by decide +kernel : ∀ t : Fin grid0.N, win0_1.index t 0 = 0 ∧ win0_1.index t 1 = 0 ∧ win0_1.index t 2 = t.val)

/-- Window 0's array as the region finds it: the first argument reshaped to [16384, 49, 30], axes reversed. -/
theorem V_v1 (c : Dev nD) : (V m c main_v1 : S30x49x16384.Idx → Elt F .f32)
    = transpose S30x49x16384 [2, 1, 0]
        (shapeCast S16384x49x30 (m ((c.tc : Thread nD τ).loc main_arg0)) shapeCasts_S16384x7x7x30_S16384x49x30)
        transposes_S16384x49x30_S30x49x16384_2_1_0 := by
  dsimp only [Gen.V, Gen.V0]
  simp only [Gen.hostOps0, List.flatten_cons, List.flatten_nil, List.append_nil, List.cons_append, List.nil_append]
  after_results
  rfl

/-- Window 1's array as the region finds it: the second argument reshaped to [16384, 49, 30], axes reversed. -/
theorem V_v3 (c : Dev nD) : (V m c main_v3 : S30x49x16384.Idx → Elt F .f32)
    = transpose S30x49x16384 [2, 1, 0]
        (shapeCast S16384x49x30 (m ((c.tc : Thread nD τ).loc main_arg1)) shapeCasts_S16384x7x7x30_S16384x49x30)
        transposes_S16384x49x30_S30x49x16384_2_1_0 := by
  dsimp only [Gen.V, Gen.V0]
  simp only [Gen.hostOps0, List.flatten_cons, List.flatten_nil, List.append_nil, List.cons_append, List.nil_append]
  after_results
  rfl

/-- The reversed-axes reshape read at (ch, s, b) is the argument at (b, s / 7, s % 7, ch): the transpose swaps the outer
    coordinates, and the reshape keeps the row-major position, ((b · 7 + s / 7) · 7 + s % 7) · 30 + ch = (b · 49 + s) · 30 + ch. -/
theorem host_apply {α : Type} (x : S16384x7x7x30.Idx → α) (j : S30x49x16384.Idx) (k : S16384x7x7x30.Idx)
    (h0 : (k 0).val = (j 2).val) (h1 : (k 1).val = (j 1).val / 7) (h2 : (k 2).val = (j 1).val % 7)
    (h3 : (k 3).val = (j 0).val) :
    transpose S30x49x16384 [2, 1, 0] (shapeCast S16384x49x30 x shapeCasts_S16384x7x7x30_S16384x49x30)
      transposes_S16384x49x30_S30x49x16384_2_1_0 j = x k := by
  have hj1 : (j 1).val < 49 := (j 1).isLt
  refine (transpose_apply _ _ _ j
    (ix3 (⟨(j 2).val, (j 2).isLt⟩ : Fin 16384) (⟨(j 1).val, (j 1).isLt⟩ : Fin 49) (⟨(j 0).val, (j 0).isLt⟩ : Fin 30))
    (fun b => ?_)).trans ?_
  · match b with
    | ⟨0, _⟩ => rfl
    | ⟨1, _⟩ => rfl
    | ⟨2, _⟩ => rfl
  · refine shapeCast_apply _ _ _ k ?_
    rw [Shape.rowMajor_val_four, Shape.rowMajor_val_three]
    show (((k 0).val * 7 + (k 1).val) * 7 + (k 2).val) * 30 + (k 3).val = ((j 2).val * 49 + (j 1).val) * 30 + (j 0).val
    rw [h0, h1, h2, h3]
    omega

theorem xblk0_apply (c : Dev nD) (t : Fin cfg0.N) (ch : Fin 30) (s : Fin 49) (l : Fin 256) :
    xblk0 m c t (ix3 ch s l) = m ((c.tc : Thread nD τ).loc main_arg0) (src t ch s l) := by
  -- the block's entry sits in the array at block index × block size + its own coordinate, on each axis
  show iblk m c 0 t (ix3 ch s l) = _
  unfold iblk
  rw [View.read_apply]
  show V m c main_v1 (((cfg0.win 0).blk t).view.emb (ix3 ch s l)) = _
  refine (congrFun (V_v1 m c) _).trans ?_
  obtain ⟨i0, i1, i2⟩ := idx0 t
  refine host_apply _ _ (src t ch s l) ?_ ?_ ?_ ?_
  · show 256 * t.val + l.val = win0_0.index t 2 * 256 + 1 * l.val
    rw [i2]; omega
  · show s.val / 7 = (win0_0.index t 1 * 49 + 1 * s.val) / 7
    rw [i1]; omega
  · show s.val % 7 = (win0_0.index t 1 * 49 + 1 * s.val) % 7
    rw [i1]; omega
  · show ch.val = win0_0.index t 0 * 30 + 1 * ch.val
    rw [i0]; omega

theorem xblk1_apply (c : Dev nD) (t : Fin cfg0.N) (ch : Fin 30) (s : Fin 49) (l : Fin 256) :
    xblk1 m c t (ix3 ch s l) = m ((c.tc : Thread nD τ).loc main_arg1) (src t ch s l) := by
  show iblk m c 1 t (ix3 ch s l) = _
  unfold iblk
  rw [View.read_apply]
  show V m c main_v3 (((cfg0.win 1).blk t).view.emb (ix3 ch s l)) = _
  refine (congrFun (V_v3 m c) _).trans ?_
  obtain ⟨i0, i1, i2⟩ := idx1 t
  refine host_apply _ _ (src t ch s l) ?_ ?_ ?_ ?_
  · show 256 * t.val + l.val = win0_1.index t 2 * 256 + 1 * l.val
    rw [i2]; omega
  · show s.val / 7 = (win0_1.index t 1 * 49 + 1 * s.val) / 7
    rw [i1]; omega
  · show s.val % 7 = (win0_1.index t 1 * 49 + 1 * s.val) % 7
    rw [i1]; omega
  · show ch.val = win0_1.index t 0 * 30 + 1 * ch.val
    rw [i0]; omega

end Cert.KernelIdeal.Hand

end
-- ==== Proof.Accum.lean ====
/-
  The output block after grid point `n`: its lane `j` holds the sum of the blocks' losses over the steps of the
  current core's row so far (the row starts at the last multiple of 32, where the block was reset to zero).
-/
import proofs.«407106_j42099269435938_3_alg».proof.Proof.Pieces
import proofs.«407106_j42099269435938_3_alg».proof.Proof.StepValue
import proofs.«407106_j42099269435938_3_alg».proof.Proof.Blocks

noncomputable section

namespace Cert.KernelIdeal.Hand

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The loss of the blocks staged at point `t`. -/
def pointLoss (c : Dev nD) (t : Fin cfg0.N) (j : Fin 5) : EReal := blockLoss (xblk0 m c t) (xblk1 m c t) j

/-- Every lane of the block the reset stores is zero. -/
theorem zero_lane (j : Fin 5) : (k0_pay2 (F := Ideal)) (lane j) = 0 := by
  unfold k0_pay2
  exact Ideal.ofBits_zero_f32

/-- At the first step of a row the block is the step over the zero block: lane `j` is the point's loss. -/
theorem outsAt_reset (c : Dev nD) (t : Fin cfg0.N) (h0 : t.val % 32 = 0) (j : Fin 5) :
    outsAt0 m c t.val t.isLt (lane j) = pointLoss m c t j := by
  rw [outsAt0_A m c t h0]
  refine (congrFun (out_A (F := Ideal) c (grid0.coords t) (ms0_0 t) (hs0_0 t) (ms0_1 t) (hs0_1 t) (ms0_2 t) (hs0_2 t)
    ((hcond0_0 t).mpr h0) (xblk0 m c t) (xblk1 m c t)) (lane j)).trans ?_
  rw [step_lane, zero_lane, zero_add]
  rfl

/-- At any other step the block is the step over what the point before left: lane `j` gains the point's loss. -/
theorem outsAt_acc (c : Dev nD) (t : Fin cfg0.N) (h0 : ¬t.val % 32 = 0) (j : Fin 5) :
    outsAt0 m c t.val t.isLt (lane j)
      = outsAt0 m c (t.val - 1) (Nat.lt_of_le_of_lt (Nat.sub_le _ _) t.isLt) (lane j) + pointLoss m c t j := by
  rw [outsAt0_B m c t h0]
  refine (congrFun (out_B (F := Ideal) c (grid0.coords t) (ms0_0 t) (hs0_0 t) (ms0_1 t) (hs0_1 t) (ms0_2 t) (hs0_2 t)
    (fun h => h0 ((hcond0_0 t).mp h)) (xblk0 m c t) (xblk1 m c t)
    (outsAt0 m c (t.val - 1) (Nat.lt_of_le_of_lt (Nat.sub_le _ _) t.isLt))) (lane j)).trans ?_
  rw [step_lane]
  rfl

/-- The point's loss, as a function of the natural number of the point (zero past the grid). -/
def lossAt (c : Dev nD) (j : Fin 5) (k : ℕ) : EReal := if h : k < cfg0.N then pointLoss m c ⟨k, h⟩ j else 0

theorem lossAt_of_lt (c : Dev nD) (j : Fin 5) (k : ℕ) (h : k < cfg0.N) : lossAt m c j k = pointLoss m c ⟨k, h⟩ j :=
  dif_pos h

/-- The running sum of the current row, over the natural numbers of its points. -/
theorem outsAt_lane_range (c : Dev nD) (j : Fin 5) : ∀ (n : ℕ) (h : n < cfg0.N),
    outsAt0 m c n h (lane j) = ∑ i ∈ Finset.range (n % 32 + 1), lossAt m c j (n - n % 32 + i)
  | 0, h => by
    refine (outsAt_reset m c ⟨0, h⟩ rfl j).trans ?_
    rw [show (0 : ℕ) % 32 + 1 = 1 from rfl, Finset.sum_range_one, lossAt_of_lt m c j _ h]
  | n + 1, h => by
    by_cases h0 : (n + 1) % 32 = 0
    · refine (outsAt_reset m c ⟨n + 1, h⟩ h0 j).trans ?_
      rw [h0, Finset.sum_range_one]
      exact (lossAt_of_lt m c j (n + 1) h).symm
    · refine (outsAt_acc m c ⟨n + 1, h⟩ h0 j).trans ?_
      show outsAt0 m c n _ (lane j) + pointLoss m c ⟨n + 1, h⟩ j = _
      have e1 : (n + 1) % 32 = n % 32 + 1 := by omega
      have e2 : n + 1 - (n % 32 + 1) = n - n % 32 := by omega
      have e3 : n - n % 32 + (n % 32 + 1) = n + 1 := by omega
      rw [e1, e2, Finset.sum_range_succ, e3, lossAt_of_lt m c j _ h, outsAt_lane_range c j n (Nat.lt_of_succ_lt h)]

theorem outsAt_lane (c : Dev nD) (n : ℕ) (h : n < cfg0.N) (j : Fin 5) :
    outsAt0 m c n h (lane j)
      = ∑ i : Fin (n % 32 + 1), pointLoss m c ⟨n - n % 32 + i.val, by have := i.isLt; omega⟩ j := by
  rw [outsAt_lane_range m c j n h, ← Fin.sum_univ_eq_sum_range (fun i => lossAt m c j (n - n % 32 + i))]
  exact Finset.sum_congr rfl fun i _ => lossAt_of_lt m c j _ _

end Cert.KernelIdeal.Hand

end
-- ==== Proof.Final.lean ====
/-
  The [2, 1, 128] result array of the region: row `core` is written back once, after the core's last step
  (point 32 · core + 31), with the output block as that step left it.
-/
import proofs.«407106_j42099269435938_3_alg».proof.Proof.Accum

noncomputable section

namespace Cert.KernelIdeal.Hand

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

/-- The array the region leaves: entry (core, 0, lane) is the output block after point 32 · core + 31 at (0, 0, lane). -/
def regionOut (c : Dev nD) : Buf (Elt Ideal) ((c.tc : Thread nD τ).loc main_v4) :=
  fun y => outsAt0 m c (32 * (y 0).val + 31) (by have h : (y 0).val < 2 := (y 0).isLt; rw [show cfg0.N = 64 from N_0]; omega)
    (ix3 (0 : Fin 1) (0 : Fin 1) (⟨(y 2).val, (y 2).isLt⟩ : Fin 128))

/-- The block index of the result window, decided over the grid: the core's number, and zero on the other axes. -/
theorem out_index : ∀ t : Fin cfg0.N, win0_2.index t (0 : Fin 3) = t.val / 32 ∧ win0_2.index t (1 : Fin 3) = 0
    ∧ win0_2.index t (2 : Fin 3) = 0 :=
  (by decide +kernel : ∀ t : Fin grid0.N, win0_2.index t (0 : Fin 3) = t.val / 32 ∧ win0_2.index t (1 : Fin 3) = 0
    ∧ win0_2.index t (2 : Fin 3) = 0)

/-- The output block after a point depends on the point's number and the index only. -/
theorem outsAt_congr (c : Dev nD) {n n' : ℕ} (e : n = n') (h : n < cfg0.N) (h' : n' < cfg0.N) {i i' : S1x1x128.Idx}
    (ei : i = i') : outsAt0 m c n h i = outsAt0 m c n' h' i' := by
  subst e; subst ei; rfl

/-- What a point that writes back (the last step of a core's row) writes is its block of `regionOut`. -/
theorem flushed_eq (c : Dev nD) (t : Fin cfg0.N) (hf : (cfg0.win 2).flush t = true) :
    (dats m 0 c).flushed 2 t = ((cfg0.win 2).blk t).view.read (Elt Ideal) (regionOut m c) := by
  have h31 : t.val % 32 = 31 := (flush0_2 t).mp hf
  obtain ⟨e0, e1, e2⟩ := out_index t
  show (cfg0.win 2).cut (grid0.coords t) ((dats m 0 c).after 2 t) = _
  rw [after0_2]
  funext y
  have y0 : (y (0 : Fin 3)).val < 1 := (y (0 : Fin 3)).isLt
  have y1 : (y (1 : Fin 3)).val < 1 := (y (1 : Fin 3)).isLt
  have y2 : (y (2 : Fin 3)).val < 128 := (y (2 : Fin 3)).isLt
  rw [View.read_apply]
  show outsAt0 m c t.val t.isLt ((cfg0.win 2).xinj (grid0.coords t) y) = regionOut m c (((cfg0.win 2).blk t).view.emb y)
  unfold regionOut
  refine outsAt_congr m c ?_ _ _ ?_
  · show t.val = 32 * (win0_2.index t (0 : Fin 3) * 1 + 1 * (y (0 : Fin 3)).val) + 31
    rw [e0]; omega
  · funext a
    apply Fin.ext
    match a with
    | ⟨0, _⟩ => show (y (0 : Fin 3)).val = 0; omega
    | ⟨1, _⟩ => show (y (1 : Fin 3)).val = 0; omega
    | ⟨2, _⟩ => show (y (2 : Fin 3)).val = win0_2.index t (2 : Fin 3) * 128 + 1 * (y (2 : Fin 3)).val; rw [e2]; omega

/-- Every entry (core, 0, lane) of the array lies in the block of the last point of the core's row. -/
theorem covered (c : Dev nD) (i : S2x1x128.Idx) :
    ∃ t : Fin cfg0.N, (cfg0.win 2).flush t = true ∧ i ∈ ((cfg0.win 2).blk t).view.set := by
  have i0 : (i (0 : Fin 3)).val < 2 := (i (0 : Fin 3)).isLt
  have i1 : (i (1 : Fin 3)).val < 1 := (i (1 : Fin 3)).isLt
  have i2 : (i (2 : Fin 3)).val < 128 := (i (2 : Fin 3)).isLt
  have hN : cfg0.N = 64 := N_0
  obtain ⟨t, ht⟩ : ∃ t : Fin cfg0.N, t.val = 32 * (i (0 : Fin 3)).val + 31 := ⟨⟨32 * (i (0 : Fin 3)).val + 31, by omega⟩, rfl⟩
  obtain ⟨e0, e1, e2⟩ := out_index t
  refine ⟨t, (flush0_2 t).mpr (by omega), ?_⟩
  show i ∈ ((View.whole main_v4).slice (win0_2.rect t)).set
  rw [View.set_slice_whole, Rect.mem_set_unit]
  intro a
  match a with
  | ⟨0, _⟩ =>
    show win0_2.index t (0 : Fin 3) * 1 ≤ (i (0 : Fin 3)).val ∧ (i (0 : Fin 3)).val < win0_2.index t (0 : Fin 3) * 1 + 1
    rw [e0]; omega
  | ⟨1, _⟩ =>
    show win0_2.index t (1 : Fin 3) * 1 ≤ (i (1 : Fin 3)).val ∧ (i (1 : Fin 3)).val < win0_2.index t (1 : Fin 3) * 1 + 1
    rw [e1]; omega
  | ⟨2, _⟩ =>
    show win0_2.index t (2 : Fin 3) * 128 ≤ (i (2 : Fin 3)).val ∧ (i (2 : Fin 3)).val < win0_2.index t (2 : Fin 3) * 128 + 128
    rw [e2]; omega

theorem final_out (c : Dev nD) : (dats m 0 c).arrAt 2 cfg0.N = regionOut m c :=
  (dats m 0 c).arrAt_eq_of_cover 2 (regionOut m c) (flushed_eq m c) (covered c)

/-- The loss of a point depends on the point's number only. -/
theorem pointLoss_congr (c : Dev nD) (j : Fin 5) {t t' : Fin cfg0.N} (e : t.val = t'.val) :
    pointLoss m c t j = pointLoss m c t' j := by
  rw [Fin.ext e]

theorem regionOut_lane (c : Dev nD) (core : Fin 2) (j : Fin 5) :
    regionOut m c (ix3 core (0 : Fin 1) (⟨j.val, by omega⟩ : Fin 128))
      = ∑ i : Fin 32, pointLoss m c ⟨32 * core.val + i.val, by have := core.isLt; have := i.isLt; rw [show cfg0.N = 64 from N_0]; omega⟩ j := by
  have hN : cfg0.N = 64 := N_0
  have hc : core.val < 2 := core.isLt
  have hn : 32 * core.val + 31 < cfg0.N := by omega
  have hk : (32 * core.val + 31) % 32 + 1 = 32 := by omega
  show outsAt0 m c (32 * core.val + 31) hn (lane j) = _
  rw [outsAt_lane m c (32 * core.val + 31) hn j]
  refine Fintype.sum_equiv (finCongr hk) _ _ fun i => ?_
  refine pointLoss_congr m c j ?_
  show 32 * core.val + 31 - (32 * core.val + 31) % 32 + i.val = 32 * core.val + i.val
  omega

end Cert.KernelIdeal.Hand

end
-- ==== Proof.Reindex.lean ====
/-
  The kernel visits the batch in tiles: core `c` of 2, step `i` of 32 and lane `l` of 256 make batch index
  256 · (32 c + i) + l, and row `s` of 49 is grid cell (s / 7, s % 7). Both maps are bijections, so the kernel's nested sum
  over (core, step, row, lane) is the sum over (batch, cell row, cell column).
-/
import Mathlib.Algebra.BigOperators.Fin
import Mathlib.Logic.Equiv.Fin.Basic

namespace Cert.Yolo

/-- Row `s` of 49 is cell (s / 7, s % 7) of the 7 × 7 grid; the inverse is (g1, g2) ↦ 7 g1 + g2. -/
def cellEquiv : Fin 49 ≃ Fin 7 × Fin 7 where
  toFun s := (⟨s.val / 7, by have := s.isLt; omega⟩, ⟨s.val % 7, by omega⟩)
  invFun p := ⟨7 * p.1.val + p.2.val, by have := p.1.isLt; have := p.2.isLt; omega⟩
  left_inv s := by
    apply Fin.ext
    show 7 * (s.val / 7) + s.val % 7 = s.val
    omega
  right_inv p := by
    have h1 := p.1.isLt
    have h2 := p.2.isLt
    apply Prod.ext
    · apply Fin.ext
      show (7 * p.1.val + p.2.val) / 7 = p.1.val
      omega
    · apply Fin.ext
      show (7 * p.1.val + p.2.val) % 7 = p.2.val
      omega

/-- (core, step, lane) ↦ 256 · (32 core + step) + lane is a bijection onto the batch. -/
def batchEquiv : Fin 2 × Fin 32 × Fin 256 ≃ Fin 16384 where
  toFun p := ⟨256 * (32 * p.1.val + p.2.1.val) + p.2.2.val, by
    have := p.1.isLt; have := p.2.1.isLt; have := p.2.2.isLt; omega⟩
  invFun b := (⟨b.val / 8192, by have := b.isLt; omega⟩, ⟨b.val / 256 % 32, by omega⟩, ⟨b.val % 256, by omega⟩)
  left_inv p := by
    have h1 := p.1.isLt
    have h2 := p.2.1.isLt
    have h3 := p.2.2.isLt
    apply Prod.ext
    · apply Fin.ext
      show (256 * (32 * p.1.val + p.2.1.val) + p.2.2.val) / 8192 = p.1.val
      omega
    · apply Prod.ext
      · apply Fin.ext
        show (256 * (32 * p.1.val + p.2.1.val) + p.2.2.val) / 256 % 32 = p.2.1.val
        omega
      · apply Fin.ext
        show (256 * (32 * p.1.val + p.2.1.val) + p.2.2.val) % 256 = p.2.2.val
        omega
  right_inv b := by
    have hb := b.isLt
    apply Fin.ext
    show 256 * (32 * (b.val / 8192) + b.val / 256 % 32) + b.val % 256 = b.val
    omega

/-- The sum over the 49 rows is the sum over the 7 × 7 cells. -/
theorem sum_cell {M : Type*} [AddCommMonoid M] (g : Fin 7 → Fin 7 → M) :
    (∑ s : Fin 49, g ⟨s.val / 7, by have := s.isLt; omega⟩ ⟨s.val % 7, by omega⟩)
      = ∑ g1 : Fin 7, ∑ g2 : Fin 7, g g1 g2 := by
  rw [← Fintype.sum_prod_type']
  exact Fintype.sum_equiv cellEquiv _ _ (fun s => rfl)

/-- The sum over (core, step, lane) is the sum over the batch. -/
theorem sum_batch {M : Type*} [AddCommMonoid M] (h : Fin 16384 → M) :
    (∑ core : Fin 2, ∑ i : Fin 32, ∑ l : Fin 256,
        h ⟨256 * (32 * core.val + i.val) + l.val, by have := core.isLt; have := i.isLt; have := l.isLt; omega⟩)
      = ∑ b : Fin 16384, h b := by
  rw [← Fintype.sum_equiv batchEquiv (fun p => h (batchEquiv p)) h (fun p => rfl)]
  rw [Fintype.sum_prod_type]
  refine Finset.sum_congr rfl fun core _ => ?_
  rw [Fintype.sum_prod_type]
  rfl

theorem sum_grid {M : Type*} [AddCommMonoid M] (f : Fin 16384 → Fin 7 → Fin 7 → M) :
    (∑ core : Fin 2, ∑ i : Fin 32, ∑ s : Fin 49, ∑ l : Fin 256,
        f ⟨256 * (32 * core.val + i.val) + l.val, by have := core.isLt; have := i.isLt; have := l.isLt; omega⟩
          ⟨s.val / 7, by have := s.isLt; omega⟩ ⟨s.val % 7, by omega⟩)
      = ∑ b : Fin 16384, ∑ g1 : Fin 7, ∑ g2 : Fin 7, f b g1 g2 := by
  rw [← sum_batch (fun b => ∑ g1 : Fin 7, ∑ g2 : Fin 7, f b g1 g2)]
  refine Finset.sum_congr rfl fun core _ => Finset.sum_congr rfl fun i _ => ?_
  rw [Finset.sum_comm]
  refine Finset.sum_congr rfl fun l _ => ?_
  exact sum_cell (f _)

end Cert.Yolo
-- ==== Proof.KernelValue.lean ====
/-
  The kernel program's result: after the region, the host sums the two cores' rows of the [2, 1, 128] array and keeps
  lanes 0 … 4; lane `j` of row `core` is the sum of the losses of the core's 32 blocks, so the result's entry `j` is
  the loss vector's entry `j` (the blocks' cells re-indexed as batch and grid cell).
-/
import proofs.«407106_j42099269435938_3_alg».proof.Proof.Final
import proofs.«407106_j42099269435938_3_alg».proof.Proof.Reindex
import proofs.«407106_j42099269435938_3_alg».proof.Proof.Spec
import Idealize.ShloMosaic.Lib.StableHlo.Run
import Idealize.ShloMosaic.PureOps.Ideal.Laws

noncomputable section

namespace Cert.KernelIdeal.Hand

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-- The host operations after the region, applied to a [2, 1, 128] array: the sum of its two rows, lanes 0 … 4 kept. -/
def tail (A : FVec Ideal S2x1x128 .f32) : FVec Ideal S5 .f32 :=
  shapeCast S5
    (extractStridedSlice S1x5 ![0, 0]
      (Host.reduceAdd (F := Ideal) A (constant (F := Ideal) S_ .f32 0x00000000#32) reducesTo_S2x1x128_S1x128_d0 h_S_)
      slices_S1x128_S1x5_0_0)
    shapeCasts_S1x5_S5

/-- Entry `j` of the tail is the sum over the two rows of lane `j` (the initial zero dropped). -/
theorem tail_apply (A : FVec Ideal S2x1x128 .f32) (j : Fin 5) :
    tail A (ix1 j) = ∑ core : Fin 2, A (ix3 core (0 : Fin 1) (⟨j.val, by omega⟩ : Fin 128)) := by
  unfold tail
  rw [shapeCast_apply _ shapeCasts_S1x5_S5 (ix1 j) (ix2 (0 : Fin 1) j) (by
    rw [Shape.rowMajor_val_two, Shape.rowMajor_val_one]
    show (0 : Nat) * 5 + j.val = j.val
    omega)]
  rw [extractStridedSlice_apply ![0, 0] _ slices_S1x128_S1x5_0_0 (ix2 (0 : Fin 1) j)
    (ix2 (0 : Fin 1) (⟨j.val, by omega⟩ : Fin 128)) (fun a => by
      match a with
      | ⟨0, _⟩ => rfl
      | ⟨1, _⟩ => show j.val = 0 + j.val; omega)]
  simp only [Host.reduceAdd, Ideal.hostReduceAdd_def]
  rw [Ideal.hostReduceAdd_single reducesTo_S2x1x128_S1x128_d0 (by decide)]
  rw [show constant (F := Ideal) S_ .f32 0x00000000#32 (Shape.Idx.first h_S_) = 0 from Ideal.ofBits_zero_f32, zero_add]
  refine Finset.sum_congr rfl fun k _ => ?_
  exact congrArg A (funext fun a => Fin.ext (by
    match a with
    | ⟨0, _⟩ => rfl
    | ⟨1, _⟩ => rfl
    | ⟨2, _⟩ => rfl))

/-- What the program's result buffer holds after the run: the tail of the array the region leaves. -/
theorem tail_eq (c : Dev nD) :
    Pipeline.afterTail₀ cfgs (dats m) 0 (V0 m) [hostOps1] c main_v7 = tail (regionOut m c) := by
  unfold Pipeline.afterTail₀
  show StableHlo.after hostOps1 _ (Proc.devRef .tc main_v7) = _
  after_results
  have hA : Pipeline.withArrays (cfgs 0).spec c (V0 m c) (fun w => (dats m 0 c).arrAt w (cfgs 0).N) (Proc.devRef .tc main_v4)
      = regionOut m c :=
    (Pipeline.withArrays_arr spec0 launch0.win.arr_inj c _ _ 2).trans (final_out m c)
  rw [hA]
  rfl

/-- The loss of the blocks at a point is the sum over the block's cells of the cell's loss read off the arguments. -/
theorem pointLoss_eq (c : Dev nD) (t : Fin cfg0.N) (j : Fin 5) :
    pointLoss m c t j = ∑ s : Fin 49, ∑ l : Fin 256,
      Cert.Yolo.cell (fun ch => m ((c.tc : Thread nD τ).loc main_arg0) (src t ch s l))
        (fun ch => m ((c.tc : Thread nD τ).loc main_arg1) (src t ch s l)) j := by
  unfold pointLoss blockLoss
  simp only [xblk0_apply, xblk1_apply]

/-- The result array: the loss vector of the two argument arrays. -/
def kres (c : Dev nD) : Buf (Elt Ideal) ((c.tc : Thread nD τ).loc main_v7) :=
  fun y => Cert.Yolo.total (m ((c.tc : Thread nD τ).loc main_arg0)) (m ((c.tc : Thread nD τ).loc main_arg1)) ⟨(y 0).val, (y 0).isLt⟩

/-- The tail of the region's array is the loss vector: rows are cores, a core's lane sums its 32 blocks, a block its
    49 · 256 cells, and (core, step, row, lane) runs over every (batch, cell) once. -/
theorem tail_regionOut (c : Dev nD) : tail (regionOut m c) = kres m c := by
  funext y
  obtain ⟨j, rfl⟩ : ∃ j : Fin 5, y = ix1 j := ⟨y 0, eq_ix1 y⟩
  rw [tail_apply]
  simp only [regionOut_lane, pointLoss_eq]
  exact Cert.Yolo.sum_grid (fun b g1 g2 =>
    Cert.Yolo.cell (fun ch => m ((c.tc : Thread nD τ).loc main_arg0) (ix4 b g1 g2 ch))
      (fun ch => m ((c.tc : Thread nD τ).loc main_arg1) (ix4 b g1 g2 ch)) j)

theorem run : θ_run defs (onTc (τ := τ) (main (F := Ideal))) ⟨m, fun _ => 0, ρ⟩ fun r => ∀ c : Dev nD,
      r.2.mem ((c.tc : Thread nD τ).loc main_v7) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v7 (Pipeline.mem_restRefs_of main_v7 (by decide) (by decide))).trans ((tail_eq m c).trans (tail_regionOut m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Hand

end
-- ==== Proof.RefCell.lean ====
/-
  The reference's five masked per-cell arrays (each entry of the loss before the sum over all cells), read at a cell:
  the cell's loss entry of the 30 prediction channels and the 30 label channels at that cell.
-/
import proofs.«407106_j42099269435938_3_alg».proof.Proof.RefStages
import proofs.«407106_j42099269435938_3_alg».proof.Proof.Spec
import Idealize.ShloMosaic.Lib.ValueIdx

noncomputable section

namespace Cert.ReferenceIdeal.RefValue

open Cert.ReferenceIdeal Cert.ReferenceIdeal.Gen Cert.ReferenceIdeal.ReadP Idealize.ShloMosaic Idealize.ShloMosaic.ValueIdx

/-- Stage `j` of the five: the masked centre, extent, larger and smaller intersection-over-union, class terms. -/
def stage (x0 x1 : (⟨S16384x7x7x30, .f32⟩ : BufTy).Contents (Elt Ideal)) (j : Fin 5) : (⟨S16384x7x7, .f32⟩ : BufTy).Contents (Elt Ideal) :=
  match j with
  | ⟨0, _⟩ => val_main_v173 (F := Ideal) x0 x1
  | ⟨1, _⟩ => val_main_v175 (F := Ideal) x0 x1
  | ⟨2, _⟩ => val_main_v177 (F := Ideal) x0 x1
  | ⟨3, _⟩ => val_main_v179 (F := Ideal) x0 x1
  | ⟨4, _⟩ => val_main_v181 (F := Ideal) x0 x1

/-! ## Indices of a cell -/

/-- The row-major position (b · 7 + g1) · 7 + g2 of a cell splits back into b, g1 and g2. -/
theorem cell_split (b : Fin 16384) (g1 g2 : Fin 7) :
    ((b.val * 7 + g1.val) * 7 + g2.val) / 49 = b.val ∧ ((b.val * 7 + g1.val) * 7 + g2.val) / 7 % 7 = g1.val
      ∧ ((b.val * 7 + g1.val) * 7 + g2.val) / 1 % 7 = g2.val := by
  have h1 := g1.isLt
  have h2 := g2.isLt
  omega

/-- A four-axis index is determined by its four coordinates. -/
theorem idx4_eq {n0 n1 n2 n3 : Nat} (i : (⟨4, ![n0, n1, n2, n3]⟩ : Shape).Idx) (a : Fin n0) (b : Fin n1) (c : Fin n2) (d : Fin n3)
    (h0 : (i 0).val = a.val) (h1 : (i 1).val = b.val) (h2 : (i 2).val = c.val) (h3 : (i 3).val = d.val) :
    i = ix4 a b c d := by
  funext e
  match e with
  | ⟨0, _⟩ => exact Fin.ext h0
  | ⟨1, _⟩ => exact Fin.ext h1
  | ⟨2, _⟩ => exact Fin.ext h2
  | ⟨3, _⟩ => exact Fin.ext h3

/-- A three-axis index is determined by its three coordinates. -/
theorem idx3_eq {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) :
    i = ix3 a b c := by
  funext e
  match e with
  | ⟨0, _⟩ => exact Fin.ext h0
  | ⟨1, _⟩ => exact Fin.ext h1
  | ⟨2, _⟩ => exact Fin.ext h2

/-- A four-axis index whose first three coordinates are the parts of a cell's row-major position is that cell's. -/
theorem cell_idx {n : Nat} (i : (⟨4, ![16384, 7, 7, n]⟩ : Shape).Idx) (b : Fin 16384) (g1 g2 : Fin 7) (c : Fin n)
    (h0 : (i 0).val = ((b.val * 7 + g1.val) * 7 + g2.val) / 49) (h1 : (i 1).val = ((b.val * 7 + g1.val) * 7 + g2.val) / 7 % 7)
    (h2 : (i 2).val = ((b.val * 7 + g1.val) * 7 + g2.val) / 1 % 7) (h3 : (i 3).val = c.val) :
    i = ix4 b g1 g2 c :=
  idx4_eq i b g1 g2 c (h0.trans (cell_split b g1 g2).1) (h1.trans (cell_split b g1 g2).2.1) (h2.trans (cell_split b g1 g2).2.2) h3

section Cell

variable (x0 x1 : (⟨S16384x7x7x30, .f32⟩ : BufTy).Contents (Elt Ideal)) (b : Fin 16384) (g1 g2 : Fin 7)

/-! ## The channels of a cell -/

/-- The object indicator of the cell. -/
theorem mask_cell : val_main_v1 (F := Ideal) x1 (ix3 b g1 g2) = x1 (ix4 b g1 g2 0) := by
  rw [val_main_v1_apply, val_main_v0_apply]
  exact congrArg x1 (cell_idx _ b g1 g2 (0 : Fin 30) (by rfl) (by rfl) (by rfl) (by rfl))

/-- The first predicted box of the cell: centre x. -/
theorem box1_x : val_main_v6 (F := Ideal) x0 (ix3 b g1 g2) = x0 (ix4 b g1 g2 1) := by
  rw [val_main_v6_apply, val_main_v5_apply, val_main_v2_apply]
  exact congrArg x0 (cell_idx _ b g1 g2 (1 : Fin 30) (by rfl) (by rfl) (by rfl) (by rfl))

/-- The first predicted box of the cell: centre y. -/
theorem box1_y : val_main_v8 (F := Ideal) x0 (ix3 b g1 g2) = x0 (ix4 b g1 g2 2) := by
  rw [val_main_v8_apply, val_main_v7_apply, val_main_v2_apply]
  exact congrArg x0 (cell_idx _ b g1 g2 (2 : Fin 30) (by rfl) (by rfl) (by rfl) (by rfl))

/-- The first predicted box of the cell: width. -/
theorem box1_w : val_main_v10 (F := Ideal) x0 (ix3 b g1 g2) = x0 (ix4 b g1 g2 3) := by
  rw [val_main_v10_apply, val_main_v9_apply, val_main_v2_apply]
  exact congrArg x0 (cell_idx _ b g1 g2 (3 : Fin 30) (by rfl) (by rfl) (by rfl) (by rfl))

/-- The first predicted box of the cell: height. -/
theorem box1_h : val_main_v12 (F := Ideal) x0 (ix3 b g1 g2) = x0 (ix4 b g1 g2 4) := by
  rw [val_main_v12_apply, val_main_v11_apply, val_main_v2_apply]
  exact congrArg x0 (cell_idx _ b g1 g2 (4 : Fin 30) (by rfl) (by rfl) (by rfl) (by rfl))

/-- The true box of the cell: centre x. -/
theorem truth_x : val_main_v26 (F := Ideal) x1 (ix3 b g1 g2) = x1 (ix4 b g1 g2 1) := by
  rw [val_main_v26_apply, val_main_v25_apply, val_main_v4_apply]
  exact congrArg x1 (cell_idx _ b g1 g2 (1 : Fin 30) (by rfl) (by rfl) (by rfl) (by rfl))

/-- The true box of the cell: centre y. -/
theorem truth_y : val_main_v28 (F := Ideal) x1 (ix3 b g1 g2) = x1 (ix4 b g1 g2 2) := by
  rw [val_main_v28_apply, val_main_v27_apply, val_main_v4_apply]
  exact congrArg x1 (cell_idx _ b g1 g2 (2 : Fin 30) (by rfl) (by rfl) (by rfl) (by rfl))

/-- The true box of the cell: width. -/
theorem truth_w : val_main_v30 (F := Ideal) x1 (ix3 b g1 g2) = x1 (ix4 b g1 g2 3) := by
  rw [val_main_v30_apply, val_main_v29_apply, val_main_v4_apply]
  exact congrArg x1 (cell_idx _ b g1 g2 (3 : Fin 30) (by rfl) (by rfl) (by rfl) (by rfl))

/-- The true box of the cell: height. -/
theorem truth_h : val_main_v32 (F := Ideal) x1 (ix3 b g1 g2) = x1 (ix4 b g1 g2 4) := by
  rw [val_main_v32_apply, val_main_v31_apply, val_main_v4_apply]
  exact congrArg x1 (cell_idx _ b g1 g2 (4 : Fin 30) (by rfl) (by rfl) (by rfl) (by rfl))

/-- The second predicted box of the cell: centre x. -/
theorem box2_x : val_main_v68 (F := Ideal) x0 (ix3 b g1 g2) = x0 (ix4 b g1 g2 6) := by
  rw [val_main_v68_apply, val_main_v67_apply, val_main_v3_apply]
  exact congrArg x0 (cell_idx _ b g1 g2 (6 : Fin 30) (by rfl) (by rfl) (by rfl) (by rfl))

/-- The second predicted box of the cell: centre y. -/
theorem box2_y : val_main_v70 (F := Ideal) x0 (ix3 b g1 g2) = x0 (ix4 b g1 g2 7) := by
  rw [val_main_v70_apply, val_main_v69_apply, val_main_v3_apply]
  exact congrArg x0 (cell_idx _ b g1 g2 (7 : Fin 30) (by rfl) (by rfl) (by rfl) (by rfl))

/-- The second predicted box of the cell: width. -/
theorem box2_w : val_main_v72 (F := Ideal) x0 (ix3 b g1 g2) = x0 (ix4 b g1 g2 8) := by
  rw [val_main_v72_apply, val_main_v71_apply, val_main_v3_apply]
  exact congrArg x0 (cell_idx _ b g1 g2 (8 : Fin 30) (by rfl) (by rfl) (by rfl) (by rfl))

/-- The second predicted box of the cell: height. -/
theorem box2_h : val_main_v74 (F := Ideal) x0 (ix3 b g1 g2) = x0 (ix4 b g1 g2 9) := by
  rw [val_main_v74_apply, val_main_v73_apply, val_main_v3_apply]
  exact congrArg x0 (cell_idx _ b g1 g2 (9 : Fin 30) (by rfl) (by rfl) (by rfl) (by rfl))

/-- The true box read again beside the second box: centre x. -/
theorem truth_x2 : val_main_v88 (F := Ideal) x1 (ix3 b g1 g2) = x1 (ix4 b g1 g2 1) := by
  rw [val_main_v88_apply, val_main_v87_apply, val_main_v4_apply]
  exact congrArg x1 (cell_idx _ b g1 g2 (1 : Fin 30) (by rfl) (by rfl) (by rfl) (by rfl))

/-- The true box read again beside the second box: centre y. -/
theorem truth_y2 : val_main_v90 (F := Ideal) x1 (ix3 b g1 g2) = x1 (ix4 b g1 g2 2) := by
  rw [val_main_v90_apply, val_main_v89_apply, val_main_v4_apply]
  exact congrArg x1 (cell_idx _ b g1 g2 (2 : Fin 30) (by rfl) (by rfl) (by rfl) (by rfl))

/-- The true box read again beside the second box: width. -/
theorem truth_w2 : val_main_v92 (F := Ideal) x1 (ix3 b g1 g2) = x1 (ix4 b g1 g2 3) := by
  rw [val_main_v92_apply, val_main_v91_apply, val_main_v4_apply]
  exact congrArg x1 (cell_idx _ b g1 g2 (3 : Fin 30) (by rfl) (by rfl) (by rfl) (by rfl))

/-- The true box read again beside the second box: height. -/
theorem truth_h2 : val_main_v94 (F := Ideal) x1 (ix3 b g1 g2) = x1 (ix4 b g1 g2 4) := by
  rw [val_main_v94_apply, val_main_v93_apply, val_main_v4_apply]
  exact congrArg x1 (cell_idx _ b g1 g2 (4 : Fin 30) (by rfl) (by rfl) (by rfl) (by rfl))

/-- The true box read again for the coordinate terms: centre x. -/
theorem truth_x3 : val_main_v137 (F := Ideal) x1 (ix3 b g1 g2) = x1 (ix4 b g1 g2 1) := by
  rw [val_main_v137_apply, val_main_v136_apply, val_main_v4_apply]
  exact congrArg x1 (cell_idx _ b g1 g2 (1 : Fin 30) (by rfl) (by rfl) (by rfl) (by rfl))

/-- The true box read again for the coordinate terms: centre y. -/
theorem truth_y3 : val_main_v143 (F := Ideal) x1 (ix3 b g1 g2) = x1 (ix4 b g1 g2 2) := by
  rw [val_main_v143_apply, val_main_v142_apply, val_main_v4_apply]
  exact congrArg x1 (cell_idx _ b g1 g2 (2 : Fin 30) (by rfl) (by rfl) (by rfl) (by rfl))

/-- The true box read again for the coordinate terms: width. -/
theorem truth_w3 : val_main_v153 (F := Ideal) x1 (ix3 b g1 g2) = x1 (ix4 b g1 g2 3) := by
  rw [val_main_v153_apply, val_main_v152_apply, val_main_v4_apply]
  exact congrArg x1 (cell_idx _ b g1 g2 (3 : Fin 30) (by rfl) (by rfl) (by rfl) (by rfl))

/-- The true box read again for the coordinate terms: height. -/
theorem truth_h3 : val_main_v161 (F := Ideal) x1 (ix3 b g1 g2) = x1 (ix4 b g1 g2 4) := by
  rw [val_main_v161_apply, val_main_v160_apply, val_main_v4_apply]
  exact congrArg x1 (cell_idx _ b g1 g2 (4 : Fin 30) (by rfl) (by rfl) (by rfl) (by rfl))

/-! ## The two intersection-over-unions and the responsible box -/

/-- The first predicted box's intersection-over-union with the true box. -/
theorem iou1_cell : val_main_v66 (F := Ideal) x0 x1 (ix3 b g1 g2) = Cert.Yolo.iou1 (fun ch => x0 (ix4 b g1 g2 ch)) (fun ch => x1 (ix4 b g1 g2 ch)) := by
  simp only [
    val_main_cst_apply, val_main_v13_apply, val_main_v14_apply, val_main_v15_apply, val_main_cst_0_apply, val_main_v16_apply, val_main_v17_apply,
    val_main_v18_apply, val_main_cst_1_apply, val_main_v19_apply, val_main_v20_apply, val_main_v21_apply, val_main_cst_2_apply, val_main_v22_apply,
    val_main_v23_apply, val_main_v24_apply, val_main_cst_3_apply, val_main_v33_apply, val_main_v34_apply, val_main_v35_apply, val_main_cst_4_apply,
    val_main_v36_apply, val_main_v37_apply, val_main_v38_apply, val_main_cst_5_apply, val_main_v39_apply, val_main_v40_apply, val_main_v41_apply,
    val_main_cst_6_apply, val_main_v42_apply, val_main_v43_apply, val_main_v44_apply, val_main_v45_apply, val_main_v46_apply, val_main_v47_apply,
    val_main_v48_apply, val_main_v49_apply, val_main_v50_apply, val_main_cst_7_apply, val_main_v51_apply, val_main_v52_apply, val_main_cst_8_apply,
    val_main_v53_apply, val_main_v54_apply, val_main_v55_apply, val_main_v56_apply, val_main_cst_9_apply, val_main_call0_v0_apply,
    val_main_call0_v1_apply, val_main_v57_apply, val_main_v58_apply, val_main_v59_apply, val_main_v60_apply, val_main_v61_apply, val_main_v62_apply,
    val_main_v63_apply, val_main_v64_apply, val_main_v65_apply, val_main_v66_apply,
    box1_x, box1_y, box1_w, box1_h, truth_x, truth_y, truth_w, truth_h]
  simp only [Ideal.hostDivf_def, Ideal.mulf_def, Ideal.addf_def, Ideal.subf_def, Ideal.minimumf_def, Ideal.maximumf_def, Ideal.cmpf_def, Ideal.ofBits_def]
  rfl

/-- The second predicted box's intersection-over-union with the true box. -/
theorem iou2_cell : val_main_v128 (F := Ideal) x0 x1 (ix3 b g1 g2) = Cert.Yolo.iou2 (fun ch => x0 (ix4 b g1 g2 ch)) (fun ch => x1 (ix4 b g1 g2 ch)) := by
  simp only [
    val_main_cst_10_apply, val_main_v75_apply, val_main_v76_apply, val_main_v77_apply, val_main_cst_11_apply, val_main_v78_apply, val_main_v79_apply,
    val_main_v80_apply, val_main_cst_12_apply, val_main_v81_apply, val_main_v82_apply, val_main_v83_apply, val_main_cst_13_apply, val_main_v84_apply,
    val_main_v85_apply, val_main_v86_apply, val_main_cst_14_apply, val_main_v95_apply, val_main_v96_apply, val_main_v97_apply, val_main_cst_15_apply,
    val_main_v98_apply, val_main_v99_apply, val_main_v100_apply, val_main_cst_16_apply, val_main_v101_apply, val_main_v102_apply,
    val_main_v103_apply, val_main_cst_17_apply, val_main_v104_apply, val_main_v105_apply, val_main_v106_apply, val_main_v107_apply,
    val_main_v108_apply, val_main_v109_apply, val_main_v110_apply, val_main_v111_apply, val_main_v112_apply, val_main_cst_18_apply,
    val_main_v113_apply, val_main_v114_apply, val_main_cst_19_apply, val_main_v115_apply, val_main_v116_apply, val_main_v117_apply,
    val_main_v118_apply, val_main_cst_20_apply, val_main_call1_v0_apply, val_main_call1_v1_apply, val_main_v119_apply, val_main_v120_apply,
    val_main_v121_apply, val_main_v122_apply, val_main_v123_apply, val_main_v124_apply, val_main_v125_apply, val_main_v126_apply,
    val_main_v127_apply, val_main_v128_apply,
    box2_x, box2_y, box2_w, box2_h, truth_x2, truth_y2, truth_w2, truth_h2]
  simp only [Ideal.hostDivf_def, Ideal.mulf_def, Ideal.addf_def, Ideal.subf_def, Ideal.minimumf_def, Ideal.maximumf_def, Ideal.cmpf_def, Ideal.ofBits_def]
  rfl

/-- Whether the first box is the responsible one. -/
theorem best_cell : val_main_v129 (F := Ideal) x0 x1 (ix3 b g1 g2) = Cert.Yolo.best (fun ch => x0 (ix4 b g1 g2 ch)) (fun ch => x1 (ix4 b g1 g2 ch)) := by
  rw [val_main_v129_apply, iou1_cell, iou2_cell, Ideal.cmpf_def]
  rfl

/-- The larger of the two intersection-over-unions. -/
theorem iouMax_cell : val_main_v132 (F := Ideal) x0 x1 (ix3 b g1 g2) = Cert.Yolo.iouMax (fun ch => x0 (ix4 b g1 g2 ch)) (fun ch => x1 (ix4 b g1 g2 ch)) := by
  rw [val_main_v132_apply, best_cell, iou1_cell, iou2_cell]
  rfl

/-- The smaller of the two intersection-over-unions. -/
theorem iouMin_cell : val_main_v133 (F := Ideal) x0 x1 (ix3 b g1 g2) = Cert.Yolo.iouMin (fun ch => x0 (ix4 b g1 g2 ch)) (fun ch => x1 (ix4 b g1 g2 ch)) := by
  rw [val_main_v133_apply, best_cell, iou1_cell, iou2_cell]
  rfl

/-! ## The responsible box's channels -/

/-- Channel `c` of the responsible box: channel `c` of the first box when it is responsible, else of the second. -/
theorem chosen_cell (c : Fin 5) :
    val_main_v131 (F := Ideal) x0 x1 (ix4 b g1 g2 c)
      = Scalar.select (Cert.Yolo.best (fun ch => x0 (ix4 b g1 g2 ch)) (fun ch => x1 (ix4 b g1 g2 ch)))
          (x0 (ix4 b g1 g2 (⟨c.val, by have := c.isLt; omega⟩ : Fin 30))) (x0 (ix4 b g1 g2 (⟨5 + c.val, by have := c.isLt; omega⟩ : Fin 30))) := by
  rw [val_main_v131_apply, val_main_call2_v0_apply, val_main_v130_apply, val_main_v2_apply, val_main_v3_apply,
    ← best_cell x0 x1 b g1 g2]
  refine congr (congr (congrArg Scalar.select (congrArg (val_main_v129 (F := Ideal) x0 x1) ?_)) (congrArg x0 ?_)) (congrArg x0 ?_)
  · exact idx3_eq _ b g1 g2 (by rfl) (by rfl) (by rfl)
  · exact idx4_eq _ b g1 g2 _ (by rfl) (by rfl) (by rfl) (by rfl)
  · exact idx4_eq _ b g1 g2 _ (by rfl) (by rfl) (by rfl) (by rfl)

/-- The responsible box of the cell: centre x. -/
theorem chosen_x : val_main_v135 (F := Ideal) x0 x1 (ix3 b g1 g2) = Cert.Yolo.sel (fun ch => x0 (ix4 b g1 g2 ch)) (fun ch => x1 (ix4 b g1 g2 ch)) 1 6 := by
  rw [val_main_v135_apply, val_main_v134_apply,
    show idx_main_v134 (idx_main_v135 (ix3 b g1 g2)) = ix4 b g1 g2 (1 : Fin 5) from cell_idx _ b g1 g2 1 (by rfl) (by rfl) (by rfl) (by rfl),
    chosen_cell]
  rfl

/-- The responsible box of the cell: centre y. -/
theorem chosen_y : val_main_v141 (F := Ideal) x0 x1 (ix3 b g1 g2) = Cert.Yolo.sel (fun ch => x0 (ix4 b g1 g2 ch)) (fun ch => x1 (ix4 b g1 g2 ch)) 2 7 := by
  rw [val_main_v141_apply, val_main_v140_apply,
    show idx_main_v140 (idx_main_v141 (ix3 b g1 g2)) = ix4 b g1 g2 (2 : Fin 5) from cell_idx _ b g1 g2 2 (by rfl) (by rfl) (by rfl) (by rfl),
    chosen_cell]
  rfl

/-- The responsible box of the cell: width. -/
theorem chosen_w : val_main_v150 (F := Ideal) x0 x1 (ix3 b g1 g2) = Cert.Yolo.sel (fun ch => x0 (ix4 b g1 g2 ch)) (fun ch => x1 (ix4 b g1 g2 ch)) 3 8 := by
  rw [val_main_v150_apply, val_main_v149_apply,
    show idx_main_v149 (idx_main_v150 (ix3 b g1 g2)) = ix4 b g1 g2 (3 : Fin 5) from cell_idx _ b g1 g2 3 (by rfl) (by rfl) (by rfl) (by rfl),
    chosen_cell]
  rfl

/-- The responsible box of the cell: height. -/
theorem chosen_h : val_main_v158 (F := Ideal) x0 x1 (ix3 b g1 g2) = Cert.Yolo.sel (fun ch => x0 (ix4 b g1 g2 ch)) (fun ch => x1 (ix4 b g1 g2 ch)) 4 9 := by
  rw [val_main_v158_apply, val_main_v157_apply,
    show idx_main_v157 (idx_main_v158 (ix3 b g1 g2)) = ix4 b g1 g2 (4 : Fin 5) from cell_idx _ b g1 g2 4 (by rfl) (by rfl) (by rfl) (by rfl),
    chosen_cell]
  rfl

/-! ## The five entries of the cell's loss -/

/-- The centre term of the responsible box. -/
theorem centre_cell : val_main_v148 (F := Ideal) x0 x1 (ix3 b g1 g2) = Cert.Yolo.centre (fun ch => x0 (ix4 b g1 g2 ch)) (fun ch => x1 (ix4 b g1 g2 ch)) := by
  simp only [val_main_v138_apply, val_main_v139_apply, val_main_v144_apply, val_main_v145_apply, val_main_v146_apply, val_main_cst_21_apply, val_main_v147_apply, val_main_v148_apply,
    chosen_x, chosen_y, truth_x3, truth_y3]
  simp only [Ideal.mulf_def, Ideal.addf_def, Ideal.subf_def, Ideal.ofBits_def]
  rfl

/-- The extent term of the responsible box. -/
theorem extent_cell : val_main_v167 (F := Ideal) x0 x1 (ix3 b g1 g2) = Cert.Yolo.extent (fun ch => x0 (ix4 b g1 g2 ch)) (fun ch => x1 (ix4 b g1 g2 ch)) := by
  simp only [val_main_v151_apply, val_main_v154_apply, val_main_v155_apply, val_main_v156_apply, val_main_v159_apply, val_main_v162_apply, val_main_v163_apply, val_main_v164_apply, val_main_v165_apply, val_main_cst_22_apply, val_main_v166_apply, val_main_v167_apply,
    chosen_w, chosen_h, truth_w3, truth_h3]
  simp only [Ideal.mulf_def, Ideal.addf_def, Ideal.subf_def, Ideal.hostUnary_sqrt_def, Ideal.ofBits_def]
  rfl

/-- The class term: the sum over the 20 classes of the squared difference of the scores. -/
theorem classes_cell : val_main_v172 (F := Ideal) x0 x1 (ix3 b g1 g2) = Cert.Yolo.classes (fun ch => x0 (ix4 b g1 g2 ch)) (fun ch => x1 (ix4 b g1 g2 ch)) := by
  rw [val_main_v172_apply, val_main_cst_23_apply, Ideal.ofBits_def, Ideal.ofBits_zero_f32, zero_add]
  unfold Cert.Yolo.classes
  refine Finset.sum_congr rfl fun k _ => ?_
  rw [val_main_v171_apply, val_main_v170_apply, val_main_v168_apply, val_main_v169_apply,
    show idx_main_v168 (idx_main_v172 (ix3 b g1 g2) k) = ix4 b g1 g2 (⟨10 + k.val, by have := k.isLt; omega⟩ : Fin 30) from
      idx4_eq _ b g1 g2 _ (by rfl) (by rfl) (by rfl) (by rfl),
    show idx_main_v169 (idx_main_v172 (ix3 b g1 g2) k) = ix4 b g1 g2 (⟨10 + k.val, by have := k.isLt; omega⟩ : Fin 30) from
      idx4_eq _ b g1 g2 _ (by rfl) (by rfl) (by rfl) (by rfl)]
  rfl

end Cell

theorem stage_cell (x0 x1 : (⟨S16384x7x7x30, .f32⟩ : BufTy).Contents (Elt Ideal)) (j : Fin 5) (b : Fin 16384) (g1 g2 : Fin 7) :
    stage x0 x1 j (ix3 b g1 g2)
      = Cert.Yolo.cell (fun ch => x0 (ix4 b g1 g2 ch)) (fun ch => x1 (ix4 b g1 g2 ch)) j := by
  match j with
  | ⟨0, _⟩ =>
    show val_main_v173 (F := Ideal) x0 x1 (ix3 b g1 g2) = _
    rw [val_main_v173_apply, centre_cell, mask_cell]
    rfl
  | ⟨1, _⟩ =>
    show val_main_v175 (F := Ideal) x0 x1 (ix3 b g1 g2) = _
    rw [val_main_v175_apply, extent_cell, mask_cell]
    rfl
  | ⟨2, _⟩ =>
    show val_main_v177 (F := Ideal) x0 x1 (ix3 b g1 g2) = _
    rw [val_main_v177_apply, iouMax_cell, mask_cell]
    rfl
  | ⟨3, _⟩ =>
    show val_main_v179 (F := Ideal) x0 x1 (ix3 b g1 g2) = _
    rw [val_main_v179_apply, iouMin_cell, mask_cell]
    rfl
  | ⟨4, _⟩ =>
    show val_main_v181 (F := Ideal) x0 x1 (ix3 b g1 g2) = _
    rw [val_main_v181_apply, classes_cell, mask_cell]
    rfl

end Cert.ReferenceIdeal.RefValue

end
-- ==== Proof.LibIdx3.lean ====
/-
  A rank-3 index set is the product of its three coordinate ranges, so a sum over it (over any commutative
  monoid) is the triple sum over the coordinates, outermost axis first.
-/
import Idealize.ShloMosaic.Lib.ValueIdx

noncomputable section

namespace Cert.Lib.Idx3

open Idealize.ShloMosaic Idealize.ShloMosaic.ValueIdx

/-- An index of a rank-3 shape is the triple of its coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over its coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Lib.Idx3

end
-- ==== Proof.RefValue.lean ====
/-
  The reference's result: entry `j` is zero plus the sum over all cells of stage `j`, which is the loss vector's entry.
-/
import proofs.«407106_j42099269435938_3_alg».proof.Proof.RefCell
import proofs.«407106_j42099269435938_3_alg».proof.Proof.LibIdx3

noncomputable section

namespace Cert.ReferenceIdeal.RefValue

open Cert.ReferenceIdeal Cert.ReferenceIdeal.Gen Cert.ReferenceIdeal.ReadP Idealize.ShloMosaic Idealize.ShloMosaic.TcCoe Idealize.ShloMosaic.ValueIdx Idealize.SL.Sem

/-- Five one-element pieces laid end to end, read at position `j`: piece `j` at its one index. -/
theorem concat5_unit_apply {α : Type} (f : Fin 5 → (S1.Idx → α))
    (h : Shape.Concatenates [S1, S1, S1, S1, S1] S5 0) (j : Fin 5) (i : S1.Idx) :
    concatenate S5 0 [⟨S1, f 0⟩, ⟨S1, f 1⟩, ⟨S1, f 2⟩, ⟨S1, f 3⟩, ⟨S1, f 4⟩] h (ix1 j) = f j i :=
  concatenate_ofFn_unit_apply (t := S5) (s₁ := S1) 0 f h rfl rfl (ix1 j) j rfl i
    (fun b hb => absurd (Subsingleton.elim _ _) hb)

/-- Piece `j` of the result: the one-element array that repeats the sum of stage `j`. -/
def piece (x0 x1 : (⟨S16384x7x7x30, .f32⟩ : BufTy).Contents (Elt Ideal)) (j : Fin 5) : S1.Idx → EReal :=
  match j with
  | ⟨0, _⟩ => val_main_v183 (F := Ideal) x0 x1
  | ⟨1, _⟩ => val_main_v184 (F := Ideal) x0 x1
  | ⟨2, _⟩ => val_main_v185 (F := Ideal) x0 x1
  | ⟨3, _⟩ => val_main_v186 (F := Ideal) x0 x1
  | ⟨4, _⟩ => val_main_v187 (F := Ideal) x0 x1

/-- The result is the five pieces laid end to end. -/
theorem val188_eq_concat (x0 x1 : (⟨S16384x7x7x30, .f32⟩ : BufTy).Contents (Elt Ideal)) :
    val_main_v188 (F := Ideal) x0 x1
      = concatenate S5 0 [⟨S1, piece x0 x1 0⟩, ⟨S1, piece x0 x1 1⟩, ⟨S1, piece x0 x1 2⟩, ⟨S1, piece x0 x1 3⟩, ⟨S1, piece x0 x1 4⟩]
          concatenates_S1_S1_S1_S1_S1_S5_d0 := rfl

/-- A piece's one entry is the sum of its stage over all cells: the reduction starts from the word of zero, which is zero. -/
theorem piece_apply (x0 x1 : (⟨S16384x7x7x30, .f32⟩ : BufTy).Contents (Elt Ideal)) (j : Fin 5) (i : S1.Idx) :
    piece x0 x1 j i = ∑ k : S16384x7x7.Idx, stage x0 x1 j k := by
  match j with
  | ⟨0, _⟩ =>
    show val_main_v183 (F := Ideal) x0 x1 i = ∑ k : S16384x7x7.Idx, val_main_v173 (F := Ideal) x0 x1 k
    rw [val_main_v183_apply, val_main_v174_apply, val_main_cst_24_apply, Ideal.ofBits_def, Ideal.ofBits_zero_f32]
    exact zero_add _
  | ⟨1, _⟩ =>
    show val_main_v184 (F := Ideal) x0 x1 i = ∑ k : S16384x7x7.Idx, val_main_v175 (F := Ideal) x0 x1 k
    rw [val_main_v184_apply, val_main_v176_apply, val_main_cst_25_apply, Ideal.ofBits_def, Ideal.ofBits_zero_f32]
    exact zero_add _
  | ⟨2, _⟩ =>
    show val_main_v185 (F := Ideal) x0 x1 i = ∑ k : S16384x7x7.Idx, val_main_v177 (F := Ideal) x0 x1 k
    rw [val_main_v185_apply, val_main_v178_apply, val_main_cst_26_apply, Ideal.ofBits_def, Ideal.ofBits_zero_f32]
    exact zero_add _
  | ⟨3, _⟩ =>
    show val_main_v186 (F := Ideal) x0 x1 i = ∑ k : S16384x7x7.Idx, val_main_v179 (F := Ideal) x0 x1 k
    rw [val_main_v186_apply, val_main_v180_apply, val_main_cst_27_apply, Ideal.ofBits_def, Ideal.ofBits_zero_f32]
    exact zero_add _
  | ⟨4, _⟩ =>
    show val_main_v187 (F := Ideal) x0 x1 i = ∑ k : S16384x7x7.Idx, val_main_v181 (F := Ideal) x0 x1 k
    rw [val_main_v187_apply, val_main_v182_apply, val_main_cst_28_apply, Ideal.ofBits_def, Ideal.ofBits_zero_f32]
    exact zero_add _

/-- The sum of a stage over all cells is the triple sum of the cells' loss entries: the loss vector's entry. -/
theorem sum_stage (x0 x1 : (⟨S16384x7x7x30, .f32⟩ : BufTy).Contents (Elt Ideal)) (j : Fin 5) :
    ∑ k : S16384x7x7.Idx, stage x0 x1 j k = Cert.Yolo.total x0 x1 j := by
  refine (Cert.Lib.Idx3.sum_idx3 (n0 := 16384) (n1 := 7) (n2 := 7) (stage x0 x1 j)).trans ?_
  unfold Cert.Yolo.total
  refine Finset.sum_congr rfl fun b _ => Finset.sum_congr rfl fun g1 _ => Finset.sum_congr rfl fun g2 _ => ?_
  exact stage_cell x0 x1 j b g1 g2

/-- The reference's result at entry `j`, as a function of the two argument arrays. -/
theorem val188_apply (x0 x1 : (⟨S16384x7x7x30, .f32⟩ : BufTy).Contents (Elt Ideal)) (j : Fin 5) :
    val_main_v188 (F := Ideal) x0 x1 (ix1 j) = Cert.Yolo.total x0 x1 j := by
  rw [val188_eq_concat]
  refine (concat5_unit_apply (piece x0 x1) concatenates_S1_S1_S1_S1_S1_S5_d0 j (ix1 0)).trans ?_
  rw [piece_apply, sum_stage]

end Cert.ReferenceIdeal.RefValue

end
-- ==== Proof.RefRunHand.lean ====
/- The reference program's run, window by window. The 224 host operations of @main (the list of the generated run module, kept as scratch/Run.generated.lean) are cut
   into windows of at most 10 operations, the cuts falling on the printed windows of @main and before the final concatenate.
   `stK V0` is what the device's buffers hold after the first K windows from contents `V0`; for every buffer written by then
   and still read later, `stK_‹buffer›` says it holds the stage `val_‹buffer›` of the two arguments: a buffer the window
   writes by running the window's operations over the stages before it, a buffer it does not write by being kept. -/
import proofs.«407106_j42099269435938_3_alg».proof.Proof.RefStages
import Idealize.ShloMosaic.Lib.StableHlo.Run

noncomputable section

namespace Cert.ReferenceIdeal.RunHand

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- Two stretches run one after the other leave what their concatenation leaves. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-- A property of every operation of two stretches is one of every operation of their concatenation. -/
theorem forall_append {p : HloOp τ sig (Elt F) → Prop} {l₁ l₂ : List (HloOp τ sig (Elt F))} (h₁ : l₁.Forall p) (h₂ : l₂.Forall p) :
    (l₁ ++ l₂).Forall p :=
  List.forall_iff_forall_mem.2 fun x hx => (List.mem_append.1 hx).elim (List.forall_iff_forall_mem.1 h₁ x) (List.forall_iff_forall_mem.1 h₂ x)
theorem mem_append_forall {p : HloOp τ sig (Elt F) → Prop} {l₁ l₂ : List (HloOp τ sig (Elt F))} (h₁ : ∀ op ∈ l₁, p op) (h₂ : ∀ op ∈ l₂, p op) :
    ∀ op ∈ l₁ ++ l₂, p op :=
  fun x hx => (List.mem_append.1 hx).elim (h₁ x) (h₂ x)

/-- The device's buffer contents before the first window. -/
def st0 (V0 : Valuation τ sig (Elt F)) : Valuation τ sig (Elt F) := V0
theorem st0_main_arg0 (V0 : Valuation τ sig (Elt F)) : st0 V0 (no_index (Proc.devRef .tc main_arg0)) = V0 (Proc.devRef .tc main_arg0) := rfl
theorem st0_main_arg1 (V0 : Valuation τ sig (Elt F)) : st0 V0 (no_index (Proc.devRef .tc main_arg1)) = V0 (Proc.devRef .tc main_arg1) := rfl

/-- Operations 1 … 10 of @main. -/
abbrev w1 : List (HloOp τ sig (Elt F)) :=
  [ unary main_arg1 main_v0 ((extractStridedSlice S16384x7x7x1 ![0, 0, 0, 0] · slices_S16384x7x7x30_S16384x7x7x1_0_0_0_0) : (⟨S16384x7x7x30, .f32⟩ : BufTy).Contents (Elt F) → (⟨S16384x7x7x1, .f32⟩ : BufTy).Contents (Elt F)),
    reshape main_v0 main_v1 rfl shapeCasts_S16384x7x7x1_S16384x7x7,
    unary main_arg0 main_v2 ((extractStridedSlice S16384x7x7x5 ![0, 0, 0, 0] · slices_S16384x7x7x30_S16384x7x7x5_0_0_0_0) : (⟨S16384x7x7x30, .f32⟩ : BufTy).Contents (Elt F) → (⟨S16384x7x7x5, .f32⟩ : BufTy).Contents (Elt F)),
    unary main_arg0 main_v3 ((extractStridedSlice S16384x7x7x5 ![0, 0, 0, 5] · slices_S16384x7x7x30_S16384x7x7x5_0_0_0_5) : (⟨S16384x7x7x30, .f32⟩ : BufTy).Contents (Elt F) → (⟨S16384x7x7x5, .f32⟩ : BufTy).Contents (Elt F)),
    unary main_arg1 main_v4 ((extractStridedSlice S16384x7x7x5 ![0, 0, 0, 0] · slices_S16384x7x7x30_S16384x7x7x5_0_0_0_0) : (⟨S16384x7x7x30, .f32⟩ : BufTy).Contents (Elt F) → (⟨S16384x7x7x5, .f32⟩ : BufTy).Contents (Elt F)),
    unary main_v2 main_v5 ((extractStridedSlice S16384x7x7x1 ![0, 0, 0, 1] · slices_S16384x7x7x5_S16384x7x7x1_0_0_0_1) : (⟨S16384x7x7x5, .f32⟩ : BufTy).Contents (Elt F) → (⟨S16384x7x7x1, .f32⟩ : BufTy).Contents (Elt F)),
    reshape main_v5 main_v6 rfl shapeCasts_S16384x7x7x1_S16384x7x7,
    unary main_v2 main_v7 ((extractStridedSlice S16384x7x7x1 ![0, 0, 0, 2] · slices_S16384x7x7x5_S16384x7x7x1_0_0_0_2) : (⟨S16384x7x7x5, .f32⟩ : BufTy).Contents (Elt F) → (⟨S16384x7x7x1, .f32⟩ : BufTy).Contents (Elt F)),
    reshape main_v7 main_v8 rfl shapeCasts_S16384x7x7x1_S16384x7x7,
    unary main_v2 main_v9 ((extractStridedSlice S16384x7x7x1 ![0, 0, 0, 3] · slices_S16384x7x7x5_S16384x7x7x1_0_0_0_3) : (⟨S16384x7x7x5, .f32⟩ : BufTy).Contents (Elt F) → (⟨S16384x7x7x1, .f32⟩ : BufTy).Contents (Elt F)) ]
theorem w1_sub : (w1 : List (HloOp τ sig (Elt F))).Forall fun op => op.bufs ⊆ tcRefs τ sig :=
  ⟨unary_bufs_sub .., reshape_bufs_sub .., unary_bufs_sub .., unary_bufs_sub .., unary_bufs_sub .., unary_bufs_sub .., reshape_bufs_sub .., unary_bufs_sub .., reshape_bufs_sub .., unary_bufs_sub ..⟩
theorem w1_fresh : ∀ op ∈ (w1 : List (HloOp τ sig (Elt F))), op.fresh = ∅ := by
  intro _ h; (repeat (cases h with | head => rfl | tail _ h => ?_)); exact nomatch h
/-- The buffers the window writes. -/
abbrev w1_W : List (Ref sig .tc) := [main_v0, main_v1, main_v2, main_v3, main_v4, main_v5, main_v6, main_v7, main_v8, main_v9]
theorem w1_writes : (w1 : List (HloOp τ sig (Elt F))).Forall fun op => op.writes ⊆ (w1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after the first 1 window. -/
def st1 (V0 : Valuation τ sig (Elt F)) : Valuation τ sig (Elt F) := after w1 (st0 V0)
/-- A buffer the window does not write keeps its contents through it. -/
theorem st1_keep (V0 : Valuation τ sig (Elt F)) (r : Ref sig .tc) (h : r ∉ w1_W) :
    st1 V0 (Proc.devRef .tc r) = st0 V0 (Proc.devRef .tc r) :=
  after_of_writes_sub w1 _ w1_writes h
theorem st1_main_arg0 (V0 : Valuation τ sig (Elt F)) : st1 V0 (no_index (Proc.devRef .tc main_arg0)) = V0 (Proc.devRef .tc main_arg0) :=
  (st1_keep V0 main_arg0 (by decide)).trans (st0_main_arg0 V0)
theorem st1_main_arg1 (V0 : Valuation τ sig (Elt F)) : st1 V0 (no_index (Proc.devRef .tc main_arg1)) = V0 (Proc.devRef .tc main_arg1) :=
  (st1_keep V0 main_arg1 (by decide)).trans (st0_main_arg1 V0)
theorem st1_main_v1 (V0 : Valuation τ sig (Elt F)) : st1 V0 (no_index (Proc.devRef .tc main_v1)) = val_main_v1 (F := F) (V0 (Proc.devRef .tc main_arg1)) := by
  unfold st1
  simp only [w1]
  after_results_simp
  simp only [st0_main_arg1] <;> rfl
theorem st1_main_v2 (V0 : Valuation τ sig (Elt F)) : st1 V0 (no_index (Proc.devRef .tc main_v2)) = val_main_v2 (F := F) (V0 (Proc.devRef .tc main_arg0)) := by
  unfold st1
  simp only [w1]
  after_results_simp
  simp only [st0_main_arg0] <;> rfl
theorem st1_main_v3 (V0 : Valuation τ sig (Elt F)) : st1 V0 (no_index (Proc.devRef .tc main_v3)) = val_main_v3 (F := F) (V0 (Proc.devRef .tc main_arg0)) := by
  unfold st1
  simp only [w1]
  after_results_simp
  simp only [st0_main_arg0] <;> rfl
theorem st1_main_v4 (V0 : Valuation τ sig (Elt F)) : st1 V0 (no_index (Proc.devRef .tc main_v4)) = val_main_v4 (F := F) (V0 (Proc.devRef .tc main_arg1)) := by
  unfold st1
  simp only [w1]
  after_results_simp
  simp only [st0_main_arg1] <;> rfl
theorem st1_main_v6 (V0 : Valuation τ sig (Elt F)) : st1 V0 (no_index (Proc.devRef .tc main_v6)) = val_main_v6 (F := F) (V0 (Proc.devRef .tc main_arg0)) := by
  unfold st1
  simp only [w1]
  after_results_simp
  simp only [st0_main_arg0] <;> rfl
theorem st1_main_v8 (V0 : Valuation τ sig (Elt F)) : st1 V0 (no_index (Proc.devRef .tc main_v8)) = val_main_v8 (F := F) (V0 (Proc.devRef .tc main_arg0)) := by
  unfold st1
  simp only [w1]
  after_results_simp
  simp only [st0_main_arg0] <;> rfl
theorem st1_main_v9 (V0 : Valuation τ sig (Elt F)) : st1 V0 (no_index (Proc.devRef .tc main_v9)) = val_main_v9 (F := F) (V0 (Proc.devRef .tc main_arg0)) := by
  unfold st1
  simp only [w1]
  after_results_simp
  simp only [st0_main_arg0] <;> rfl

/-- Operations 11 … 20 of @main. -/
abbrev w2 : List (HloOp τ sig (Elt F)) :=
  [ reshape main_v9 main_v10 rfl shapeCasts_S16384x7x7x1_S16384x7x7,
    unary main_v2 main_v11 ((extractStridedSlice S16384x7x7x1 ![0, 0, 0, 4] · slices_S16384x7x7x5_S16384x7x7x1_0_0_0_4) : (⟨S16384x7x7x5, .f32⟩ : BufTy).Contents (Elt F) → (⟨S16384x7x7x1, .f32⟩ : BufTy).Contents (Elt F)),
    reshape main_v11 main_v12 rfl shapeCasts_S16384x7x7x1_S16384x7x7,
    nullary main_cst (constant S_ .f32 0x3F000000#32),
    unary main_cst main_v13 (broadcastInDim S16384x7x7 ![] bcast_S_S16384x7x7 : (⟨S_, .f32⟩ : BufTy).Contents (Elt F) → (⟨S16384x7x7, .f32⟩ : BufTy).Contents (Elt F)),
    binary main_v13 main_v10 main_v14 (mulf : (⟨S16384x7x7, .f32⟩ : BufTy).Contents (Elt F) → (⟨S16384x7x7, .f32⟩ : BufTy).Contents (Elt F) → (⟨S16384x7x7, .f32⟩ : BufTy).Contents (Elt F)),
    binary main_v6 main_v14 main_v15 (subf : (⟨S16384x7x7, .f32⟩ : BufTy).Contents (Elt F) → (⟨S16384x7x7, .f32⟩ : BufTy).Contents (Elt F) → (⟨S16384x7x7, .f32⟩ : BufTy).Contents (Elt F)),
    nullary main_cst_0 (constant S_ .f32 0x3F000000#32),
    unary main_cst_0 main_v16 (broadcastInDim S16384x7x7 ![] bcast_S_S16384x7x7 : (⟨S_, .f32⟩ : BufTy).Contents (Elt F) → (⟨S16384x7x7, .f32⟩ : BufTy).Contents (Elt F)),
    binary main_v16 main_v10 main_v17 (mulf : (⟨S16384x7x7, .f32⟩ : BufTy).Contents (Elt F) → (⟨S16384x7x7, .f32⟩ : BufTy).Contents (Elt F) → (⟨S16384x7x7, .f32⟩ : BufTy).Contents (Elt F)) ]
theorem w2_sub : (w2 : List (HloOp τ sig (Elt F))).Forall fun op => op.bufs ⊆ tcRefs τ sig :=
  ⟨reshape_bufs_sub .., unary_bufs_sub .., reshape_bufs_sub .., nullary_bufs_sub .., unary_bufs_sub .., binary_bufs_sub .., binary_bufs_sub .., nullary_bufs_sub .., unary_bufs_sub .., binary_bufs_sub ..⟩
theorem w2_fresh : ∀ op ∈ (w2 : List (HloOp τ sig (Elt F))), op.fresh = ∅ := by
  intro _ h; (repeat (cases h with | head => rfl | tail _ h => ?_)); exact nomatch h
/-- The buffers the window writes. -/
abbrev w2_W : List (Ref sig .tc) := [main_v10, main_v11, main_v12, main_cst, main_v13, main_v14, main_v15, main_cst_0, main_v16, main_v17]
theorem w2_writes : (w2 : List (HloOp τ sig (Elt F))).Forall fun op => op.writes ⊆ (w2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after the first 2 windows. -/
def st2 (V0 : Valuation τ sig (Elt F)) : Valuation τ sig (Elt F) := after w2 (st1 V0)
/-- A buffer the window does not write keeps its contents through it. -/
theorem st2_keep (V0 : Valuation τ sig (Elt F)) (r : Ref sig .tc) (h : r ∉ w2_W) :
    st2 V0 (Proc.devRef .tc r) = st1 V0 (Proc.devRef .tc r) :=
  after_of_writes_sub w2 _ w2_writes h
theorem st2_main_arg0 (V0 : Valuation τ sig (Elt F)) : st2 V0 (no_index (Proc.devRef .tc main_arg0)) = V0 (Proc.devRef .tc main_arg0) :=
  (st2_keep V0 main_arg0 (by decide)).trans (st1_main_arg0 V0)
theorem st2_main_arg1 (V0 : Valuation τ sig (Elt F)) : st2 V0 (no_index (Proc.devRef .tc main_arg1)) = V0 (Proc.devRef .tc main_arg1) :=
  (st2_keep V0 main_arg1 (by decide)).trans (st1_main_arg1 V0)
theorem st2_main_v1 (V0 : Valuation τ sig (Elt F)) : st2 V0 (no_index (Proc.devRef .tc main_v1)) = val_main_v1 (F := F) (V0 (Proc.devRef .tc main_arg1)) :=
  (st2_keep V0 main_v1 (by decide)).trans (st1_main_v1 V0)
theorem st2_main_v2 (V0 : Valuation τ sig (Elt F)) : st2 V0 (no_index (Proc.devRef .tc main_v2)) = val_main_v2 (F := F) (V0 (Proc.devRef .tc main_arg0)) :=
  (st2_keep V0 main_v2 (by decide)).trans (st1_main_v2 V0)
theorem st2_main_v3 (V0 : Valuation τ sig (Elt F)) : st2 V0 (no_index (Proc.devRef .tc main_v3)) = val_main_v3 (F := F) (V0 (Proc.devRef .tc main_arg0)) :=
  (st2_keep V0 main_v3 (by decide)).trans (st1_main_v3 V0)
theorem st2_main_v4 (V0 : Valuation τ sig (Elt F)) : st2 V0 (no_index (Proc.devRef .tc main_v4)) = val_main_v4 (F := F) (V0 (Proc.devRef .tc main_arg1)) :=
  (st2_keep V0 main_v4 (by decide)).trans (st1_main_v4 V0)
theorem st2_main_v6 (V0 : Valuation τ sig (Elt F)) : st2 V0 (no_index (Proc.devRef .tc main_v6)) = val_main_v6 (F := F) (V0 (Proc.devRef .tc main_arg0)) :=
  (st2_keep V0 main_v6 (by decide)).trans (st1_main_v6 V0)
theorem st2_main_v8 (V0 : Valuation τ sig (Elt F)) : st2 V0 (no_index (Proc.devRef .tc main_v8)) = val_main_v8 (F := F) (V0 (Proc.devRef .tc main_arg0)) :=
  (st2_keep V0 main_v8 (by decide)).trans (st1_main_v8 V0)
theorem st2_main_v12 (V0 : Valuation τ sig (Elt F)) : st2 V0 (no_index (Proc.devRef .tc main_v12)) = val_main_v12 (F := F) (V0 (Proc.devRef .tc main_arg0)) := by
  unfold st2
  simp only [w2]
  after_results_simp
  simp only [st1_main_v2] <;> rfl
theorem st2_main_v15 (V0 : Valuation τ sig (Elt F)) : st2 V0 (no_index (Proc.devRef .tc main_v15)) = val_main_v15 (F := F) (V0 (Proc.devRef .tc main_arg0)) := by
  unfold st2
  simp only [w2]
  after_results_simp
  simp only [st1_main_v9, st1_main_v6] <;> rfl
theorem st2_main_v17 (V0 : Valuation τ sig (Elt F)) : st2 V0 (no_index (Proc.devRef .tc main_v17)) = val_main_v17 (F := F) (V0 (Proc.devRef .tc main_arg0)) := by
  unfold st2
  simp only [w2]
  after_results_simp
  simp only [st1_main_v9] <;> rfl

/-- Operations 21 … 30 of @main. -/
abbrev w3 : List (HloOp τ sig (Elt F)) :=
  [ binary main_v6 main_v17 main_v18 (addf : (⟨S16384x7x7, .f32⟩ : BufTy).Contents (Elt F) → (⟨S16384x7x7, .f32⟩ : BufTy).Contents (Elt F) → (⟨S16384x7x7, .f32⟩ : BufTy).Contents (Elt F)),
    nullary main_cst_1 (constant S_ .f32 0x3F000000#32),
    unary main_cst_1 main_v19 (broadcastInDim S16384x7x7 ![] bcast_S_S16384x7x7 : (⟨S_, .f32⟩ : BufTy).Contents (Elt F) → (⟨S16384x7x7, .f32⟩ : BufTy).Contents (Elt F)),
    binary main_v19 main_v12 main_v20 (mulf : (⟨S16384x7x7, .f32⟩ : BufTy).Contents (Elt F) → (⟨S16384x7x7, .f32⟩ : BufTy).Contents (Elt F) → (⟨S16384x7x7, .f32⟩ : BufTy).Contents (Elt F)),
    binary main_v8 main_v20 main_v21 (subf : (⟨S16384x7x7, .f32⟩ : BufTy).Contents (Elt F) → (⟨S16384x7x7, .f32⟩ : BufTy).Contents (Elt F) → (⟨S16384x7x7, .f32⟩ : BufTy).Contents (Elt F)),
    nullary main_cst_2 (constant S_ .f32 0x3F000000#32),
    unary main_cst_2 main_v22 (broadcastInDim S16384x7x7 ![] bcast_S_S16384x7x7 : (⟨S_, .f32⟩ : BufTy).Contents (Elt F) → (⟨S16384x7x7, .f32⟩ : BufTy).Contents (Elt F)),
    binary main_v22 main_v12 main_v23 (mulf : (⟨S16384x7x7, .f32⟩ : BufTy).Contents (Elt F) → (⟨S16384x7x7, .f32⟩ : BufTy).Contents (Elt F) → (⟨S16384x7x7, .f32⟩ : BufTy).Contents (Elt F)),
    binary main_v8 main_v23 main_v24 (addf : (⟨S16384x7x7, .f32⟩ : BufTy).Contents (Elt F) → (⟨S16384x7x7, .f32⟩ : BufTy).Contents (Elt F) → (⟨S16384x7x7, .f32⟩ : BufTy).Contents (Elt F)),
    unary main_v4 main_v25 ((extractStridedSlice S16384x7x7x1 ![0, 0, 0, 1] · slices_S16384x7x7x5_S16384x7x7x1_0_0_0_1) : (⟨S16384x7x7x5, .f32⟩ : BufTy).Contents (Elt F) → (⟨S16384x7x7x1, .f32⟩ : BufTy).Contents (Elt F)) ]
theorem w3_sub : (w3 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., binary_bufs_sub .., unary_bufs_sub ..⟩
theorem w3_fresh : ∀ op ∈ (w3 : List (HloOp τ sig (Elt F))), op.fresh = ∅ := by
  intro _ h; (repeat (cases h with | head => rfl | tail _ h => ?_)); exact nomatch h
/-- The buffers the window writes. -/
abbrev w3_W : List (Ref sig .tc) := [main_v18, main_cst_1, main_v19, main_v20, main_v21, main_cst_2, main_v22, main_v23, main_v24, main_v25]
theorem w3_writes : (w3 : List (HloOp τ sig (Elt F))).Forall fun op => op.writes ⊆ (w3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after the first 3 windows. -/
def st3 (V0 : Valuation τ sig (Elt F)) : Valuation τ sig (Elt F) := after w3 (st2 V0)
/-- A buffer the window does not write keeps its contents through it. -/
theorem st3_keep (V0 : Valuation τ sig (Elt F)) (r : Ref sig .tc) (h : r ∉ w3_W) :
    st3 V0 (Proc.devRef .tc r) = st2 V0 (Proc.devRef .tc r) :=
  after_of_writes_sub w3 _ w3_writes h
theorem st3_main_arg0 (V0 : Valuation τ sig (Elt F)) : st3 V0 (no_index (Proc.devRef .tc main_arg0)) = V0 (Proc.devRef .tc main_arg0) :=
  (st3_keep V0 main_arg0 (by decide)).trans (st2_main_arg0 V0)
theorem st3_main_arg1 (V0 : Valuation τ sig (Elt F)) : st3 V0 (no_index (Proc.devRef .tc main_arg1)) = V0 (Proc.devRef .tc main_arg1) :=
  (st3_keep V0 main_arg1 (by decide)).trans (st2_main_arg1 V0)
theorem st3_main_v1 (V0 : Valuation τ sig (Elt F)) : st3 V0 (no_index (Proc.devRef .tc main_v1)) = val_main_v1 (F := F) (V0 (Proc.devRef .tc main_arg1)) :=
  (st3_keep V0 main_v1 (by decide)).trans (st2_main_v1 V0)
theorem st3_main_v2 (V0 : Valuation τ sig (Elt F)) : st3 V0 (no_index (Proc.devRef .tc main_v2)) = val_main_v2 (F := F) (V0 (Proc.devRef .tc main_arg0)) :=
  (st3_keep V0 main_v2 (by decide)).trans (st2_main_v2 V0)
theorem st3_main_v3 (V0 : Valuation τ sig (Elt F)) : st3 V0 (no_index (Proc.devRef .tc main_v3)) = val_main_v3 (F := F) (V0 (Proc.devRef .tc main_arg0)) :=
  (st3_keep V0 main_v3 (by decide)).trans (st2_main_v3 V0)
theorem st3_main_v4 (V0 : Valuation τ sig (Elt F)) : st3 V0 (no_index (Proc.devRef .tc main_v4)) = val_main_v4 (F := F) (V0 (Proc.devRef .tc main_arg1)) :=
  (st3_keep V0 main_v4 (by decide)).trans (st2_main_v4 V0)
theorem st3_main_v15 (V0 : Valuation τ sig (Elt F)) : st3 V0 (no_index (Proc.devRef .tc main_v15)) = val_main_v15 (F := F) (V0 (Proc.devRef .tc main_arg0)) :=
  (st3_keep V0 main_v15 (by decide)).trans (st2_main_v15 V0)
theorem st3_main_v18 (V0 : Valuation τ sig (Elt F)) : st3 V0 (no_index (Proc.devRef .tc main_v18)) = val_main_v18 (F := F) (V0 (Proc.devRef .tc main_arg0)) := by
  unfold st3
  simp only [w3]
  after_results_simp
  simp only [st2_main_v17, st2_main_v6] <;> rfl
theorem st3_main_v21 (V0 : Valuation τ sig (Elt F)) : st3 V0 (no_index (Proc.devRef .tc main_v21)) = val_main_v21 (F := F) (V0 (Proc.devRef .tc main_arg0)) := by
  unfold st3
  simp only [w3]
  after_results_simp
  simp only [st2_main_v12, st2_main_v8] <;> rfl
theorem st3_main_v24 (V0 : Valuation τ sig (Elt F)) : st3 V0 (no_index (Proc.devRef .tc main_v24)) = val_main_v24 (F := F) (V0 (Proc.devRef .tc main_arg0)) := by
  unfold st3
  simp only [w3]
  after_results_simp
  simp only [st2_main_v12, st2_main_v8] <;> rfl
theorem st3_main_v25 (V0 : Valuation τ sig (Elt F)) : st3 V0 (no_index (Proc.devRef .tc main_v25)) = val_main_v25 (F := F) (V0 (Proc.devRef .tc main_arg1)) := by
  unfold st3
  simp only [w3]
  after_results_simp
  simp only [st2_main_v4] <;> rfl

/-- Operations 31 … 40 of @main. -/
abbrev w4 : List (HloOp τ sig (Elt F)) :=
  [ reshape main_v25 main_v26 rfl shapeCasts_S16384x7x7x1_S16384x7x7,
    unary main_v4 main_v27 ((extractStridedSlice S16384x7x7x1 ![0, 0, 0, 2] · slices_S16384x7x7x5_S16384x7x7x1_0_0_0_2) : (⟨S16384x7x7x5, .f32⟩ : BufTy).Contents (Elt F) → (⟨S16384x7x7x1, .f32⟩ : BufTy).Contents (Elt F)),
    reshape main_v27 main_v28 rfl shapeCasts_S16384x7x7x1_S16384x7x7,
    unary main_v4 main_v29 ((extractStridedSlice S16384x7x7x1 ![0, 0, 0, 3] · slices_S16384x7x7x5_S16384x7x7x1_0_0_0_3) : (⟨S16384x7x7x5, .f32⟩ : BufTy).Contents (Elt F) → (⟨S16384x7x7x1, .f32⟩ : BufTy).Contents (Elt F)),
    reshape main_v29 main_v30 rfl shapeCasts_S16384x7x7x1_S16384x7x7,
    unary main_v4 main_v31 ((extractStridedSlice S16384x7x7x1 ![0, 0, 0, 4] · slices_S16384x7x7x5_S16384x7x7x1_0_0_0_4) : (⟨S16384x7x7x5, .f32⟩ : BufTy).Contents (Elt F) → (⟨S16384x7x7x1, .f32⟩ : BufTy).Contents (Elt F)),
    reshape main_v31 main_v32 rfl shapeCasts_S16384x7x7x1_S16384x7x7,
    nullary main_cst_3 (constant S_ .f32 0x3F000000#32),
    unary main_cst_3 main_v33 (broadcastInDim S16384x7x7 ![] bcast_S_S16384x7x7 : (⟨S_, .f32⟩ : BufTy).Contents (Elt F) → (⟨S16384x7x7, .f32⟩ : BufTy).Contents (Elt F)),
    binary main_v33 main_v30 main_v34 (mulf : (⟨S16384x7x7, .f32⟩ : BufTy).Contents (Elt F) → (⟨S16384x7x7, .f32⟩ : BufTy).Contents (Elt F) → (⟨S16384x7x7, .f32⟩ : BufTy).Contents (Elt F)) ]
theorem w4_sub : (w4 : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., nullary_bufs_sub .., unary_bufs_sub .., binary_bufs_sub ..⟩
theorem w4_fresh : ∀ op ∈ (w4 : List (HloOp τ sig (Elt F))), op.fresh = ∅ := by
  intro _ h; (repeat (cases h with | head => rfl | tail _ h => ?_)); exact nomatch h
/-- The buffers the window writes. -/
abbrev w4_W : List (Ref sig .tc) := [main_v26, main_v27, main_v28, main_v29, main_v30, main_v31, main_v32, main_cst_3, main_v33, main_v34]
theorem w4_writes : (w4 : List (HloOp τ sig (Elt F))).Forall fun op => op.writes ⊆ (w4_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after the first 4 windows. -/
def st4 (V0 : Valuation τ sig (Elt F)) : Valuation τ sig (Elt F) := after w4 (st3 V0)
/-- A buffer the window does not write keeps its contents through it. -/
theorem st4_keep (V0 : Valuation τ sig (Elt F)) (r : Ref sig .tc) (h : r ∉ w4_W) :
    st4 V0 (Proc.devRef .tc r) = st3 V0 (Proc.devRef .tc r) :=
  after_of_writes_sub w4 _ w4_writes h
theorem st4_main_arg0 (V0 : Valuation τ sig (Elt F)) : st4 V0 (no_index (Proc.devRef .tc main_arg0)) = V0 (Proc.devRef .tc main_arg0) :=
  (st4_keep V0 main_arg0 (by decide)).trans (st3_main_arg0 V0)
theorem st4_main_arg1 (V0 : Valuation τ sig (Elt F)) : st4 V0 (no_index (Proc.devRef .tc main_arg1)) = V0 (Proc.devRef .tc main_arg1) :=
  (st4_keep V0 main_arg1 (by decide)).trans (st3_main_arg1 V0)
theorem st4_main_v1 (V0 : Valuation τ sig (Elt F)) : st4 V0 (no_index (Proc.devRef .tc main_v1)) = val_main_v1 (F := F) (V0 (Proc.devRef .tc main_arg1)) :=
  (st4_keep V0 main_v1 (by decide)).trans (st3_main_v1 V0)
theorem st4_main_v2 (V0 : Valuation τ sig (Elt F)) : st4 V0 (no_index (Proc.devRef .tc main_v2)) = val_main_v2 (F := F) (V0 (Proc.devRef .tc main_arg0)) :=
  (st4_keep V0 main_v2 (by decide)).trans (st3_main_v2 V0)
theorem st4_main_v3 (V0 : Valuation τ sig (Elt F)) : st4 V0 (no_index (Proc.devRef .tc main_v3)) = val_main_v3 (F := F) (V0 (Proc.devRef .tc main_arg0)) :=
  (st4_keep V0 main_v3 (by decide)).trans (st3_main_v3 V0)
theorem st4_main_v4 (V0 : Valuation τ sig (Elt F)) : st4 V0 (no_index (Proc.devRef .tc main_v4)) = val_main_v4 (F := F) (V0 (Proc.devRef .tc main_arg1)) :=
  (st4_keep V0 main_v4 (by decide)).trans (st3_main_v4 V0)
theorem st4_main_v15 (V0 : Valuation τ sig (Elt F)) : st4 V0 (no_index (Proc.devRef .tc main_v15)) = val_main_v15 (F := F) (V0 (Proc.devRef .tc main_arg0)) :=
  (st4_keep V0 main_v15 (by decide)).trans (st3_main_v15 V0)
theorem st4_main_v18 (V0 : Valuation τ sig (Elt F)) : st4 V0 (no_index (Proc.devRef .tc main_v18)) = val_main_v18 (F := F) (V0 (Proc.devRef .tc main_arg0)) :=
  (st4_keep V0 main_v18 (by decide)).trans (st3_main_v18 V0)
theorem st4_main_v21 (V0 : Valuation τ sig (Elt F)) : st4 V0 (no_index (Proc.devRef .tc main_v21)) = val_main_v21 (F := F) (V0 (Proc.devRef .tc main_arg0)) :=
  (st4_keep V0 main_v21 (by decide)).trans (st3_main_v21 V0)
theorem st4_main_v24 (V0 : Valuation τ sig (Elt F)) : st4 V0 (no_index (Proc.devRef .tc main_v24)) = val_main_v24 (F := F) (V0 (Proc.devRef .tc main_arg0)) :=
  (st4_keep V0 main_v24 (by decide)).trans (st3_main_v24 V0)
theorem st4_main_v26 (V0 : Valuation τ sig (Elt F)) : st4 V0 (no_index (Proc.devRef .tc main_v26)) = val_main_v26 (F := F) (V0 (Proc.devRef .tc main_arg1)) := by
  unfold st4
  simp only [w4]
  after_results_simp
  simp only [st3_main_v25] <;> rfl
theorem st4_main_v28 (V0 : Valuation τ sig (Elt F)) : st4 V0 (no_index (Proc.devRef .tc main_v28)) = val_main_v28 (F := F) (V0 (Proc.devRef .tc main_arg1)) := by
  unfold st4
  simp only [w4]
  after_results_simp
  simp only [st3_main_v4] <;> rfl
theorem st4_main_v30 (V0 : Valuation τ sig (Elt F)) : st4 V0 (no_index (Proc.devRef .tc main_v30)) = val_main_v30 (F := F) (V0 (Proc.devRef .tc main_arg1)) := by
  unfold st4
  simp only [w4]
  after_results_simp
  simp only [st3_main_v4] <;> rfl
theorem st4_main_v32 (V0 : Valuation τ sig (Elt F)) : st4 V0 (no_index (Proc.devRef .tc main_v32)) = val_main_v32 (F := F) (V0 (Proc.devRef .tc main_arg1)) := by
  unfold st4
  simp only [w4]
  after_results_simp
  simp only [st3_main_v4] <;> rfl
theorem st4_main_v34 (V0 : Valuation τ sig (Elt F)) : st4 V0 (no_index (Proc.devRef .tc main_v34)) = val_main_v34 (F := F) (V0 (Proc.devRef .tc main_arg1)) := by
  unfold st4
  simp only [w4]
  after_results_simp
  simp only [st3_main_v4] <;> rfl

/-- Operations 41 … 50 of @main. -/
abbrev w5 : List (HloOp τ sig (Elt F)) :=
  [ binary main_v26 main_v34 main_v35 (subf : (⟨S16384x7x7, .f32⟩ : BufTy).Contents (Elt F) → (⟨S16384x7x7, .f32⟩ : BufTy).Contents (Elt F) → (⟨S16384x7x7, .f32⟩ : BufTy).Contents (Elt F)),
    nullary main_cst_4 (constant S_ .f32 0x3F000000#32),
    unary main_cst_4 main_v36 (broadcastInDim S16384x7x7 ![] bcast_S_S16384x7x7 : (⟨S_, .f32⟩ : BufTy).Contents (Elt F) → (⟨S16384x7x7, .f32⟩ : BufTy).Contents (Elt F)),
    binary main_v36 main_v30 main_v37 (mulf : (⟨S16384x7x7, .f32⟩ : BufTy).Contents (Elt F) → (⟨S16384x7x7, .f32⟩ : BufTy).Contents (Elt F) → (⟨S16384x7x7, .f32⟩ : BufTy).Contents (Elt F)),
    binary main_v26 main_v37 main_v38 (addf : (⟨S16384x7x7, .f32⟩ : BufTy).Contents (Elt F) → (⟨S16384x7x7, .f32⟩ : BufTy).Contents (Elt F) → (⟨S16384x7x7, .f32⟩ : BufTy).Contents (Elt F)),
    nullary main_cst_5 (constant S_ .f32 0x3F000000#32),
    unary main_cst_5 main_v39 (broadcastInDim S16384x7x7 ![] bcast_S_S16384x7x7 : (⟨S_, .f32⟩ : BufTy).Contents (Elt F) → (⟨S16384x7x7, .f32⟩ : BufTy).Contents (Elt F)),
    binary main_v39 main_v32 main_v40 (mulf : (⟨S16384x7x7, .f32⟩ : BufTy).Contents (Elt F) → (⟨S16384x7x7, .f32⟩ : BufTy).Contents (Elt F) → (⟨S16384x7x7, .f32⟩ : BufTy).Contents (Elt F)),
    binary main_v28 main_v40 main_v41 (subf : (⟨S16384x7x7, .f32⟩ : BufTy).Contents (Elt F) → (⟨S16384x7x7, .f32⟩ : BufTy).Contents (Elt F) → (⟨S16384x7x7, .f32⟩ : BufTy).Contents (Elt F)),
    nullary main_cst_6 (constant S_ .f32 0x3F000000#32) ]
theorem w5_sub : (w5 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., binary_bufs_sub .., nullary_bufs_sub ..⟩
theorem w5_fresh : ∀ op ∈ (w5 : List (HloOp τ sig (Elt F))), op.fresh = ∅ := by
  intro _ h; (repeat (cases h with | head => rfl | tail _ h => ?_)); exact nomatch h
/-- The buffers the window writes. -/
abbrev w5_W : List (Ref sig .tc) := [main_v35, main_cst_4, main_v36, main_v37, main_v38, main_cst_5, main_v39, main_v40, main_v41, main_cst_6]
theorem w5_writes : (w5 : List (HloOp τ sig (Elt F))).Forall fun op => op.writes ⊆ (w5_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after the first 5 windows. -/
def st5 (V0 : Valuation τ sig (Elt F)) : Valuation τ sig (Elt F) := after w5 (st4 V0)
/-- A buffer the window does not write keeps its contents through it. -/
theorem st5_keep (V0 : Valuation τ sig (Elt F)) (r : Ref sig .tc) (h : r ∉ w5_W) :
    st5 V0 (Proc.devRef .tc r) = st4 V0 (Proc.devRef .tc r) :=
  after_of_writes_sub w5 _ w5_writes h
theorem st5_main_arg0 (V0 : Valuation τ sig (Elt F)) : st5 V0 (no_index (Proc.devRef .tc main_arg0)) = V0 (Proc.devRef .tc main_arg0) :=
  (st5_keep V0 main_arg0 (by decide)).trans (st4_main_arg0 V0)
theorem st5_main_arg1 (V0 : Valuation τ sig (Elt F)) : st5 V0 (no_index (Proc.devRef .tc main_arg1)) = V0 (Proc.devRef .tc main_arg1) :=
  (st5_keep V0 main_arg1 (by decide)).trans (st4_main_arg1 V0)
theorem st5_main_v1 (V0 : Valuation τ sig (Elt F)) : st5 V0 (no_index (Proc.devRef .tc main_v1)) = val_main_v1 (F := F) (V0 (Proc.devRef .tc main_arg1)) :=
  (st5_keep V0 main_v1 (by decide)).trans (st4_main_v1 V0)
theorem st5_main_v2 (V0 : Valuation τ sig (Elt F)) : st5 V0 (no_index (Proc.devRef .tc main_v2)) = val_main_v2 (F := F) (V0 (Proc.devRef .tc main_arg0)) :=
  (st5_keep V0 main_v2 (by decide)).trans (st4_main_v2 V0)
theorem st5_main_v3 (V0 : Valuation τ sig (Elt F)) : st5 V0 (no_index (Proc.devRef .tc main_v3)) = val_main_v3 (F := F) (V0 (Proc.devRef .tc main_arg0)) :=
  (st5_keep V0 main_v3 (by decide)).trans (st4_main_v3 V0)
theorem st5_main_v4 (V0 : Valuation τ sig (Elt F)) : st5 V0 (no_index (Proc.devRef .tc main_v4)) = val_main_v4 (F := F) (V0 (Proc.devRef .tc main_arg1)) :=
  (st5_keep V0 main_v4 (by decide)).trans (st4_main_v4 V0)
theorem st5_main_v15 (V0 : Valuation τ sig (Elt F)) : st5 V0 (no_index (Proc.devRef .tc main_v15)) = val_main_v15 (F := F) (V0 (Proc.devRef .tc main_arg0)) :=
  (st5_keep V0 main_v15 (by decide)).trans (st4_main_v15 V0)
theorem st5_main_v18 (V0 : Valuation τ sig (Elt F)) : st5 V0 (no_index (Proc.devRef .tc main_v18)) = val_main_v18 (F := F) (V0 (Proc.devRef .tc main_arg0)) :=
  (st5_keep V0 main_v18 (by decide)).trans (st4_main_v18 V0)
theorem st5_main_v21 (V0 : Valuation τ sig (Elt F)) : st5 V0 (no_index (Proc.devRef .tc main_v21)) = val_main_v21 (F := F) (V0 (Proc.devRef .tc main_arg0)) :=
  (st5_keep V0 main_v21 (by decide)).trans (st4_main_v21 V0)
theorem st5_main_v24 (V0 : Valuation τ sig (Elt F)) : st5 V0 (no_index (Proc.devRef .tc main_v24)) = val_main_v24 (F := F) (V0 (Proc.devRef .tc main_arg0)) :=
  (st5_keep V0 main_v24 (by decide)).trans (st4_main_v24 V0)
theorem st5_main_v28 (V0 : Valuation τ sig (Elt F)) : st5 V0 (no_index (Proc.devRef .tc main_v28)) = val_main_v28 (F := F) (V0 (Proc.devRef .tc main_arg1)) :=
  (st5_keep V0 main_v28 (by decide)).trans (st4_main_v28 V0)
theorem st5_main_v32 (V0 : Valuation τ sig (Elt F)) : st5 V0 (no_index (Proc.devRef .tc main_v32)) = val_main_v32 (F := F) (V0 (Proc.devRef .tc main_arg1)) :=
  (st5_keep V0 main_v32 (by decide)).trans (st4_main_v32 V0)
theorem st5_main_v35 (V0 : Valuation τ sig (Elt F)) : st5 V0 (no_index (Proc.devRef .tc main_v35)) = val_main_v35 (F := F) (V0 (Proc.devRef .tc main_arg1)) := by
  unfold st5
  simp only [w5]
  after_results_simp
  simp only [st4_main_v34, st4_main_v26] <;> rfl
theorem st5_main_v38 (V0 : Valuation τ sig (Elt F)) : st5 V0 (no_index (Proc.devRef .tc main_v38)) = val_main_v38 (F := F) (V0 (Proc.devRef .tc main_arg1)) := by
  unfold st5
  simp only [w5]
  after_results_simp
  simp only [st4_main_v30, st4_main_v26] <;> rfl
theorem st5_main_v41 (V0 : Valuation τ sig (Elt F)) : st5 V0 (no_index (Proc.devRef .tc main_v41)) = val_main_v41 (F := F) (V0 (Proc.devRef .tc main_arg1)) := by
  unfold st5
  simp only [w5]
  after_results_simp
  simp only [st4_main_v32, st4_main_v28] <;> rfl
theorem st5_main_cst_6 (V0 : Valuation τ sig (Elt F)) : st5 V0 (no_index (Proc.devRef .tc main_cst_6)) = val_main_cst_6 (F := F) := by
  unfold st5
  simp only [w5]
  after_results_simp
  all_goals rfl

/-- Operations 51 … 60 of @main. -/
abbrev w6 : List (HloOp τ sig (Elt F)) :=
  [ unary main_cst_6 main_v42 (broadcastInDim S16384x7x7 ![] bcast_S_S16384x7x7 : (⟨S_, .f32⟩ : BufTy).Contents (Elt F) → (⟨S16384x7x7, .f32⟩ : BufTy).Contents (Elt F)),
    binary main_v42 main_v32 main_v43 (mulf : (⟨S16384x7x7, .f32⟩ : BufTy).Contents (Elt F) → (⟨S16384x7x7, .f32⟩ : BufTy).Contents (Elt F) → (⟨S16384x7x7, .f32⟩ : BufTy).Contents (Elt F)),
    binary main_v28 main_v43 main_v44 (addf : (⟨S16384x7x7, .f32⟩ : BufTy).Contents (Elt F) → (⟨S16384x7x7, .f32⟩ : BufTy).Contents (Elt F) → (⟨S16384x7x7, .f32⟩ : BufTy).Contents (Elt F)),
    binary main_v24 main_v44 main_v45 (minimumf : (⟨S16384x7x7, .f32⟩ : BufTy).Contents (Elt F) → (⟨S16384x7x7, .f32⟩ : BufTy).Contents (Elt F) → (⟨S16384x7x7, .f32⟩ : BufTy).Contents (Elt F)),
    binary main_v21 main_v41 main_v46 (maximumf : (⟨S16384x7x7, .f32⟩ : BufTy).Contents (Elt F) → (⟨S16384x7x7, .f32⟩ : BufTy).Contents (Elt F) → (⟨S16384x7x7, .f32⟩ : BufTy).Contents (Elt F)),
    binary main_v45 main_v46 main_v47 (subf : (⟨S16384x7x7, .f32⟩ : BufTy).Contents (Elt F) → (⟨S16384x7x7, .f32⟩ : BufTy).Contents (Elt F) → (⟨S16384x7x7, .f32⟩ : BufTy).Contents (Elt F)),
    binary main_v18 main_v38 main_v48 (minimumf : (⟨S16384x7x7, .f32⟩ : BufTy).Contents (Elt F) → (⟨S16384x7x7, .f32⟩ : BufTy).Contents (Elt F) → (⟨S16384x7x7, .f32⟩ : BufTy).Contents (Elt F)),
    binary main_v15 main_v35 main_v49 (maximumf : (⟨S16384x7x7, .f32⟩ : BufTy).Contents (Elt F) → (⟨S16384x7x7, .f32⟩ : BufTy).Contents (Elt F) → (⟨S16384x7x7, .f32⟩ : BufTy).Contents (Elt F)),
    binary main_v48 main_v49 main_v50 (subf : (⟨S16384x7x7, .f32⟩ : BufTy).Contents (Elt F) → (⟨S16384x7x7, .f32⟩ : BufTy).Contents (Elt F) → (⟨S16384x7x7, .f32⟩ : BufTy).Contents (Elt F)),
    nullary main_cst_7 (constant S_ .f32 0x00000000#32) ]
theorem w6_sub : (w6 : List (HloOp τ sig (Elt F))).Forall fun op => op.bufs ⊆ tcRefs τ sig :=
  ⟨unary_bufs_sub .., binary_bufs_sub .., binary_bufs_sub .., binary_bufs_sub .., binary_bufs_sub .., binary_bufs_sub .., binary_bufs_sub .., binary_bufs_sub .., binary_bufs_sub .., nullary_bufs_sub ..⟩
theorem w6_fresh : ∀ op ∈ (w6 : List (HloOp τ sig (Elt F))), op.fresh = ∅ := by
  intro _ h; (repeat (cases h with | head => rfl | tail _ h => ?_)); exact nomatch h
/-- The buffers the window writes. -/
abbrev w6_W : List (Ref sig .tc) := [main_v42, main_v43, main_v44, main_v45, main_v46, main_v47, main_v48, main_v49, main_v50, main_cst_7]
theorem w6_writes : (w6 : List (HloOp τ sig (Elt F))).Forall fun op => op.writes ⊆ (w6_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after the first 6 windows. -/
def st6 (V0 : Valuation τ sig (Elt F)) : Valuation τ sig (Elt F) := after w6 (st5 V0)
/-- A buffer the window does not write keeps its contents through it. -/
theorem st6_keep (V0 : Valuation τ sig (Elt F)) (r : Ref sig .tc) (h : r ∉ w6_W) :
    st6 V0 (Proc.devRef .tc r) = st5 V0 (Proc.devRef .tc r) :=
  after_of_writes_sub w6 _ w6_writes h
theorem st6_main_arg0 (V0 : Valuation τ sig (Elt F)) : st6 V0 (no_index (Proc.devRef .tc main_arg0)) = V0 (Proc.devRef .tc main_arg0) :=
  (st6_keep V0 main_arg0 (by decide)).trans (st5_main_arg0 V0)
theorem st6_main_arg1 (V0 : Valuation τ sig (Elt F)) : st6 V0 (no_index (Proc.devRef .tc main_arg1)) = V0 (Proc.devRef .tc main_arg1) :=
  (st6_keep V0 main_arg1 (by decide)).trans (st5_main_arg1 V0)
theorem st6_main_v1 (V0 : Valuation τ sig (Elt F)) : st6 V0 (no_index (Proc.devRef .tc main_v1)) = val_main_v1 (F := F) (V0 (Proc.devRef .tc main_arg1)) :=
  (st6_keep V0 main_v1 (by decide)).trans (st5_main_v1 V0)
theorem st6_main_v2 (V0 : Valuation τ sig (Elt F)) : st6 V0 (no_index (Proc.devRef .tc main_v2)) = val_main_v2 (F := F) (V0 (Proc.devRef .tc main_arg0)) :=
  (st6_keep V0 main_v2 (by decide)).trans (st5_main_v2 V0)
theorem st6_main_v3 (V0 : Valuation τ sig (Elt F)) : st6 V0 (no_index (Proc.devRef .tc main_v3)) = val_main_v3 (F := F) (V0 (Proc.devRef .tc main_arg0)) :=
  (st6_keep V0 main_v3 (by decide)).trans (st5_main_v3 V0)
theorem st6_main_v4 (V0 : Valuation τ sig (Elt F)) : st6 V0 (no_index (Proc.devRef .tc main_v4)) = val_main_v4 (F := F) (V0 (Proc.devRef .tc main_arg1)) :=
  (st6_keep V0 main_v4 (by decide)).trans (st5_main_v4 V0)
theorem st6_main_v15 (V0 : Valuation τ sig (Elt F)) : st6 V0 (no_index (Proc.devRef .tc main_v15)) = val_main_v15 (F := F) (V0 (Proc.devRef .tc main_arg0)) :=
  (st6_keep V0 main_v15 (by decide)).trans (st5_main_v15 V0)
theorem st6_main_v18 (V0 : Valuation τ sig (Elt F)) : st6 V0 (no_index (Proc.devRef .tc main_v18)) = val_main_v18 (F := F) (V0 (Proc.devRef .tc main_arg0)) :=
  (st6_keep V0 main_v18 (by decide)).trans (st5_main_v18 V0)
theorem st6_main_v21 (V0 : Valuation τ sig (Elt F)) : st6 V0 (no_index (Proc.devRef .tc main_v21)) = val_main_v21 (F := F) (V0 (Proc.devRef .tc main_arg0)) :=
  (st6_keep V0 main_v21 (by decide)).trans (st5_main_v21 V0)
theorem st6_main_v24 (V0 : Valuation τ sig (Elt F)) : st6 V0 (no_index (Proc.devRef .tc main_v24)) = val_main_v24 (F := F) (V0 (Proc.devRef .tc main_arg0)) :=
  (st6_keep V0 main_v24 (by decide)).trans (st5_main_v24 V0)
theorem st6_main_v35 (V0 : Valuation τ sig (Elt F)) : st6 V0 (no_index (Proc.devRef .tc main_v35)) = val_main_v35 (F := F) (V0 (Proc.devRef .tc main_arg1)) :=
  (st6_keep V0 main_v35 (by decide)).trans (st5_main_v35 V0)
theorem st6_main_v38 (V0 : Valuation τ sig (Elt F)) : st6 V0 (no_index (Proc.devRef .tc main_v38)) = val_main_v38 (F := F) (V0 (Proc.devRef .tc main_arg1)) :=
  (st6_keep V0 main_v38 (by decide)).trans (st5_main_v38 V0)
theorem st6_main_v41 (V0 : Valuation τ sig (Elt F)) : st6 V0 (no_index (Proc.devRef .tc main_v41)) = val_main_v41 (F := F) (V0 (Proc.devRef .tc main_arg1)) :=
  (st6_keep V0 main_v41 (by decide)).trans (st5_main_v41 V0)
theorem st6_main_v44 (V0 : Valuation τ sig (Elt F)) : st6 V0 (no_index (Proc.devRef .tc main_v44)) = val_main_v44 (F := F) (V0 (Proc.devRef .tc main_arg1)) := by
  unfold st6
  simp only [w6]
  after_results_simp
  simp only [st5_main_v32, st5_main_cst_6, st5_main_v28] <;> rfl
theorem st6_main_v47 (V0 : Valuation τ sig (Elt F)) : st6 V0 (no_index (Proc.devRef .tc main_v47)) = val_main_v47 (F := F) (V0 (Proc.devRef .tc main_arg0)) (V0 (Proc.devRef .tc main_arg1)) := by
  unfold st6
  simp only [w6]
  after_results_simp
  simp only [st5_main_v41, st5_main_v21, st5_main_v32, st5_main_cst_6, st5_main_v28, st5_main_v24] <;> rfl
theorem st6_main_v50 (V0 : Valuation τ sig (Elt F)) : st6 V0 (no_index (Proc.devRef .tc main_v50)) = val_main_v50 (F := F) (V0 (Proc.devRef .tc main_arg0)) (V0 (Proc.devRef .tc main_arg1)) := by
  unfold st6
  simp only [w6]
  after_results_simp
  simp only [st5_main_v35, st5_main_v15, st5_main_v38, st5_main_v18] <;> rfl
theorem st6_main_cst_7 (V0 : Valuation τ sig (Elt F)) : st6 V0 (no_index (Proc.devRef .tc main_cst_7)) = val_main_cst_7 (F := F) := by
  unfold st6
  simp only [w6]
  after_results_simp
  all_goals rfl

/-- Operations 61 … 70 of @main. -/
abbrev w7 : List (HloOp τ sig (Elt F)) :=
  [ unary main_cst_7 main_v51 (broadcastInDim S16384x7x7 ![] bcast_S_S16384x7x7 : (⟨S_, .f32⟩ : BufTy).Contents (Elt F) → (⟨S16384x7x7, .f32⟩ : BufTy).Contents (Elt F)),
    binary main_v47 main_v51 main_v52 (cmpf .olt : (⟨S16384x7x7, .f32⟩ : BufTy).Contents (Elt F) → (⟨S16384x7x7, .f32⟩ : BufTy).Contents (Elt F) → (⟨S16384x7x7, .i1⟩ : BufTy).Contents (Elt F)),
    nullary main_cst_8 (constant S_ .f32 0x00000000#32),
    unary main_cst_8 main_v53 (broadcastInDim S16384x7x7 ![] bcast_S_S16384x7x7 : (⟨S_, .f32⟩ : BufTy).Contents (Elt F) → (⟨S16384x7x7, .f32⟩ : BufTy).Contents (Elt F)),
    binary main_v50 main_v53 main_v54 (cmpf .olt : (⟨S16384x7x7, .f32⟩ : BufTy).Contents (Elt F) → (⟨S16384x7x7, .f32⟩ : BufTy).Contents (Elt F) → (⟨S16384x7x7, .i1⟩ : BufTy).Contents (Elt F)),
    binary main_v52 main_v54 main_v55 (ori : (⟨S16384x7x7, .i1⟩ : BufTy).Contents (Elt F) → (⟨S16384x7x7, .i1⟩ : BufTy).Contents (Elt F) → (⟨S16384x7x7, .i1⟩ : BufTy).Contents (Elt F)),
    binary main_v47 main_v50 main_v56 (mulf : (⟨S16384x7x7, .f32⟩ : BufTy).Contents (Elt F) → (⟨S16384x7x7, .f32⟩ : BufTy).Contents (Elt F) → (⟨S16384x7x7, .f32⟩ : BufTy).Contents (Elt F)),
    nullary main_cst_9 (constant S_ .f32 0x00000000#32),
    TRef.unary (TRef.of (T := ⟨S_, .f32⟩) main_cst_9) (TRef.of (T := ⟨S_, .f32⟩) main_call0_v0) id,
    TRef.unary (TRef.of (T := ⟨S_, .f32⟩) main_call0_v0) (TRef.of (T := ⟨S16384x7x7, .f32⟩) main_call0_v1) (broadcastInDim S16384x7x7 ![] bcast_S_S16384x7x7) ]
theorem w7_sub : (w7 : List (HloOp τ sig (Elt F))).Forall fun op => op.bufs ⊆ tcRefs τ sig :=
  ⟨unary_bufs_sub .., binary_bufs_sub .., nullary_bufs_sub .., unary_bufs_sub .., binary_bufs_sub .., binary_bufs_sub .., binary_bufs_sub .., nullary_bufs_sub .., unary_bufs_sub .., unary_bufs_sub ..⟩
theorem w7_fresh : ∀ op ∈ (w7 : List (HloOp τ sig (Elt F))), op.fresh = ∅ := by
  intro _ h; (repeat (cases h with | head => rfl | tail _ h => ?_)); exact nomatch h
/-- The buffers the window writes. -/
abbrev w7_W : List (Ref sig .tc) := [main_v51, main_v52, main_cst_8, main_v53, main_v54, main_v55, main_v56, main_cst_9, main_call0_v0, main_call0_v1]
theorem w7_writes : (w7 : List (HloOp τ sig (Elt F))).Forall fun op => op.writes ⊆ (w7_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after the first 7 windows. -/
def st7 (V0 : Valuation τ sig (Elt F)) : Valuation τ sig (Elt F) := after w7 (st6 V0)
/-- A buffer the window does not write keeps its contents through it. -/
theorem st7_keep (V0 : Valuation τ sig (Elt F)) (r : Ref sig .tc) (h : r ∉ w7_W) :
    st7 V0 (Proc.devRef .tc r) = st6 V0 (Proc.devRef .tc r) :=
  after_of_writes_sub w7 _ w7_writes h
theorem st7_main_arg0 (V0 : Valuation τ sig (Elt F)) : st7 V0 (no_index (Proc.devRef .tc main_arg0)) = V0 (Proc.devRef .tc main_arg0) :=
  (st7_keep V0 main_arg0 (by decide)).trans (st6_main_arg0 V0)
theorem st7_main_arg1 (V0 : Valuation τ sig (Elt F)) : st7 V0 (no_index (Proc.devRef .tc main_arg1)) = V0 (Proc.devRef .tc main_arg1) :=
  (st7_keep V0 main_arg1 (by decide)).trans (st6_main_arg1 V0)
theorem st7_main_v1 (V0 : Valuation τ sig (Elt F)) : st7 V0 (no_index (Proc.devRef .tc main_v1)) = val_main_v1 (F := F) (V0 (Proc.devRef .tc main_arg1)) :=
  (st7_keep V0 main_v1 (by decide)).trans (st6_main_v1 V0)
theorem st7_main_v2 (V0 : Valuation τ sig (Elt F)) : st7 V0 (no_index (Proc.devRef .tc main_v2)) = val_main_v2 (F := F) (V0 (Proc.devRef .tc main_arg0)) :=
  (st7_keep V0 main_v2 (by decide)).trans (st6_main_v2 V0)
theorem st7_main_v3 (V0 : Valuation τ sig (Elt F)) : st7 V0 (no_index (Proc.devRef .tc main_v3)) = val_main_v3 (F := F) (V0 (Proc.devRef .tc main_arg0)) :=
  (st7_keep V0 main_v3 (by decide)).trans (st6_main_v3 V0)
theorem st7_main_v4 (V0 : Valuation τ sig (Elt F)) : st7 V0 (no_index (Proc.devRef .tc main_v4)) = val_main_v4 (F := F) (V0 (Proc.devRef .tc main_arg1)) :=
  (st7_keep V0 main_v4 (by decide)).trans (st6_main_v4 V0)
theorem st7_main_v15 (V0 : Valuation τ sig (Elt F)) : st7 V0 (no_index (Proc.devRef .tc main_v15)) = val_main_v15 (F := F) (V0 (Proc.devRef .tc main_arg0)) :=
  (st7_keep V0 main_v15 (by decide)).trans (st6_main_v15 V0)
theorem st7_main_v18 (V0 : Valuation τ sig (Elt F)) : st7 V0 (no_index (Proc.devRef .tc main_v18)) = val_main_v18 (F := F) (V0 (Proc.devRef .tc main_arg0)) :=
  (st7_keep V0 main_v18 (by decide)).trans (st6_main_v18 V0)
theorem st7_main_v21 (V0 : Valuation τ sig (Elt F)) : st7 V0 (no_index (Proc.devRef .tc main_v21)) = val_main_v21 (F := F) (V0 (Proc.devRef .tc main_arg0)) :=
  (st7_keep V0 main_v21 (by decide)).trans (st6_main_v21 V0)
theorem st7_main_v24 (V0 : Valuation τ sig (Elt F)) : st7 V0 (no_index (Proc.devRef .tc main_v24)) = val_main_v24 (F := F) (V0 (Proc.devRef .tc main_arg0)) :=
  (st7_keep V0 main_v24 (by decide)).trans (st6_main_v24 V0)
theorem st7_main_v35 (V0 : Valuation τ sig (Elt F)) : st7 V0 (no_index (Proc.devRef .tc main_v35)) = val_main_v35 (F := F) (V0 (Proc.devRef .tc main_arg1)) :=
  (st7_keep V0 main_v35 (by decide)).trans (st6_main_v35 V0)
theorem st7_main_v38 (V0 : Valuation τ sig (Elt F)) : st7 V0 (no_index (Proc.devRef .tc main_v38)) = val_main_v38 (F := F) (V0 (Proc.devRef .tc main_arg1)) :=
  (st7_keep V0 main_v38 (by decide)).trans (st6_main_v38 V0)
theorem st7_main_v41 (V0 : Valuation τ sig (Elt F)) : st7 V0 (no_index (Proc.devRef .tc main_v41)) = val_main_v41 (F := F) (V0 (Proc.devRef .tc main_arg1)) :=
  (st7_keep V0 main_v41 (by decide)).trans (st6_main_v41 V0)
theorem st7_main_v44 (V0 : Valuation τ sig (Elt F)) : st7 V0 (no_index (Proc.devRef .tc main_v44)) = val_main_v44 (F := F) (V0 (Proc.devRef .tc main_arg1)) :=
  (st7_keep V0 main_v44 (by decide)).trans (st6_main_v44 V0)
theorem st7_main_v55 (V0 : Valuation τ sig (Elt F)) : st7 V0 (no_index (Proc.devRef .tc main_v55)) = val_main_v55 (F := F) (V0 (Proc.devRef .tc main_arg0)) (V0 (Proc.devRef .tc main_arg1)) := by
  unfold st7
  simp only [w7]
  after_results_simp
  simp only [st6_main_v50, st6_main_cst_7, st6_main_v47] <;> rfl
theorem st7_main_v56 (V0 : Valuation τ sig (Elt F)) : st7 V0 (no_index (Proc.devRef .tc main_v56)) = val_main_v56 (F := F) (V0 (Proc.devRef .tc main_arg0)) (V0 (Proc.devRef .tc main_arg1)) := by
  unfold st7
  simp only [w7]
  after_results_simp
  simp only [st6_main_v50, st6_main_v47] <;> rfl
theorem st7_main_call0_v1 (V0 : Valuation τ sig (Elt F)) : st7 V0 (no_index (Proc.devRef .tc main_call0_v1)) = val_main_call0_v1 (F := F) := by
  unfold st7
  simp only [w7]
  after_results_simp
  all_goals rfl

/-- Operations 71 … 80 of @main. -/
abbrev w8 : List (HloOp τ sig (Elt F)) :=
  [ TRef.ternary (TRef.of (T := ⟨S16384x7x7, .i1⟩) main_v55) (TRef.of (T := ⟨S16384x7x7, .f32⟩) main_call0_v1) (TRef.of (T := ⟨S16384x7x7, .f32⟩) main_v56) (TRef.of (T := ⟨S16384x7x7, .f32⟩) main_v57) select,
    binary main_v24 main_v21 main_v58 (subf : (⟨S16384x7x7, .f32⟩ : BufTy).Contents (Elt F) → (⟨S16384x7x7, .f32⟩ : BufTy).Contents (Elt F) → (⟨S16384x7x7, .f32⟩ : BufTy).Contents (Elt F)),
    binary main_v18 main_v15 main_v59 (subf : (⟨S16384x7x7, .f32⟩ : BufTy).Contents (Elt F) → (⟨S16384x7x7, .f32⟩ : BufTy).Contents (Elt F) → (⟨S16384x7x7, .f32⟩ : BufTy).Contents (Elt F)),
    binary main_v58 main_v59 main_v60 (mulf : (⟨S16384x7x7, .f32⟩ : BufTy).Contents (Elt F) → (⟨S16384x7x7, .f32⟩ : BufTy).Contents (Elt F) → (⟨S16384x7x7, .f32⟩ : BufTy).Contents (Elt F)),
    binary main_v44 main_v41 main_v61 (subf : (⟨S16384x7x7, .f32⟩ : BufTy).Contents (Elt F) → (⟨S16384x7x7, .f32⟩ : BufTy).Contents (Elt F) → (⟨S16384x7x7, .f32⟩ : BufTy).Contents (Elt F)),
    binary main_v38 main_v35 main_v62 (subf : (⟨S16384x7x7, .f32⟩ : BufTy).Contents (Elt F) → (⟨S16384x7x7, .f32⟩ : BufTy).Contents (Elt F) → (⟨S16384x7x7, .f32⟩ : BufTy).Contents (Elt F)),
    binary main_v61 main_v62 main_v63 (mulf : (⟨S16384x7x7, .f32⟩ : BufTy).Contents (Elt F) → (⟨S16384x7x7, .f32⟩ : BufTy).Contents (Elt F) → (⟨S16384x7x7, .f32⟩ : BufTy).Contents (Elt F)),
    binary main_v60 main_v63 main_v64 (addf : (⟨S16384x7x7, .f32⟩ : BufTy).Contents (Elt F) → (⟨S16384x7x7, .f32⟩ : BufTy).Contents (Elt F) → (⟨S16384x7x7, .f32⟩ : BufTy).Contents (Elt F)),
    binary main_v64 main_v57 main_v65 (subf : (⟨S16384x7x7, .f32⟩ : BufTy).Contents (Elt F) → (⟨S16384x7x7, .f32⟩ : BufTy).Contents (Elt F) → (⟨S16384x7x7, .f32⟩ : BufTy).Contents (Elt F)),
    binary main_v57 main_v65 main_v66 (Host.divf : (⟨S16384x7x7, .f32⟩ : BufTy).Contents (Elt F) → (⟨S16384x7x7, .f32⟩ : BufTy).Contents (Elt F) → (⟨S16384x7x7, .f32⟩ : BufTy).Contents (Elt F)) ]
theorem w8_sub : (w8 : List (HloOp τ sig (Elt F))).Forall fun op => op.bufs ⊆ tcRefs τ sig :=
  ⟨ternary_bufs_sub .., binary_bufs_sub .., binary_bufs_sub .., binary_bufs_sub .., binary_bufs_sub .., binary_bufs_sub .., binary_bufs_sub .., binary_bufs_sub .., binary_bufs_sub .., binary_bufs_sub ..⟩
theorem w8_fresh : ∀ op ∈ (w8 : List (HloOp τ sig (Elt F))), op.fresh = ∅ := by
  intro _ h; (repeat (cases h with | head => rfl | tail _ h => ?_)); exact nomatch h
/-- The buffers the window writes. -/
abbrev w8_W : List (Ref sig .tc) := [main_v57, main_v58, main_v59, main_v60, main_v61, main_v62, main_v63, main_v64, main_v65, main_v66]
theorem w8_writes : (w8 : List (HloOp τ sig (Elt F))).Forall fun op => op.writes ⊆ (w8_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after the first 8 windows. -/
def st8 (V0 : Valuation τ sig (Elt F)) : Valuation τ sig (Elt F) := after w8 (st7 V0)
/-- A buffer the window does not write keeps its contents through it. -/
theorem st8_keep (V0 : Valuation τ sig (Elt F)) (r : Ref sig .tc) (h : r ∉ w8_W) :
    st8 V0 (Proc.devRef .tc r) = st7 V0 (Proc.devRef .tc r) :=
  after_of_writes_sub w8 _ w8_writes h
theorem st8_main_arg0 (V0 : Valuation τ sig (Elt F)) : st8 V0 (no_index (Proc.devRef .tc main_arg0)) = V0 (Proc.devRef .tc main_arg0) :=
  (st8_keep V0 main_arg0 (by decide)).trans (st7_main_arg0 V0)
theorem st8_main_arg1 (V0 : Valuation τ sig (Elt F)) : st8 V0 (no_index (Proc.devRef .tc main_arg1)) = V0 (Proc.devRef .tc main_arg1) :=
  (st8_keep V0 main_arg1 (by decide)).trans (st7_main_arg1 V0)
theorem st8_main_v1 (V0 : Valuation τ sig (Elt F)) : st8 V0 (no_index (Proc.devRef .tc main_v1)) = val_main_v1 (F := F) (V0 (Proc.devRef .tc main_arg1)) :=
  (st8_keep V0 main_v1 (by decide)).trans (st7_main_v1 V0)
theorem st8_main_v2 (V0 : Valuation τ sig (Elt F)) : st8 V0 (no_index (Proc.devRef .tc main_v2)) = val_main_v2 (F := F) (V0 (Proc.devRef .tc main_arg0)) :=
  (st8_keep V0 main_v2 (by decide)).trans (st7_main_v2 V0)
theorem st8_main_v3 (V0 : Valuation τ sig (Elt F)) : st8 V0 (no_index (Proc.devRef .tc main_v3)) = val_main_v3 (F := F) (V0 (Proc.devRef .tc main_arg0)) :=
  (st8_keep V0 main_v3 (by decide)).trans (st7_main_v3 V0)
theorem st8_main_v4 (V0 : Valuation τ sig (Elt F)) : st8 V0 (no_index (Proc.devRef .tc main_v4)) = val_main_v4 (F := F) (V0 (Proc.devRef .tc main_arg1)) :=
  (st8_keep V0 main_v4 (by decide)).trans (st7_main_v4 V0)
theorem st8_main_v66 (V0 : Valuation τ sig (Elt F)) : st8 V0 (no_index (Proc.devRef .tc main_v66)) = val_main_v66 (F := F) (V0 (Proc.devRef .tc main_arg0)) (V0 (Proc.devRef .tc main_arg1)) := by
  unfold st8
  simp only [w8]
  after_results_simp
  simp only [st7_main_v35, st7_main_v38, st7_main_v41, st7_main_v44, st7_main_v15, st7_main_v18, st7_main_v21, st7_main_v24, st7_main_v56, st7_main_call0_v1, st7_main_v55] <;> rfl

/-- Operations 81 … 90 of @main. -/
abbrev w9 : List (HloOp τ sig (Elt F)) :=
  [ unary main_v3 main_v67 ((extractStridedSlice S16384x7x7x1 ![0, 0, 0, 1] · slices_S16384x7x7x5_S16384x7x7x1_0_0_0_1) : (⟨S16384x7x7x5, .f32⟩ : BufTy).Contents (Elt F) → (⟨S16384x7x7x1, .f32⟩ : BufTy).Contents (Elt F)),
    reshape main_v67 main_v68 rfl shapeCasts_S16384x7x7x1_S16384x7x7,
    unary main_v3 main_v69 ((extractStridedSlice S16384x7x7x1 ![0, 0, 0, 2] · slices_S16384x7x7x5_S16384x7x7x1_0_0_0_2) : (⟨S16384x7x7x5, .f32⟩ : BufTy).Contents (Elt F) → (⟨S16384x7x7x1, .f32⟩ : BufTy).Contents (Elt F)),
    reshape main_v69 main_v70 rfl shapeCasts_S16384x7x7x1_S16384x7x7,
    unary main_v3 main_v71 ((extractStridedSlice S16384x7x7x1 ![0, 0, 0, 3] · slices_S16384x7x7x5_S16384x7x7x1_0_0_0_3) : (⟨S16384x7x7x5, .f32⟩ : BufTy).Contents (Elt F) → (⟨S16384x7x7x1, .f32⟩ : BufTy).Contents (Elt F)),
    reshape main_v71 main_v72 rfl shapeCasts_S16384x7x7x1_S16384x7x7,
    unary main_v3 main_v73 ((extractStridedSlice S16384x7x7x1 ![0, 0, 0, 4] · slices_S16384x7x7x5_S16384x7x7x1_0_0_0_4) : (⟨S16384x7x7x5, .f32⟩ : BufTy).Contents (Elt F) → (⟨S16384x7x7x1, .f32⟩ : BufTy).Contents (Elt F)),
    reshape main_v73 main_v74 rfl shapeCasts_S16384x7x7x1_S16384x7x7,
    nullary main_cst_10 (constant S_ .f32 0x3F000000#32),
    unary main_cst_10 main_v75 (broadcastInDim S16384x7x7 ![] bcast_S_S16384x7x7 : (⟨S_, .f32⟩ : BufTy).Contents (Elt F) → (⟨S16384x7x7, .f32⟩ : BufTy).Contents (Elt F)) ]
theorem w9_sub : (w9 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub ..⟩
theorem w9_fresh : ∀ op ∈ (w9 : List (HloOp τ sig (Elt F))), op.fresh = ∅ := by
  intro _ h; (repeat (cases h with | head => rfl | tail _ h => ?_)); exact nomatch h
/-- The buffers the window writes. -/
abbrev w9_W : List (Ref sig .tc) := [main_v67, main_v68, main_v69, main_v70, main_v71, main_v72, main_v73, main_v74, main_cst_10, main_v75]
theorem w9_writes : (w9 : List (HloOp τ sig (Elt F))).Forall fun op => op.writes ⊆ (w9_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after the first 9 windows. -/
def st9 (V0 : Valuation τ sig (Elt F)) : Valuation τ sig (Elt F) := after w9 (st8 V0)
/-- A buffer the window does not write keeps its contents through it. -/
theorem st9_keep (V0 : Valuation τ sig (Elt F)) (r : Ref sig .tc) (h : r ∉ w9_W) :
    st9 V0 (Proc.devRef .tc r) = st8 V0 (Proc.devRef .tc r) :=
  after_of_writes_sub w9 _ w9_writes h
theorem st9_main_arg0 (V0 : Valuation τ sig (Elt F)) : st9 V0 (no_index (Proc.devRef .tc main_arg0)) = V0 (Proc.devRef .tc main_arg0) :=
  (st9_keep V0 main_arg0 (by decide)).trans (st8_main_arg0 V0)
theorem st9_main_arg1 (V0 : Valuation τ sig (Elt F)) : st9 V0 (no_index (Proc.devRef .tc main_arg1)) = V0 (Proc.devRef .tc main_arg1) :=
  (st9_keep V0 main_arg1 (by decide)).trans (st8_main_arg1 V0)
theorem st9_main_v1 (V0 : Valuation τ sig (Elt F)) : st9 V0 (no_index (Proc.devRef .tc main_v1)) = val_main_v1 (F := F) (V0 (Proc.devRef .tc main_arg1)) :=
  (st9_keep V0 main_v1 (by decide)).trans (st8_main_v1 V0)
theorem st9_main_v2 (V0 : Valuation τ sig (Elt F)) : st9 V0 (no_index (Proc.devRef .tc main_v2)) = val_main_v2 (F := F) (V0 (Proc.devRef .tc main_arg0)) :=
  (st9_keep V0 main_v2 (by decide)).trans (st8_main_v2 V0)
theorem st9_main_v3 (V0 : Valuation τ sig (Elt F)) : st9 V0 (no_index (Proc.devRef .tc main_v3)) = val_main_v3 (F := F) (V0 (Proc.devRef .tc main_arg0)) :=
  (st9_keep V0 main_v3 (by decide)).trans (st8_main_v3 V0)
theorem st9_main_v4 (V0 : Valuation τ sig (Elt F)) : st9 V0 (no_index (Proc.devRef .tc main_v4)) = val_main_v4 (F := F) (V0 (Proc.devRef .tc main_arg1)) :=
  (st9_keep V0 main_v4 (by decide)).trans (st8_main_v4 V0)
theorem st9_main_v66 (V0 : Valuation τ sig (Elt F)) : st9 V0 (no_index (Proc.devRef .tc main_v66)) = val_main_v66 (F := F) (V0 (Proc.devRef .tc main_arg0)) (V0 (Proc.devRef .tc main_arg1)) :=
  (st9_keep V0 main_v66 (by decide)).trans (st8_main_v66 V0)
theorem st9_main_v68 (V0 : Valuation τ sig (Elt F)) : st9 V0 (no_index (Proc.devRef .tc main_v68)) = val_main_v68 (F := F) (V0 (Proc.devRef .tc main_arg0)) := by
  unfold st9
  simp only [w9]
  after_results_simp
  simp only [st8_main_v3] <;> rfl
theorem st9_main_v70 (V0 : Valuation τ sig (Elt F)) : st9 V0 (no_index (Proc.devRef .tc main_v70)) = val_main_v70 (F := F) (V0 (Proc.devRef .tc main_arg0)) := by
  unfold st9
  simp only [w9]
  after_results_simp
  simp only [st8_main_v3] <;> rfl
theorem st9_main_v72 (V0 : Valuation τ sig (Elt F)) : st9 V0 (no_index (Proc.devRef .tc main_v72)) = val_main_v72 (F := F) (V0 (Proc.devRef .tc main_arg0)) := by
  unfold st9
  simp only [w9]
  after_results_simp
  simp only [st8_main_v3] <;> rfl
theorem st9_main_v74 (V0 : Valuation τ sig (Elt F)) : st9 V0 (no_index (Proc.devRef .tc main_v74)) = val_main_v74 (F := F) (V0 (Proc.devRef .tc main_arg0)) := by
  unfold st9
  simp only [w9]
  after_results_simp
  simp only [st8_main_v3] <;> rfl
theorem st9_main_v75 (V0 : Valuation τ sig (Elt F)) : st9 V0 (no_index (Proc.devRef .tc main_v75)) = val_main_v75 (F := F) := by
  unfold st9
  simp only [w9]
  after_results_simp
  all_goals rfl

/-- Operations 91 … 100 of @main. -/
abbrev w10 : List (HloOp τ sig (Elt F)) :=
  [ binary main_v75 main_v72 main_v76 (mulf : (⟨S16384x7x7, .f32⟩ : BufTy).Contents (Elt F) → (⟨S16384x7x7, .f32⟩ : BufTy).Contents (Elt F) → (⟨S16384x7x7, .f32⟩ : BufTy).Contents (Elt F)),
    binary main_v68 main_v76 main_v77 (subf : (⟨S16384x7x7, .f32⟩ : BufTy).Contents (Elt F) → (⟨S16384x7x7, .f32⟩ : BufTy).Contents (Elt F) → (⟨S16384x7x7, .f32⟩ : BufTy).Contents (Elt F)),
    nullary main_cst_11 (constant S_ .f32 0x3F000000#32),
    unary main_cst_11 main_v78 (broadcastInDim S16384x7x7 ![] bcast_S_S16384x7x7 : (⟨S_, .f32⟩ : BufTy).Contents (Elt F) → (⟨S16384x7x7, .f32⟩ : BufTy).Contents (Elt F)),
    binary main_v78 main_v72 main_v79 (mulf : (⟨S16384x7x7, .f32⟩ : BufTy).Contents (Elt F) → (⟨S16384x7x7, .f32⟩ : BufTy).Contents (Elt F) → (⟨S16384x7x7, .f32⟩ : BufTy).Contents (Elt F)),
    binary main_v68 main_v79 main_v80 (addf : (⟨S16384x7x7, .f32⟩ : BufTy).Contents (Elt F) → (⟨S16384x7x7, .f32⟩ : BufTy).Contents (Elt F) → (⟨S16384x7x7, .f32⟩ : BufTy).Contents (Elt F)),
    nullary main_cst_12 (constant S_ .f32 0x3F000000#32),
    unary main_cst_12 main_v81 (broadcastInDim S16384x7x7 ![] bcast_S_S16384x7x7 : (⟨S_, .f32⟩ : BufTy).Contents (Elt F) → (⟨S16384x7x7, .f32⟩ : BufTy).Contents (Elt F)),
    binary main_v81 main_v74 main_v82 (mulf : (⟨S16384x7x7, .f32⟩ : BufTy).Contents (Elt F) → (⟨S16384x7x7, .f32⟩ : BufTy).Contents (Elt F) → (⟨S16384x7x7, .f32⟩ : BufTy).Contents (Elt F)),
    binary main_v70 main_v82 main_v83 (subf : (⟨S16384x7x7, .f32⟩ : BufTy).Contents (Elt F) → (⟨S16384x7x7, .f32⟩ : BufTy).Contents (Elt F) → (⟨S16384x7x7, .f32⟩ : BufTy).Contents (Elt F)) ]
theorem w10_sub : (w10 : List (HloOp τ sig (Elt F))).Forall fun op => op.bufs ⊆ tcRefs τ sig :=
  ⟨binary_bufs_sub .., binary_bufs_sub .., nullary_bufs_sub .., unary_bufs_sub .., binary_bufs_sub .., binary_bufs_sub .., nullary_bufs_sub .., unary_bufs_sub .., binary_bufs_sub .., binary_bufs_sub ..⟩
theorem w10_fresh : ∀ op ∈ (w10 : List (HloOp τ sig (Elt F))), op.fresh = ∅ := by
  intro _ h; (repeat (cases h with | head => rfl | tail _ h => ?_)); exact nomatch h
/-- The buffers the window writes. -/
abbrev w10_W : List (Ref sig .tc) := [main_v76, main_v77, main_cst_11, main_v78, main_v79, main_v80, main_cst_12, main_v81, main_v82, main_v83]
theorem w10_writes : (w10 : List (HloOp τ sig (Elt F))).Forall fun op => op.writes ⊆ (w10_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after the first 10 windows. -/
def st10 (V0 : Valuation τ sig (Elt F)) : Valuation τ sig (Elt F) := after w10 (st9 V0)
/-- A buffer the window does not write keeps its contents through it. -/
theorem st10_keep (V0 : Valuation τ sig (Elt F)) (r : Ref sig .tc) (h : r ∉ w10_W) :
    st10 V0 (Proc.devRef .tc r) = st9 V0 (Proc.devRef .tc r) :=
  after_of_writes_sub w10 _ w10_writes h
theorem st10_main_arg0 (V0 : Valuation τ sig (Elt F)) : st10 V0 (no_index (Proc.devRef .tc main_arg0)) = V0 (Proc.devRef .tc main_arg0) :=
  (st10_keep V0 main_arg0 (by decide)).trans (st9_main_arg0 V0)
theorem st10_main_arg1 (V0 : Valuation τ sig (Elt F)) : st10 V0 (no_index (Proc.devRef .tc main_arg1)) = V0 (Proc.devRef .tc main_arg1) :=
  (st10_keep V0 main_arg1 (by decide)).trans (st9_main_arg1 V0)
theorem st10_main_v1 (V0 : Valuation τ sig (Elt F)) : st10 V0 (no_index (Proc.devRef .tc main_v1)) = val_main_v1 (F := F) (V0 (Proc.devRef .tc main_arg1)) :=
  (st10_keep V0 main_v1 (by decide)).trans (st9_main_v1 V0)
theorem st10_main_v2 (V0 : Valuation τ sig (Elt F)) : st10 V0 (no_index (Proc.devRef .tc main_v2)) = val_main_v2 (F := F) (V0 (Proc.devRef .tc main_arg0)) :=
  (st10_keep V0 main_v2 (by decide)).trans (st9_main_v2 V0)
theorem st10_main_v3 (V0 : Valuation τ sig (Elt F)) : st10 V0 (no_index (Proc.devRef .tc main_v3)) = val_main_v3 (F := F) (V0 (Proc.devRef .tc main_arg0)) :=
  (st10_keep V0 main_v3 (by decide)).trans (st9_main_v3 V0)
theorem st10_main_v4 (V0 : Valuation τ sig (Elt F)) : st10 V0 (no_index (Proc.devRef .tc main_v4)) = val_main_v4 (F := F) (V0 (Proc.devRef .tc main_arg1)) :=
  (st10_keep V0 main_v4 (by decide)).trans (st9_main_v4 V0)
theorem st10_main_v66 (V0 : Valuation τ sig (Elt F)) : st10 V0 (no_index (Proc.devRef .tc main_v66)) = val_main_v66 (F := F) (V0 (Proc.devRef .tc main_arg0)) (V0 (Proc.devRef .tc main_arg1)) :=
  (st10_keep V0 main_v66 (by decide)).trans (st9_main_v66 V0)
theorem st10_main_v70 (V0 : Valuation τ sig (Elt F)) : st10 V0 (no_index (Proc.devRef .tc main_v70)) = val_main_v70 (F := F) (V0 (Proc.devRef .tc main_arg0)) :=
  (st10_keep V0 main_v70 (by decide)).trans (st9_main_v70 V0)
theorem st10_main_v74 (V0 : Valuation τ sig (Elt F)) : st10 V0 (no_index (Proc.devRef .tc main_v74)) = val_main_v74 (F := F) (V0 (Proc.devRef .tc main_arg0)) :=
  (st10_keep V0 main_v74 (by decide)).trans (st9_main_v74 V0)
theorem st10_main_v77 (V0 : Valuation τ sig (Elt F)) : st10 V0 (no_index (Proc.devRef .tc main_v77)) = val_main_v77 (F := F) (V0 (Proc.devRef .tc main_arg0)) := by
  unfold st10
  simp only [w10]
  after_results_simp
  simp only [st9_main_v72, st9_main_v75, st9_main_v68] <;> rfl
theorem st10_main_v80 (V0 : Valuation τ sig (Elt F)) : st10 V0 (no_index (Proc.devRef .tc main_v80)) = val_main_v80 (F := F) (V0 (Proc.devRef .tc main_arg0)) := by
  unfold st10
  simp only [w10]
  after_results_simp
  simp only [st9_main_v72, st9_main_v68] <;> rfl
theorem st10_main_v83 (V0 : Valuation τ sig (Elt F)) : st10 V0 (no_index (Proc.devRef .tc main_v83)) = val_main_v83 (F := F) (V0 (Proc.devRef .tc main_arg0)) := by
  unfold st10
  simp only [w10]
  after_results_simp
  simp only [st9_main_v74, st9_main_v70] <;> rfl

/-- Operations 101 … 110 of @main. -/
abbrev w11 : List (HloOp τ sig (Elt F)) :=
  [ nullary main_cst_13 (constant S_ .f32 0x3F000000#32),
    unary main_cst_13 main_v84 (broadcastInDim S16384x7x7 ![] bcast_S_S16384x7x7 : (⟨S_, .f32⟩ : BufTy).Contents (Elt F) → (⟨S16384x7x7, .f32⟩ : BufTy).Contents (Elt F)),
    binary main_v84 main_v74 main_v85 (mulf : (⟨S16384x7x7, .f32⟩ : BufTy).Contents (Elt F) → (⟨S16384x7x7, .f32⟩ : BufTy).Contents (Elt F) → (⟨S16384x7x7, .f32⟩ : BufTy).Contents (Elt F)),
    binary main_v70 main_v85 main_v86 (addf : (⟨S16384x7x7, .f32⟩ : BufTy).Contents (Elt F) → (⟨S16384x7x7, .f32⟩ : BufTy).Contents (Elt F) → (⟨S16384x7x7, .f32⟩ : BufTy).Contents (Elt F)),
    unary main_v4 main_v87 ((extractStridedSlice S16384x7x7x1 ![0, 0, 0, 1] · slices_S16384x7x7x5_S16384x7x7x1_0_0_0_1) : (⟨S16384x7x7x5, .f32⟩ : BufTy).Contents (Elt F) → (⟨S16384x7x7x1, .f32⟩ : BufTy).Contents (Elt F)),
    reshape main_v87 main_v88 rfl shapeCasts_S16384x7x7x1_S16384x7x7,
    unary main_v4 main_v89 ((extractStridedSlice S16384x7x7x1 ![0, 0, 0, 2] · slices_S16384x7x7x5_S16384x7x7x1_0_0_0_2) : (⟨S16384x7x7x5, .f32⟩ : BufTy).Contents (Elt F) → (⟨S16384x7x7x1, .f32⟩ : BufTy).Contents (Elt F)),
    reshape main_v89 main_v90 rfl shapeCasts_S16384x7x7x1_S16384x7x7,
    unary main_v4 main_v91 ((extractStridedSlice S16384x7x7x1 ![0, 0, 0, 3] · slices_S16384x7x7x5_S16384x7x7x1_0_0_0_3) : (⟨S16384x7x7x5, .f32⟩ : BufTy).Contents (Elt F) → (⟨S16384x7x7x1, .f32⟩ : BufTy).Contents (Elt F)),
    reshape main_v91 main_v92 rfl shapeCasts_S16384x7x7x1_S16384x7x7 ]
theorem w11_sub : (w11 : List (HloOp τ sig (Elt F))).Forall fun op => op.bufs ⊆ tcRefs τ sig :=
  ⟨nullary_bufs_sub .., unary_bufs_sub .., binary_bufs_sub .., binary_bufs_sub .., unary_bufs_sub .., reshape_bufs_sub .., unary_bufs_sub .., reshape_bufs_sub .., unary_bufs_sub .., reshape_bufs_sub ..⟩
theorem w11_fresh : ∀ op ∈ (w11 : List (HloOp τ sig (Elt F))), op.fresh = ∅ := by
  intro _ h; (repeat (cases h with | head => rfl | tail _ h => ?_)); exact nomatch h
/-- The buffers the window writes. -/
abbrev w11_W : List (Ref sig .tc) := [main_cst_13, main_v84, main_v85, main_v86, main_v87, main_v88, main_v89, main_v90, main_v91, main_v92]
theorem w11_writes : (w11 : List (HloOp τ sig (Elt F))).Forall fun op => op.writes ⊆ (w11_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after the first 11 windows. -/
def st11 (V0 : Valuation τ sig (Elt F)) : Valuation τ sig (Elt F) := after w11 (st10 V0)
/-- A buffer the window does not write keeps its contents through it. -/
theorem st11_keep (V0 : Valuation τ sig (Elt F)) (r : Ref sig .tc) (h : r ∉ w11_W) :
    st11 V0 (Proc.devRef .tc r) = st10 V0 (Proc.devRef .tc r) :=
  after_of_writes_sub w11 _ w11_writes h
theorem st11_main_arg0 (V0 : Valuation τ sig (Elt F)) : st11 V0 (no_index (Proc.devRef .tc main_arg0)) = V0 (Proc.devRef .tc main_arg0) :=
  (st11_keep V0 main_arg0 (by decide)).trans (st10_main_arg0 V0)
theorem st11_main_arg1 (V0 : Valuation τ sig (Elt F)) : st11 V0 (no_index (Proc.devRef .tc main_arg1)) = V0 (Proc.devRef .tc main_arg1) :=
  (st11_keep V0 main_arg1 (by decide)).trans (st10_main_arg1 V0)
theorem st11_main_v1 (V0 : Valuation τ sig (Elt F)) : st11 V0 (no_index (Proc.devRef .tc main_v1)) = val_main_v1 (F := F) (V0 (Proc.devRef .tc main_arg1)) :=
  (st11_keep V0 main_v1 (by decide)).trans (st10_main_v1 V0)
theorem st11_main_v2 (V0 : Valuation τ sig (Elt F)) : st11 V0 (no_index (Proc.devRef .tc main_v2)) = val_main_v2 (F := F) (V0 (Proc.devRef .tc main_arg0)) :=
  (st11_keep V0 main_v2 (by decide)).trans (st10_main_v2 V0)
theorem st11_main_v3 (V0 : Valuation τ sig (Elt F)) : st11 V0 (no_index (Proc.devRef .tc main_v3)) = val_main_v3 (F := F) (V0 (Proc.devRef .tc main_arg0)) :=
  (st11_keep V0 main_v3 (by decide)).trans (st10_main_v3 V0)
theorem st11_main_v4 (V0 : Valuation τ sig (Elt F)) : st11 V0 (no_index (Proc.devRef .tc main_v4)) = val_main_v4 (F := F) (V0 (Proc.devRef .tc main_arg1)) :=
  (st11_keep V0 main_v4 (by decide)).trans (st10_main_v4 V0)
theorem st11_main_v66 (V0 : Valuation τ sig (Elt F)) : st11 V0 (no_index (Proc.devRef .tc main_v66)) = val_main_v66 (F := F) (V0 (Proc.devRef .tc main_arg0)) (V0 (Proc.devRef .tc main_arg1)) :=
  (st11_keep V0 main_v66 (by decide)).trans (st10_main_v66 V0)
theorem st11_main_v77 (V0 : Valuation τ sig (Elt F)) : st11 V0 (no_index (Proc.devRef .tc main_v77)) = val_main_v77 (F := F) (V0 (Proc.devRef .tc main_arg0)) :=
  (st11_keep V0 main_v77 (by decide)).trans (st10_main_v77 V0)
theorem st11_main_v80 (V0 : Valuation τ sig (Elt F)) : st11 V0 (no_index (Proc.devRef .tc main_v80)) = val_main_v80 (F := F) (V0 (Proc.devRef .tc main_arg0)) :=
  (st11_keep V0 main_v80 (by decide)).trans (st10_main_v80 V0)
theorem st11_main_v83 (V0 : Valuation τ sig (Elt F)) : st11 V0 (no_index (Proc.devRef .tc main_v83)) = val_main_v83 (F := F) (V0 (Proc.devRef .tc main_arg0)) :=
  (st11_keep V0 main_v83 (by decide)).trans (st10_main_v83 V0)
theorem st11_main_v86 (V0 : Valuation τ sig (Elt F)) : st11 V0 (no_index (Proc.devRef .tc main_v86)) = val_main_v86 (F := F) (V0 (Proc.devRef .tc main_arg0)) := by
  unfold st11
  simp only [w11]
  after_results_simp
  simp only [st10_main_v74, st10_main_v70] <;> rfl
theorem st11_main_v88 (V0 : Valuation τ sig (Elt F)) : st11 V0 (no_index (Proc.devRef .tc main_v88)) = val_main_v88 (F := F) (V0 (Proc.devRef .tc main_arg1)) := by
  unfold st11
  simp only [w11]
  after_results_simp
  simp only [st10_main_v4] <;> rfl
theorem st11_main_v90 (V0 : Valuation τ sig (Elt F)) : st11 V0 (no_index (Proc.devRef .tc main_v90)) = val_main_v90 (F := F) (V0 (Proc.devRef .tc main_arg1)) := by
  unfold st11
  simp only [w11]
  after_results_simp
  simp only [st10_main_v4] <;> rfl
theorem st11_main_v92 (V0 : Valuation τ sig (Elt F)) : st11 V0 (no_index (Proc.devRef .tc main_v92)) = val_main_v92 (F := F) (V0 (Proc.devRef .tc main_arg1)) := by
  unfold st11
  simp only [w11]
  after_results_simp
  simp only [st10_main_v4] <;> rfl

/-- Operations 111 … 120 of @main. -/
abbrev w12 : List (HloOp τ sig (Elt F)) :=
  [ unary main_v4 main_v93 ((extractStridedSlice S16384x7x7x1 ![0, 0, 0, 4] · slices_S16384x7x7x5_S16384x7x7x1_0_0_0_4) : (⟨S16384x7x7x5, .f32⟩ : BufTy).Contents (Elt F) → (⟨S16384x7x7x1, .f32⟩ : BufTy).Contents (Elt F)),
    reshape main_v93 main_v94 rfl shapeCasts_S16384x7x7x1_S16384x7x7,
    nullary main_cst_14 (constant S_ .f32 0x3F000000#32),
    unary main_cst_14 main_v95 (broadcastInDim S16384x7x7 ![] bcast_S_S16384x7x7 : (⟨S_, .f32⟩ : BufTy).Contents (Elt F) → (⟨S16384x7x7, .f32⟩ : BufTy).Contents (Elt F)),
    binary main_v95 main_v92 main_v96 (mulf : (⟨S16384x7x7, .f32⟩ : BufTy).Contents (Elt F) → (⟨S16384x7x7, .f32⟩ : BufTy).Contents (Elt F) → (⟨S16384x7x7, .f32⟩ : BufTy).Contents (Elt F)),
    binary main_v88 main_v96 main_v97 (subf : (⟨S16384x7x7, .f32⟩ : BufTy).Contents (Elt F) → (⟨S16384x7x7, .f32⟩ : BufTy).Contents (Elt F) → (⟨S16384x7x7, .f32⟩ : BufTy).Contents (Elt F)),
    nullary main_cst_15 (constant S_ .f32 0x3F000000#32),
    unary main_cst_15 main_v98 (broadcastInDim S16384x7x7 ![] bcast_S_S16384x7x7 : (⟨S_, .f32⟩ : BufTy).Contents (Elt F) → (⟨S16384x7x7, .f32⟩ : BufTy).Contents (Elt F)),
    binary main_v98 main_v92 main_v99 (mulf : (⟨S16384x7x7, .f32⟩ : BufTy).Contents (Elt F) → (⟨S16384x7x7, .f32⟩ : BufTy).Contents (Elt F) → (⟨S16384x7x7, .f32⟩ : BufTy).Contents (Elt F)),
    binary main_v88 main_v99 main_v100 (addf : (⟨S16384x7x7, .f32⟩ : BufTy).Contents (Elt F) → (⟨S16384x7x7, .f32⟩ : BufTy).Contents (Elt F) → (⟨S16384x7x7, .f32⟩ : BufTy).Contents (Elt F)) ]
theorem w12_sub : (w12 : List (HloOp τ sig (Elt F))).Forall fun op => op.bufs ⊆ tcRefs τ sig :=
  ⟨unary_bufs_sub .., reshape_bufs_sub .., nullary_bufs_sub .., unary_bufs_sub .., binary_bufs_sub .., binary_bufs_sub .., nullary_bufs_sub .., unary_bufs_sub .., binary_bufs_sub .., binary_bufs_sub ..⟩
theorem w12_fresh : ∀ op ∈ (w12 : List (HloOp τ sig (Elt F))), op.fresh = ∅ := by
  intro _ h; (repeat (cases h with | head => rfl | tail _ h => ?_)); exact nomatch h
/-- The buffers the window writes. -/
abbrev w12_W : List (Ref sig .tc) := [main_v93, main_v94, main_cst_14, main_v95, main_v96, main_v97, main_cst_15, main_v98, main_v99, main_v100]
theorem w12_writes : (w12 : List (HloOp τ sig (Elt F))).Forall fun op => op.writes ⊆ (w12_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after the first 12 windows. -/
def st12 (V0 : Valuation τ sig (Elt F)) : Valuation τ sig (Elt F) := after w12 (st11 V0)
/-- A buffer the window does not write keeps its contents through it. -/
theorem st12_keep (V0 : Valuation τ sig (Elt F)) (r : Ref sig .tc) (h : r ∉ w12_W) :
    st12 V0 (Proc.devRef .tc r) = st11 V0 (Proc.devRef .tc r) :=
  after_of_writes_sub w12 _ w12_writes h
theorem st12_main_arg0 (V0 : Valuation τ sig (Elt F)) : st12 V0 (no_index (Proc.devRef .tc main_arg0)) = V0 (Proc.devRef .tc main_arg0) :=
  (st12_keep V0 main_arg0 (by decide)).trans (st11_main_arg0 V0)
theorem st12_main_arg1 (V0 : Valuation τ sig (Elt F)) : st12 V0 (no_index (Proc.devRef .tc main_arg1)) = V0 (Proc.devRef .tc main_arg1) :=
  (st12_keep V0 main_arg1 (by decide)).trans (st11_main_arg1 V0)
theorem st12_main_v1 (V0 : Valuation τ sig (Elt F)) : st12 V0 (no_index (Proc.devRef .tc main_v1)) = val_main_v1 (F := F) (V0 (Proc.devRef .tc main_arg1)) :=
  (st12_keep V0 main_v1 (by decide)).trans (st11_main_v1 V0)
theorem st12_main_v2 (V0 : Valuation τ sig (Elt F)) : st12 V0 (no_index (Proc.devRef .tc main_v2)) = val_main_v2 (F := F) (V0 (Proc.devRef .tc main_arg0)) :=
  (st12_keep V0 main_v2 (by decide)).trans (st11_main_v2 V0)
theorem st12_main_v3 (V0 : Valuation τ sig (Elt F)) : st12 V0 (no_index (Proc.devRef .tc main_v3)) = val_main_v3 (F := F) (V0 (Proc.devRef .tc main_arg0)) :=
  (st12_keep V0 main_v3 (by decide)).trans (st11_main_v3 V0)
theorem st12_main_v4 (V0 : Valuation τ sig (Elt F)) : st12 V0 (no_index (Proc.devRef .tc main_v4)) = val_main_v4 (F := F) (V0 (Proc.devRef .tc main_arg1)) :=
  (st12_keep V0 main_v4 (by decide)).trans (st11_main_v4 V0)
theorem st12_main_v66 (V0 : Valuation τ sig (Elt F)) : st12 V0 (no_index (Proc.devRef .tc main_v66)) = val_main_v66 (F := F) (V0 (Proc.devRef .tc main_arg0)) (V0 (Proc.devRef .tc main_arg1)) :=
  (st12_keep V0 main_v66 (by decide)).trans (st11_main_v66 V0)
theorem st12_main_v77 (V0 : Valuation τ sig (Elt F)) : st12 V0 (no_index (Proc.devRef .tc main_v77)) = val_main_v77 (F := F) (V0 (Proc.devRef .tc main_arg0)) :=
  (st12_keep V0 main_v77 (by decide)).trans (st11_main_v77 V0)
theorem st12_main_v80 (V0 : Valuation τ sig (Elt F)) : st12 V0 (no_index (Proc.devRef .tc main_v80)) = val_main_v80 (F := F) (V0 (Proc.devRef .tc main_arg0)) :=
  (st12_keep V0 main_v80 (by decide)).trans (st11_main_v80 V0)
theorem st12_main_v83 (V0 : Valuation τ sig (Elt F)) : st12 V0 (no_index (Proc.devRef .tc main_v83)) = val_main_v83 (F := F) (V0 (Proc.devRef .tc main_arg0)) :=
  (st12_keep V0 main_v83 (by decide)).trans (st11_main_v83 V0)
theorem st12_main_v86 (V0 : Valuation τ sig (Elt F)) : st12 V0 (no_index (Proc.devRef .tc main_v86)) = val_main_v86 (F := F) (V0 (Proc.devRef .tc main_arg0)) :=
  (st12_keep V0 main_v86 (by decide)).trans (st11_main_v86 V0)
theorem st12_main_v90 (V0 : Valuation τ sig (Elt F)) : st12 V0 (no_index (Proc.devRef .tc main_v90)) = val_main_v90 (F := F) (V0 (Proc.devRef .tc main_arg1)) :=
  (st12_keep V0 main_v90 (by decide)).trans (st11_main_v90 V0)
theorem st12_main_v94 (V0 : Valuation τ sig (Elt F)) : st12 V0 (no_index (Proc.devRef .tc main_v94)) = val_main_v94 (F := F) (V0 (Proc.devRef .tc main_arg1)) := by
  unfold st12
  simp only [w12]
  after_results_simp
  simp only [st11_main_v4] <;> rfl
theorem st12_main_v97 (V0 : Valuation τ sig (Elt F)) : st12 V0 (no_index (Proc.devRef .tc main_v97)) = val_main_v97 (F := F) (V0 (Proc.devRef .tc main_arg1)) := by
  unfold st12
  simp only [w12]
  after_results_simp
  simp only [st11_main_v92, st11_main_v88] <;> rfl
theorem st12_main_v100 (V0 : Valuation τ sig (Elt F)) : st12 V0 (no_index (Proc.devRef .tc main_v100)) = val_main_v100 (F := F) (V0 (Proc.devRef .tc main_arg1)) := by
  unfold st12
  simp only [w12]
  after_results_simp
  simp only [st11_main_v92, st11_main_v88] <;> rfl

/-- Operations 121 … 122 of @main. -/
abbrev w13 : List (HloOp τ sig (Elt F)) :=
  [ nullary main_cst_16 (constant S_ .f32 0x3F000000#32),
    unary main_cst_16 main_v101 (broadcastInDim S16384x7x7 ![] bcast_S_S16384x7x7 : (⟨S_, .f32⟩ : BufTy).Contents (Elt F) → (⟨S16384x7x7, .f32⟩ : BufTy).Contents (Elt F)) ]
theorem w13_sub : (w13 : List (HloOp τ sig (Elt F))).Forall fun op => op.bufs ⊆ tcRefs τ sig :=
  ⟨nullary_bufs_sub .., unary_bufs_sub ..⟩
theorem w13_fresh : ∀ op ∈ (w13 : List (HloOp τ sig (Elt F))), op.fresh = ∅ := by
  intro _ h; (repeat (cases h with | head => rfl | tail _ h => ?_)); exact nomatch h
/-- The buffers the window writes. -/
abbrev w13_W : List (Ref sig .tc) := [main_cst_16, main_v101]
theorem w13_writes : (w13 : List (HloOp τ sig (Elt F))).Forall fun op => op.writes ⊆ (w13_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after the first 13 windows. -/
def st13 (V0 : Valuation τ sig (Elt F)) : Valuation τ sig (Elt F) := after w13 (st12 V0)
/-- A buffer the window does not write keeps its contents through it. -/
theorem st13_keep (V0 : Valuation τ sig (Elt F)) (r : Ref sig .tc) (h : r ∉ w13_W) :
    st13 V0 (Proc.devRef .tc r) = st12 V0 (Proc.devRef .tc r) :=
  after_of_writes_sub w13 _ w13_writes h
theorem st13_main_arg0 (V0 : Valuation τ sig (Elt F)) : st13 V0 (no_index (Proc.devRef .tc main_arg0)) = V0 (Proc.devRef .tc main_arg0) :=
  (st13_keep V0 main_arg0 (by decide)).trans (st12_main_arg0 V0)
theorem st13_main_arg1 (V0 : Valuation τ sig (Elt F)) : st13 V0 (no_index (Proc.devRef .tc main_arg1)) = V0 (Proc.devRef .tc main_arg1) :=
  (st13_keep V0 main_arg1 (by decide)).trans (st12_main_arg1 V0)
theorem st13_main_v1 (V0 : Valuation τ sig (Elt F)) : st13 V0 (no_index (Proc.devRef .tc main_v1)) = val_main_v1 (F := F) (V0 (Proc.devRef .tc main_arg1)) :=
  (st13_keep V0 main_v1 (by decide)).trans (st12_main_v1 V0)
theorem st13_main_v2 (V0 : Valuation τ sig (Elt F)) : st13 V0 (no_index (Proc.devRef .tc main_v2)) = val_main_v2 (F := F) (V0 (Proc.devRef .tc main_arg0)) :=
  (st13_keep V0 main_v2 (by decide)).trans (st12_main_v2 V0)
theorem st13_main_v3 (V0 : Valuation τ sig (Elt F)) : st13 V0 (no_index (Proc.devRef .tc main_v3)) = val_main_v3 (F := F) (V0 (Proc.devRef .tc main_arg0)) :=
  (st13_keep V0 main_v3 (by decide)).trans (st12_main_v3 V0)
theorem st13_main_v4 (V0 : Valuation τ sig (Elt F)) : st13 V0 (no_index (Proc.devRef .tc main_v4)) = val_main_v4 (F := F) (V0 (Proc.devRef .tc main_arg1)) :=
  (st13_keep V0 main_v4 (by decide)).trans (st12_main_v4 V0)
theorem st13_main_v66 (V0 : Valuation τ sig (Elt F)) : st13 V0 (no_index (Proc.devRef .tc main_v66)) = val_main_v66 (F := F) (V0 (Proc.devRef .tc main_arg0)) (V0 (Proc.devRef .tc main_arg1)) :=
  (st13_keep V0 main_v66 (by decide)).trans (st12_main_v66 V0)
theorem st13_main_v77 (V0 : Valuation τ sig (Elt F)) : st13 V0 (no_index (Proc.devRef .tc main_v77)) = val_main_v77 (F := F) (V0 (Proc.devRef .tc main_arg0)) :=
  (st13_keep V0 main_v77 (by decide)).trans (st12_main_v77 V0)
theorem st13_main_v80 (V0 : Valuation τ sig (Elt F)) : st13 V0 (no_index (Proc.devRef .tc main_v80)) = val_main_v80 (F := F) (V0 (Proc.devRef .tc main_arg0)) :=
  (st13_keep V0 main_v80 (by decide)).trans (st12_main_v80 V0)
theorem st13_main_v83 (V0 : Valuation τ sig (Elt F)) : st13 V0 (no_index (Proc.devRef .tc main_v83)) = val_main_v83 (F := F) (V0 (Proc.devRef .tc main_arg0)) :=
  (st13_keep V0 main_v83 (by decide)).trans (st12_main_v83 V0)
theorem st13_main_v86 (V0 : Valuation τ sig (Elt F)) : st13 V0 (no_index (Proc.devRef .tc main_v86)) = val_main_v86 (F := F) (V0 (Proc.devRef .tc main_arg0)) :=
  (st13_keep V0 main_v86 (by decide)).trans (st12_main_v86 V0)
theorem st13_main_v90 (V0 : Valuation τ sig (Elt F)) : st13 V0 (no_index (Proc.devRef .tc main_v90)) = val_main_v90 (F := F) (V0 (Proc.devRef .tc main_arg1)) :=
  (st13_keep V0 main_v90 (by decide)).trans (st12_main_v90 V0)
theorem st13_main_v94 (V0 : Valuation τ sig (Elt F)) : st13 V0 (no_index (Proc.devRef .tc main_v94)) = val_main_v94 (F := F) (V0 (Proc.devRef .tc main_arg1)) :=
  (st13_keep V0 main_v94 (by decide)).trans (st12_main_v94 V0)
theorem st13_main_v97 (V0 : Valuation τ sig (Elt F)) : st13 V0 (no_index (Proc.devRef .tc main_v97)) = val_main_v97 (F := F) (V0 (Proc.devRef .tc main_arg1)) :=
  (st13_keep V0 main_v97 (by decide)).trans (st12_main_v97 V0)
theorem st13_main_v100 (V0 : Valuation τ sig (Elt F)) : st13 V0 (no_index (Proc.devRef .tc main_v100)) = val_main_v100 (F := F) (V0 (Proc.devRef .tc main_arg1)) :=
  (st13_keep V0 main_v100 (by decide)).trans (st12_main_v100 V0)
theorem st13_main_v101 (V0 : Valuation τ sig (Elt F)) : st13 V0 (no_index (Proc.devRef .tc main_v101)) = val_main_v101 (F := F) := by
  unfold st13
  simp only [w13]
  after_results_simp
  all_goals rfl

/-- Operations 123 … 132 of @main. -/
abbrev w14 : List (HloOp τ sig (Elt F)) :=
  [ binary main_v101 main_v94 main_v102 (mulf : (⟨S16384x7x7, .f32⟩ : BufTy).Contents (Elt F) → (⟨S16384x7x7, .f32⟩ : BufTy).Contents (Elt F) → (⟨S16384x7x7, .f32⟩ : BufTy).Contents (Elt F)),
    binary main_v90 main_v102 main_v103 (subf : (⟨S16384x7x7, .f32⟩ : BufTy).Contents (Elt F) → (⟨S16384x7x7, .f32⟩ : BufTy).Contents (Elt F) → (⟨S16384x7x7, .f32⟩ : BufTy).Contents (Elt F)),
    nullary main_cst_17 (constant S_ .f32 0x3F000000#32),
    unary main_cst_17 main_v104 (broadcastInDim S16384x7x7 ![] bcast_S_S16384x7x7 : (⟨S_, .f32⟩ : BufTy).Contents (Elt F) → (⟨S16384x7x7, .f32⟩ : BufTy).Contents (Elt F)),
    binary main_v104 main_v94 main_v105 (mulf : (⟨S16384x7x7, .f32⟩ : BufTy).Contents (Elt F) → (⟨S16384x7x7, .f32⟩ : BufTy).Contents (Elt F) → (⟨S16384x7x7, .f32⟩ : BufTy).Contents (Elt F)),
    binary main_v90 main_v105 main_v106 (addf : (⟨S16384x7x7, .f32⟩ : BufTy).Contents (Elt F) → (⟨S16384x7x7, .f32⟩ : BufTy).Contents (Elt F) → (⟨S16384x7x7, .f32⟩ : BufTy).Contents (Elt F)),
    binary main_v86 main_v106 main_v107 (minimumf : (⟨S16384x7x7, .f32⟩ : BufTy).Contents (Elt F) → (⟨S16384x7x7, .f32⟩ : BufTy).Contents (Elt F) → (⟨S16384x7x7, .f32⟩ : BufTy).Contents (Elt F)),
    binary main_v83 main_v103 main_v108 (maximumf : (⟨S16384x7x7, .f32⟩ : BufTy).Contents (Elt F) → (⟨S16384x7x7, .f32⟩ : BufTy).Contents (Elt F) → (⟨S16384x7x7, .f32⟩ : BufTy).Contents (Elt F)),
    binary main_v107 main_v108 main_v109 (subf : (⟨S16384x7x7, .f32⟩ : BufTy).Contents (Elt F) → (⟨S16384x7x7, .f32⟩ : BufTy).Contents (Elt F) → (⟨S16384x7x7, .f32⟩ : BufTy).Contents (Elt F)),
    binary main_v80 main_v100 main_v110 (minimumf : (⟨S16384x7x7, .f32⟩ : BufTy).Contents (Elt F) → (⟨S16384x7x7, .f32⟩ : BufTy).Contents (Elt F) → (⟨S16384x7x7, .f32⟩ : BufTy).Contents (Elt F)) ]
theorem w14_sub : (w14 : List (HloOp τ sig (Elt F))).Forall fun op => op.bufs ⊆ tcRefs τ sig :=
  ⟨binary_bufs_sub .., binary_bufs_sub .., nullary_bufs_sub .., unary_bufs_sub .., binary_bufs_sub .., binary_bufs_sub .., binary_bufs_sub .., binary_bufs_sub .., binary_bufs_sub .., binary_bufs_sub ..⟩
theorem w14_fresh : ∀ op ∈ (w14 : List (HloOp τ sig (Elt F))), op.fresh = ∅ := by
  intro _ h; (repeat (cases h with | head => rfl | tail _ h => ?_)); exact nomatch h
/-- The buffers the window writes. -/
abbrev w14_W : List (Ref sig .tc) := [main_v102, main_v103, main_cst_17, main_v104, main_v105, main_v106, main_v107, main_v108, main_v109, main_v110]
theorem w14_writes : (w14 : List (HloOp τ sig (Elt F))).Forall fun op => op.writes ⊆ (w14_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after the first 14 windows. -/
def st14 (V0 : Valuation τ sig (Elt F)) : Valuation τ sig (Elt F) := after w14 (st13 V0)
/-- A buffer the window does not write keeps its contents through it. -/
theorem st14_keep (V0 : Valuation τ sig (Elt F)) (r : Ref sig .tc) (h : r ∉ w14_W) :
    st14 V0 (Proc.devRef .tc r) = st13 V0 (Proc.devRef .tc r) :=
  after_of_writes_sub w14 _ w14_writes h
theorem st14_main_arg0 (V0 : Valuation τ sig (Elt F)) : st14 V0 (no_index (Proc.devRef .tc main_arg0)) = V0 (Proc.devRef .tc main_arg0) :=
  (st14_keep V0 main_arg0 (by decide)).trans (st13_main_arg0 V0)
theorem st14_main_arg1 (V0 : Valuation τ sig (Elt F)) : st14 V0 (no_index (Proc.devRef .tc main_arg1)) = V0 (Proc.devRef .tc main_arg1) :=
  (st14_keep V0 main_arg1 (by decide)).trans (st13_main_arg1 V0)
theorem st14_main_v1 (V0 : Valuation τ sig (Elt F)) : st14 V0 (no_index (Proc.devRef .tc main_v1)) = val_main_v1 (F := F) (V0 (Proc.devRef .tc main_arg1)) :=
  (st14_keep V0 main_v1 (by decide)).trans (st13_main_v1 V0)
theorem st14_main_v2 (V0 : Valuation τ sig (Elt F)) : st14 V0 (no_index (Proc.devRef .tc main_v2)) = val_main_v2 (F := F) (V0 (Proc.devRef .tc main_arg0)) :=
  (st14_keep V0 main_v2 (by decide)).trans (st13_main_v2 V0)
theorem st14_main_v3 (V0 : Valuation τ sig (Elt F)) : st14 V0 (no_index (Proc.devRef .tc main_v3)) = val_main_v3 (F := F) (V0 (Proc.devRef .tc main_arg0)) :=
  (st14_keep V0 main_v3 (by decide)).trans (st13_main_v3 V0)
theorem st14_main_v4 (V0 : Valuation τ sig (Elt F)) : st14 V0 (no_index (Proc.devRef .tc main_v4)) = val_main_v4 (F := F) (V0 (Proc.devRef .tc main_arg1)) :=
  (st14_keep V0 main_v4 (by decide)).trans (st13_main_v4 V0)
theorem st14_main_v66 (V0 : Valuation τ sig (Elt F)) : st14 V0 (no_index (Proc.devRef .tc main_v66)) = val_main_v66 (F := F) (V0 (Proc.devRef .tc main_arg0)) (V0 (Proc.devRef .tc main_arg1)) :=
  (st14_keep V0 main_v66 (by decide)).trans (st13_main_v66 V0)
theorem st14_main_v77 (V0 : Valuation τ sig (Elt F)) : st14 V0 (no_index (Proc.devRef .tc main_v77)) = val_main_v77 (F := F) (V0 (Proc.devRef .tc main_arg0)) :=
  (st14_keep V0 main_v77 (by decide)).trans (st13_main_v77 V0)
theorem st14_main_v80 (V0 : Valuation τ sig (Elt F)) : st14 V0 (no_index (Proc.devRef .tc main_v80)) = val_main_v80 (F := F) (V0 (Proc.devRef .tc main_arg0)) :=
  (st14_keep V0 main_v80 (by decide)).trans (st13_main_v80 V0)
theorem st14_main_v83 (V0 : Valuation τ sig (Elt F)) : st14 V0 (no_index (Proc.devRef .tc main_v83)) = val_main_v83 (F := F) (V0 (Proc.devRef .tc main_arg0)) :=
  (st14_keep V0 main_v83 (by decide)).trans (st13_main_v83 V0)
theorem st14_main_v86 (V0 : Valuation τ sig (Elt F)) : st14 V0 (no_index (Proc.devRef .tc main_v86)) = val_main_v86 (F := F) (V0 (Proc.devRef .tc main_arg0)) :=
  (st14_keep V0 main_v86 (by decide)).trans (st13_main_v86 V0)
theorem st14_main_v97 (V0 : Valuation τ sig (Elt F)) : st14 V0 (no_index (Proc.devRef .tc main_v97)) = val_main_v97 (F := F) (V0 (Proc.devRef .tc main_arg1)) :=
  (st14_keep V0 main_v97 (by decide)).trans (st13_main_v97 V0)
theorem st14_main_v100 (V0 : Valuation τ sig (Elt F)) : st14 V0 (no_index (Proc.devRef .tc main_v100)) = val_main_v100 (F := F) (V0 (Proc.devRef .tc main_arg1)) :=
  (st14_keep V0 main_v100 (by decide)).trans (st13_main_v100 V0)
theorem st14_main_v103 (V0 : Valuation τ sig (Elt F)) : st14 V0 (no_index (Proc.devRef .tc main_v103)) = val_main_v103 (F := F) (V0 (Proc.devRef .tc main_arg1)) := by
  unfold st14
  simp only [w14]
  after_results_simp
  simp only [st13_main_v94, st13_main_v101, st13_main_v90] <;> rfl
theorem st14_main_v106 (V0 : Valuation τ sig (Elt F)) : st14 V0 (no_index (Proc.devRef .tc main_v106)) = val_main_v106 (F := F) (V0 (Proc.devRef .tc main_arg1)) := by
  unfold st14
  simp only [w14]
  after_results_simp
  simp only [st13_main_v94, st13_main_v90] <;> rfl
theorem st14_main_v109 (V0 : Valuation τ sig (Elt F)) : st14 V0 (no_index (Proc.devRef .tc main_v109)) = val_main_v109 (F := F) (V0 (Proc.devRef .tc main_arg0)) (V0 (Proc.devRef .tc main_arg1)) := by
  unfold st14
  simp only [w14]
  after_results_simp
  simp only [st13_main_v94, st13_main_v101, st13_main_v90, st13_main_v83, st13_main_v86] <;> rfl
theorem st14_main_v110 (V0 : Valuation τ sig (Elt F)) : st14 V0 (no_index (Proc.devRef .tc main_v110)) = val_main_v110 (F := F) (V0 (Proc.devRef .tc main_arg0)) (V0 (Proc.devRef .tc main_arg1)) := by
  unfold st14
  simp only [w14]
  after_results_simp
  simp only [st13_main_v100, st13_main_v80] <;> rfl

/-- Operations 133 … 142 of @main. -/
abbrev w15 : List (HloOp τ sig (Elt F)) :=
  [ binary main_v77 main_v97 main_v111 (maximumf : (⟨S16384x7x7, .f32⟩ : BufTy).Contents (Elt F) → (⟨S16384x7x7, .f32⟩ : BufTy).Contents (Elt F) → (⟨S16384x7x7, .f32⟩ : BufTy).Contents (Elt F)),
    binary main_v110 main_v111 main_v112 (subf : (⟨S16384x7x7, .f32⟩ : BufTy).Contents (Elt F) → (⟨S16384x7x7, .f32⟩ : BufTy).Contents (Elt F) → (⟨S16384x7x7, .f32⟩ : BufTy).Contents (Elt F)),
    nullary main_cst_18 (constant S_ .f32 0x00000000#32),
    unary main_cst_18 main_v113 (broadcastInDim S16384x7x7 ![] bcast_S_S16384x7x7 : (⟨S_, .f32⟩ : BufTy).Contents (Elt F) → (⟨S16384x7x7, .f32⟩ : BufTy).Contents (Elt F)),
    binary main_v109 main_v113 main_v114 (cmpf .olt : (⟨S16384x7x7, .f32⟩ : BufTy).Contents (Elt F) → (⟨S16384x7x7, .f32⟩ : BufTy).Contents (Elt F) → (⟨S16384x7x7, .i1⟩ : BufTy).Contents (Elt F)),
    nullary main_cst_19 (constant S_ .f32 0x00000000#32),
    unary main_cst_19 main_v115 (broadcastInDim S16384x7x7 ![] bcast_S_S16384x7x7 : (⟨S_, .f32⟩ : BufTy).Contents (Elt F) → (⟨S16384x7x7, .f32⟩ : BufTy).Contents (Elt F)),
    binary main_v112 main_v115 main_v116 (cmpf .olt : (⟨S16384x7x7, .f32⟩ : BufTy).Contents (Elt F) → (⟨S16384x7x7, .f32⟩ : BufTy).Contents (Elt F) → (⟨S16384x7x7, .i1⟩ : BufTy).Contents (Elt F)),
    binary main_v114 main_v116 main_v117 (ori : (⟨S16384x7x7, .i1⟩ : BufTy).Contents (Elt F) → (⟨S16384x7x7, .i1⟩ : BufTy).Contents (Elt F) → (⟨S16384x7x7, .i1⟩ : BufTy).Contents (Elt F)),
    binary main_v109 main_v112 main_v118 (mulf : (⟨S16384x7x7, .f32⟩ : BufTy).Contents (Elt F) → (⟨S16384x7x7, .f32⟩ : BufTy).Contents (Elt F) → (⟨S16384x7x7, .f32⟩ : BufTy).Contents (Elt F)) ]
theorem w15_sub : (w15 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., binary_bufs_sub ..⟩
theorem w15_fresh : ∀ op ∈ (w15 : List (HloOp τ sig (Elt F))), op.fresh = ∅ := by
  intro _ h; (repeat (cases h with | head => rfl | tail _ h => ?_)); exact nomatch h
/-- The buffers the window writes. -/
abbrev w15_W : List (Ref sig .tc) := [main_v111, main_v112, main_cst_18, main_v113, main_v114, main_cst_19, main_v115, main_v116, main_v117, main_v118]
theorem w15_writes : (w15 : List (HloOp τ sig (Elt F))).Forall fun op => op.writes ⊆ (w15_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after the first 15 windows. -/
def st15 (V0 : Valuation τ sig (Elt F)) : Valuation τ sig (Elt F) := after w15 (st14 V0)
/-- A buffer the window does not write keeps its contents through it. -/
theorem st15_keep (V0 : Valuation τ sig (Elt F)) (r : Ref sig .tc) (h : r ∉ w15_W) :
    st15 V0 (Proc.devRef .tc r) = st14 V0 (Proc.devRef .tc r) :=
  after_of_writes_sub w15 _ w15_writes h
theorem st15_main_arg0 (V0 : Valuation τ sig (Elt F)) : st15 V0 (no_index (Proc.devRef .tc main_arg0)) = V0 (Proc.devRef .tc main_arg0) :=
  (st15_keep V0 main_arg0 (by decide)).trans (st14_main_arg0 V0)
theorem st15_main_arg1 (V0 : Valuation τ sig (Elt F)) : st15 V0 (no_index (Proc.devRef .tc main_arg1)) = V0 (Proc.devRef .tc main_arg1) :=
  (st15_keep V0 main_arg1 (by decide)).trans (st14_main_arg1 V0)
theorem st15_main_v1 (V0 : Valuation τ sig (Elt F)) : st15 V0 (no_index (Proc.devRef .tc main_v1)) = val_main_v1 (F := F) (V0 (Proc.devRef .tc main_arg1)) :=
  (st15_keep V0 main_v1 (by decide)).trans (st14_main_v1 V0)
theorem st15_main_v2 (V0 : Valuation τ sig (Elt F)) : st15 V0 (no_index (Proc.devRef .tc main_v2)) = val_main_v2 (F := F) (V0 (Proc.devRef .tc main_arg0)) :=
  (st15_keep V0 main_v2 (by decide)).trans (st14_main_v2 V0)
theorem st15_main_v3 (V0 : Valuation τ sig (Elt F)) : st15 V0 (no_index (Proc.devRef .tc main_v3)) = val_main_v3 (F := F) (V0 (Proc.devRef .tc main_arg0)) :=
  (st15_keep V0 main_v3 (by decide)).trans (st14_main_v3 V0)
theorem st15_main_v4 (V0 : Valuation τ sig (Elt F)) : st15 V0 (no_index (Proc.devRef .tc main_v4)) = val_main_v4 (F := F) (V0 (Proc.devRef .tc main_arg1)) :=
  (st15_keep V0 main_v4 (by decide)).trans (st14_main_v4 V0)
theorem st15_main_v66 (V0 : Valuation τ sig (Elt F)) : st15 V0 (no_index (Proc.devRef .tc main_v66)) = val_main_v66 (F := F) (V0 (Proc.devRef .tc main_arg0)) (V0 (Proc.devRef .tc main_arg1)) :=
  (st15_keep V0 main_v66 (by decide)).trans (st14_main_v66 V0)
theorem st15_main_v77 (V0 : Valuation τ sig (Elt F)) : st15 V0 (no_index (Proc.devRef .tc main_v77)) = val_main_v77 (F := F) (V0 (Proc.devRef .tc main_arg0)) :=
  (st15_keep V0 main_v77 (by decide)).trans (st14_main_v77 V0)
theorem st15_main_v80 (V0 : Valuation τ sig (Elt F)) : st15 V0 (no_index (Proc.devRef .tc main_v80)) = val_main_v80 (F := F) (V0 (Proc.devRef .tc main_arg0)) :=
  (st15_keep V0 main_v80 (by decide)).trans (st14_main_v80 V0)
theorem st15_main_v83 (V0 : Valuation τ sig (Elt F)) : st15 V0 (no_index (Proc.devRef .tc main_v83)) = val_main_v83 (F := F) (V0 (Proc.devRef .tc main_arg0)) :=
  (st15_keep V0 main_v83 (by decide)).trans (st14_main_v83 V0)
theorem st15_main_v86 (V0 : Valuation τ sig (Elt F)) : st15 V0 (no_index (Proc.devRef .tc main_v86)) = val_main_v86 (F := F) (V0 (Proc.devRef .tc main_arg0)) :=
  (st15_keep V0 main_v86 (by decide)).trans (st14_main_v86 V0)
theorem st15_main_v97 (V0 : Valuation τ sig (Elt F)) : st15 V0 (no_index (Proc.devRef .tc main_v97)) = val_main_v97 (F := F) (V0 (Proc.devRef .tc main_arg1)) :=
  (st15_keep V0 main_v97 (by decide)).trans (st14_main_v97 V0)
theorem st15_main_v100 (V0 : Valuation τ sig (Elt F)) : st15 V0 (no_index (Proc.devRef .tc main_v100)) = val_main_v100 (F := F) (V0 (Proc.devRef .tc main_arg1)) :=
  (st15_keep V0 main_v100 (by decide)).trans (st14_main_v100 V0)
theorem st15_main_v103 (V0 : Valuation τ sig (Elt F)) : st15 V0 (no_index (Proc.devRef .tc main_v103)) = val_main_v103 (F := F) (V0 (Proc.devRef .tc main_arg1)) :=
  (st15_keep V0 main_v103 (by decide)).trans (st14_main_v103 V0)
theorem st15_main_v106 (V0 : Valuation τ sig (Elt F)) : st15 V0 (no_index (Proc.devRef .tc main_v106)) = val_main_v106 (F := F) (V0 (Proc.devRef .tc main_arg1)) :=
  (st15_keep V0 main_v106 (by decide)).trans (st14_main_v106 V0)
theorem st15_main_v117 (V0 : Valuation τ sig (Elt F)) : st15 V0 (no_index (Proc.devRef .tc main_v117)) = val_main_v117 (F := F) (V0 (Proc.devRef .tc main_arg0)) (V0 (Proc.devRef .tc main_arg1)) := by
  unfold st15
  simp only [w15]
  after_results_simp
  simp only [st14_main_v97, st14_main_v77, st14_main_v110, st14_main_v109] <;> rfl
theorem st15_main_v118 (V0 : Valuation τ sig (Elt F)) : st15 V0 (no_index (Proc.devRef .tc main_v118)) = val_main_v118 (F := F) (V0 (Proc.devRef .tc main_arg0)) (V0 (Proc.devRef .tc main_arg1)) := by
  unfold st15
  simp only [w15]
  after_results_simp
  simp only [st14_main_v97, st14_main_v77, st14_main_v110, st14_main_v109] <;> rfl

/-- Operations 143 … 152 of @main. -/
abbrev w16 : List (HloOp τ sig (Elt F)) :=
  [ nullary main_cst_20 (constant S_ .f32 0x00000000#32),
    TRef.unary (TRef.of (T := ⟨S_, .f32⟩) main_cst_20) (TRef.of (T := ⟨S_, .f32⟩) main_call1_v0) id,
    TRef.unary (TRef.of (T := ⟨S_, .f32⟩) main_call1_v0) (TRef.of (T := ⟨S16384x7x7, .f32⟩) main_call1_v1) (broadcastInDim S16384x7x7 ![] bcast_S_S16384x7x7),
    TRef.ternary (TRef.of (T := ⟨S16384x7x7, .i1⟩) main_v117) (TRef.of (T := ⟨S16384x7x7, .f32⟩) main_call1_v1) (TRef.of (T := ⟨S16384x7x7, .f32⟩) main_v118) (TRef.of (T := ⟨S16384x7x7, .f32⟩) main_v119) select,
    binary main_v86 main_v83 main_v120 (subf : (⟨S16384x7x7, .f32⟩ : BufTy).Contents (Elt F) → (⟨S16384x7x7, .f32⟩ : BufTy).Contents (Elt F) → (⟨S16384x7x7, .f32⟩ : BufTy).Contents (Elt F)),
    binary main_v80 main_v77 main_v121 (subf : (⟨S16384x7x7, .f32⟩ : BufTy).Contents (Elt F) → (⟨S16384x7x7, .f32⟩ : BufTy).Contents (Elt F) → (⟨S16384x7x7, .f32⟩ : BufTy).Contents (Elt F)),
    binary main_v120 main_v121 main_v122 (mulf : (⟨S16384x7x7, .f32⟩ : BufTy).Contents (Elt F) → (⟨S16384x7x7, .f32⟩ : BufTy).Contents (Elt F) → (⟨S16384x7x7, .f32⟩ : BufTy).Contents (Elt F)),
    binary main_v106 main_v103 main_v123 (subf : (⟨S16384x7x7, .f32⟩ : BufTy).Contents (Elt F) → (⟨S16384x7x7, .f32⟩ : BufTy).Contents (Elt F) → (⟨S16384x7x7, .f32⟩ : BufTy).Contents (Elt F)),
    binary main_v100 main_v97 main_v124 (subf : (⟨S16384x7x7, .f32⟩ : BufTy).Contents (Elt F) → (⟨S16384x7x7, .f32⟩ : BufTy).Contents (Elt F) → (⟨S16384x7x7, .f32⟩ : BufTy).Contents (Elt F)),
    binary main_v123 main_v124 main_v125 (mulf : (⟨S16384x7x7, .f32⟩ : BufTy).Contents (Elt F) → (⟨S16384x7x7, .f32⟩ : BufTy).Contents (Elt F) → (⟨S16384x7x7, .f32⟩ : BufTy).Contents (Elt F)) ]
theorem w16_sub : (w16 : List (HloOp τ sig (Elt F))).Forall fun op => op.bufs ⊆ tcRefs τ sig :=
  ⟨nullary_bufs_sub .., unary_bufs_sub .., unary_bufs_sub .., ternary_bufs_sub .., binary_bufs_sub .., binary_bufs_sub .., binary_bufs_sub .., binary_bufs_sub .., binary_bufs_sub .., binary_bufs_sub ..⟩
theorem w16_fresh : ∀ op ∈ (w16 : List (HloOp τ sig (Elt F))), op.fresh = ∅ := by
  intro _ h; (repeat (cases h with | head => rfl | tail _ h => ?_)); exact nomatch h
/-- The buffers the window writes. -/
abbrev w16_W : List (Ref sig .tc) := [main_cst_20, main_call1_v0, main_call1_v1, main_v119, main_v120, main_v121, main_v122, main_v123, main_v124, main_v125]
theorem w16_writes : (w16 : List (HloOp τ sig (Elt F))).Forall fun op => op.writes ⊆ (w16_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after the first 16 windows. -/
def st16 (V0 : Valuation τ sig (Elt F)) : Valuation τ sig (Elt F) := after w16 (st15 V0)
/-- A buffer the window does not write keeps its contents through it. -/
theorem st16_keep (V0 : Valuation τ sig (Elt F)) (r : Ref sig .tc) (h : r ∉ w16_W) :
    st16 V0 (Proc.devRef .tc r) = st15 V0 (Proc.devRef .tc r) :=
  after_of_writes_sub w16 _ w16_writes h
theorem st16_main_arg0 (V0 : Valuation τ sig (Elt F)) : st16 V0 (no_index (Proc.devRef .tc main_arg0)) = V0 (Proc.devRef .tc main_arg0) :=
  (st16_keep V0 main_arg0 (by decide)).trans (st15_main_arg0 V0)
theorem st16_main_arg1 (V0 : Valuation τ sig (Elt F)) : st16 V0 (no_index (Proc.devRef .tc main_arg1)) = V0 (Proc.devRef .tc main_arg1) :=
  (st16_keep V0 main_arg1 (by decide)).trans (st15_main_arg1 V0)
theorem st16_main_v1 (V0 : Valuation τ sig (Elt F)) : st16 V0 (no_index (Proc.devRef .tc main_v1)) = val_main_v1 (F := F) (V0 (Proc.devRef .tc main_arg1)) :=
  (st16_keep V0 main_v1 (by decide)).trans (st15_main_v1 V0)
theorem st16_main_v2 (V0 : Valuation τ sig (Elt F)) : st16 V0 (no_index (Proc.devRef .tc main_v2)) = val_main_v2 (F := F) (V0 (Proc.devRef .tc main_arg0)) :=
  (st16_keep V0 main_v2 (by decide)).trans (st15_main_v2 V0)
theorem st16_main_v3 (V0 : Valuation τ sig (Elt F)) : st16 V0 (no_index (Proc.devRef .tc main_v3)) = val_main_v3 (F := F) (V0 (Proc.devRef .tc main_arg0)) :=
  (st16_keep V0 main_v3 (by decide)).trans (st15_main_v3 V0)
theorem st16_main_v4 (V0 : Valuation τ sig (Elt F)) : st16 V0 (no_index (Proc.devRef .tc main_v4)) = val_main_v4 (F := F) (V0 (Proc.devRef .tc main_arg1)) :=
  (st16_keep V0 main_v4 (by decide)).trans (st15_main_v4 V0)
theorem st16_main_v66 (V0 : Valuation τ sig (Elt F)) : st16 V0 (no_index (Proc.devRef .tc main_v66)) = val_main_v66 (F := F) (V0 (Proc.devRef .tc main_arg0)) (V0 (Proc.devRef .tc main_arg1)) :=
  (st16_keep V0 main_v66 (by decide)).trans (st15_main_v66 V0)
theorem st16_main_v119 (V0 : Valuation τ sig (Elt F)) : st16 V0 (no_index (Proc.devRef .tc main_v119)) = val_main_v119 (F := F) (V0 (Proc.devRef .tc main_arg0)) (V0 (Proc.devRef .tc main_arg1)) := by
  unfold st16
  simp only [w16]
  after_results_simp
  simp only [st15_main_v118, st15_main_v117] <;> rfl
theorem st16_main_v122 (V0 : Valuation τ sig (Elt F)) : st16 V0 (no_index (Proc.devRef .tc main_v122)) = val_main_v122 (F := F) (V0 (Proc.devRef .tc main_arg0)) := by
  unfold st16
  simp only [w16]
  after_results_simp
  simp only [st15_main_v77, st15_main_v80, st15_main_v83, st15_main_v86] <;> rfl
theorem st16_main_v125 (V0 : Valuation τ sig (Elt F)) : st16 V0 (no_index (Proc.devRef .tc main_v125)) = val_main_v125 (F := F) (V0 (Proc.devRef .tc main_arg1)) := by
  unfold st16
  simp only [w16]
  after_results_simp
  simp only [st15_main_v97, st15_main_v100, st15_main_v103, st15_main_v106] <;> rfl

/-- Operations 153 … 162 of @main. -/
abbrev w17 : List (HloOp τ sig (Elt F)) :=
  [ binary main_v122 main_v125 main_v126 (addf : (⟨S16384x7x7, .f32⟩ : BufTy).Contents (Elt F) → (⟨S16384x7x7, .f32⟩ : BufTy).Contents (Elt F) → (⟨S16384x7x7, .f32⟩ : BufTy).Contents (Elt F)),
    binary main_v126 main_v119 main_v127 (subf : (⟨S16384x7x7, .f32⟩ : BufTy).Contents (Elt F) → (⟨S16384x7x7, .f32⟩ : BufTy).Contents (Elt F) → (⟨S16384x7x7, .f32⟩ : BufTy).Contents (Elt F)),
    binary main_v119 main_v127 main_v128 (Host.divf : (⟨S16384x7x7, .f32⟩ : BufTy).Contents (Elt F) → (⟨S16384x7x7, .f32⟩ : BufTy).Contents (Elt F) → (⟨S16384x7x7, .f32⟩ : BufTy).Contents (Elt F)),
    binary main_v66 main_v128 main_v129 (cmpf .oge : (⟨S16384x7x7, .f32⟩ : BufTy).Contents (Elt F) → (⟨S16384x7x7, .f32⟩ : BufTy).Contents (Elt F) → (⟨S16384x7x7, .i1⟩ : BufTy).Contents (Elt F)),
    unary main_v129 main_v130 (broadcastInDim S16384x7x7x1 ![0, 1, 2] bcast_S16384x7x7_S16384x7x7x1_0_1_2 : (⟨S16384x7x7, .i1⟩ : BufTy).Contents (Elt F) → (⟨S16384x7x7x1, .i1⟩ : BufTy).Contents (Elt F)),
    TRef.unary (TRef.of (T := ⟨S16384x7x7x1, .i1⟩) main_v130) (TRef.of (T := ⟨S16384x7x7x5, .i1⟩) main_call2_v0) (broadcastInDim S16384x7x7x5 ![0, 1, 2, 3] bcast_S16384x7x7x1_S16384x7x7x5_0_1_2_3),
    TRef.ternary (TRef.of (T := ⟨S16384x7x7x5, .i1⟩) main_call2_v0) (TRef.of (T := ⟨S16384x7x7x5, .f32⟩) main_v2) (TRef.of (T := ⟨S16384x7x7x5, .f32⟩) main_v3) (TRef.of (T := ⟨S16384x7x7x5, .f32⟩) main_v131) select,
    TRef.ternary (TRef.of (T := ⟨S16384x7x7, .i1⟩) main_v129) (TRef.of (T := ⟨S16384x7x7, .f32⟩) main_v66) (TRef.of (T := ⟨S16384x7x7, .f32⟩) main_v128) (TRef.of (T := ⟨S16384x7x7, .f32⟩) main_v132) select,
    TRef.ternary (TRef.of (T := ⟨S16384x7x7, .i1⟩) main_v129) (TRef.of (T := ⟨S16384x7x7, .f32⟩) main_v128) (TRef.of (T := ⟨S16384x7x7, .f32⟩) main_v66) (TRef.of (T := ⟨S16384x7x7, .f32⟩) main_v133) select,
    unary main_v131 main_v134 ((extractStridedSlice S16384x7x7x1 ![0, 0, 0, 1] · slices_S16384x7x7x5_S16384x7x7x1_0_0_0_1) : (⟨S16384x7x7x5, .f32⟩ : BufTy).Contents (Elt F) → (⟨S16384x7x7x1, .f32⟩ : BufTy).Contents (Elt F)) ]
theorem w17_sub : (w17 : List (HloOp τ sig (Elt F))).Forall fun op => op.bufs ⊆ tcRefs τ sig :=
  ⟨binary_bufs_sub .., binary_bufs_sub .., binary_bufs_sub .., binary_bufs_sub .., unary_bufs_sub .., unary_bufs_sub .., ternary_bufs_sub .., ternary_bufs_sub .., ternary_bufs_sub .., unary_bufs_sub ..⟩
theorem w17_fresh : ∀ op ∈ (w17 : List (HloOp τ sig (Elt F))), op.fresh = ∅ := by
  intro _ h; (repeat (cases h with | head => rfl | tail _ h => ?_)); exact nomatch h
/-- The buffers the window writes. -/
abbrev w17_W : List (Ref sig .tc) := [main_v126, main_v127, main_v128, main_v129, main_v130, main_call2_v0, main_v131, main_v132, main_v133, main_v134]
theorem w17_writes : (w17 : List (HloOp τ sig (Elt F))).Forall fun op => op.writes ⊆ (w17_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after the first 17 windows. -/
def st17 (V0 : Valuation τ sig (Elt F)) : Valuation τ sig (Elt F) := after w17 (st16 V0)
/-- A buffer the window does not write keeps its contents through it. -/
theorem st17_keep (V0 : Valuation τ sig (Elt F)) (r : Ref sig .tc) (h : r ∉ w17_W) :
    st17 V0 (Proc.devRef .tc r) = st16 V0 (Proc.devRef .tc r) :=
  after_of_writes_sub w17 _ w17_writes h
theorem st17_main_arg0 (V0 : Valuation τ sig (Elt F)) : st17 V0 (no_index (Proc.devRef .tc main_arg0)) = V0 (Proc.devRef .tc main_arg0) :=
  (st17_keep V0 main_arg0 (by decide)).trans (st16_main_arg0 V0)
theorem st17_main_arg1 (V0 : Valuation τ sig (Elt F)) : st17 V0 (no_index (Proc.devRef .tc main_arg1)) = V0 (Proc.devRef .tc main_arg1) :=
  (st17_keep V0 main_arg1 (by decide)).trans (st16_main_arg1 V0)
theorem st17_main_v1 (V0 : Valuation τ sig (Elt F)) : st17 V0 (no_index (Proc.devRef .tc main_v1)) = val_main_v1 (F := F) (V0 (Proc.devRef .tc main_arg1)) :=
  (st17_keep V0 main_v1 (by decide)).trans (st16_main_v1 V0)
theorem st17_main_v4 (V0 : Valuation τ sig (Elt F)) : st17 V0 (no_index (Proc.devRef .tc main_v4)) = val_main_v4 (F := F) (V0 (Proc.devRef .tc main_arg1)) :=
  (st17_keep V0 main_v4 (by decide)).trans (st16_main_v4 V0)
theorem st17_main_v131 (V0 : Valuation τ sig (Elt F)) : st17 V0 (no_index (Proc.devRef .tc main_v131)) = val_main_v131 (F := F) (V0 (Proc.devRef .tc main_arg0)) (V0 (Proc.devRef .tc main_arg1)) := by
  unfold st17
  simp only [w17]
  after_results_simp
  simp only [st16_main_v3, st16_main_v2, st16_main_v125, st16_main_v122, st16_main_v119, st16_main_v66] <;> rfl
theorem st17_main_v132 (V0 : Valuation τ sig (Elt F)) : st17 V0 (no_index (Proc.devRef .tc main_v132)) = val_main_v132 (F := F) (V0 (Proc.devRef .tc main_arg0)) (V0 (Proc.devRef .tc main_arg1)) := by
  unfold st17
  simp only [w17]
  after_results_simp
  simp only [st16_main_v125, st16_main_v122, st16_main_v119, st16_main_v66] <;> rfl
theorem st17_main_v133 (V0 : Valuation τ sig (Elt F)) : st17 V0 (no_index (Proc.devRef .tc main_v133)) = val_main_v133 (F := F) (V0 (Proc.devRef .tc main_arg0)) (V0 (Proc.devRef .tc main_arg1)) := by
  unfold st17
  simp only [w17]
  after_results_simp
  simp only [st16_main_v66, st16_main_v125, st16_main_v122, st16_main_v119] <;> rfl
theorem st17_main_v134 (V0 : Valuation τ sig (Elt F)) : st17 V0 (no_index (Proc.devRef .tc main_v134)) = val_main_v134 (F := F) (V0 (Proc.devRef .tc main_arg0)) (V0 (Proc.devRef .tc main_arg1)) := by
  unfold st17
  simp only [w17]
  after_results_simp
  simp only [st16_main_v3, st16_main_v2, st16_main_v125, st16_main_v122, st16_main_v119, st16_main_v66] <;> rfl

/-- Operations 163 … 172 of @main. -/
abbrev w18 : List (HloOp τ sig (Elt F)) :=
  [ reshape main_v134 main_v135 rfl shapeCasts_S16384x7x7x1_S16384x7x7,
    unary main_v4 main_v136 ((extractStridedSlice S16384x7x7x1 ![0, 0, 0, 1] · slices_S16384x7x7x5_S16384x7x7x1_0_0_0_1) : (⟨S16384x7x7x5, .f32⟩ : BufTy).Contents (Elt F) → (⟨S16384x7x7x1, .f32⟩ : BufTy).Contents (Elt F)),
    reshape main_v136 main_v137 rfl shapeCasts_S16384x7x7x1_S16384x7x7,
    binary main_v135 main_v137 main_v138 (subf : (⟨S16384x7x7, .f32⟩ : BufTy).Contents (Elt F) → (⟨S16384x7x7, .f32⟩ : BufTy).Contents (Elt F) → (⟨S16384x7x7, .f32⟩ : BufTy).Contents (Elt F)),
    binary main_v138 main_v138 main_v139 (mulf : (⟨S16384x7x7, .f32⟩ : BufTy).Contents (Elt F) → (⟨S16384x7x7, .f32⟩ : BufTy).Contents (Elt F) → (⟨S16384x7x7, .f32⟩ : BufTy).Contents (Elt F)),
    unary main_v131 main_v140 ((extractStridedSlice S16384x7x7x1 ![0, 0, 0, 2] · slices_S16384x7x7x5_S16384x7x7x1_0_0_0_2) : (⟨S16384x7x7x5, .f32⟩ : BufTy).Contents (Elt F) → (⟨S16384x7x7x1, .f32⟩ : BufTy).Contents (Elt F)),
    reshape main_v140 main_v141 rfl shapeCasts_S16384x7x7x1_S16384x7x7,
    unary main_v4 main_v142 ((extractStridedSlice S16384x7x7x1 ![0, 0, 0, 2] · slices_S16384x7x7x5_S16384x7x7x1_0_0_0_2) : (⟨S16384x7x7x5, .f32⟩ : BufTy).Contents (Elt F) → (⟨S16384x7x7x1, .f32⟩ : BufTy).Contents (Elt F)),
    reshape main_v142 main_v143 rfl shapeCasts_S16384x7x7x1_S16384x7x7,
    binary main_v141 main_v143 main_v144 (subf : (⟨S16384x7x7, .f32⟩ : BufTy).Contents (Elt F) → (⟨S16384x7x7, .f32⟩ : BufTy).Contents (Elt F) → (⟨S16384x7x7, .f32⟩ : BufTy).Contents (Elt F)) ]
theorem w18_sub : (w18 : List (HloOp τ sig (Elt F))).Forall fun op => op.bufs ⊆ tcRefs τ sig :=
  ⟨reshape_bufs_sub .., unary_bufs_sub .., reshape_bufs_sub .., binary_bufs_sub .., binary_bufs_sub .., unary_bufs_sub .., reshape_bufs_sub .., unary_bufs_sub .., reshape_bufs_sub .., binary_bufs_sub ..⟩
theorem w18_fresh : ∀ op ∈ (w18 : List (HloOp τ sig (Elt F))), op.fresh = ∅ := by
  intro _ h; (repeat (cases h with | head => rfl | tail _ h => ?_)); exact nomatch h
/-- The buffers the window writes. -/
abbrev w18_W : List (Ref sig .tc) := [main_v135, main_v136, main_v137, main_v138, main_v139, main_v140, main_v141, main_v142, main_v143, main_v144]
theorem w18_writes : (w18 : List (HloOp τ sig (Elt F))).Forall fun op => op.writes ⊆ (w18_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after the first 18 windows. -/
def st18 (V0 : Valuation τ sig (Elt F)) : Valuation τ sig (Elt F) := after w18 (st17 V0)
/-- A buffer the window does not write keeps its contents through it. -/
theorem st18_keep (V0 : Valuation τ sig (Elt F)) (r : Ref sig .tc) (h : r ∉ w18_W) :
    st18 V0 (Proc.devRef .tc r) = st17 V0 (Proc.devRef .tc r) :=
  after_of_writes_sub w18 _ w18_writes h
theorem st18_main_arg0 (V0 : Valuation τ sig (Elt F)) : st18 V0 (no_index (Proc.devRef .tc main_arg0)) = V0 (Proc.devRef .tc main_arg0) :=
  (st18_keep V0 main_arg0 (by decide)).trans (st17_main_arg0 V0)
theorem st18_main_arg1 (V0 : Valuation τ sig (Elt F)) : st18 V0 (no_index (Proc.devRef .tc main_arg1)) = V0 (Proc.devRef .tc main_arg1) :=
  (st18_keep V0 main_arg1 (by decide)).trans (st17_main_arg1 V0)
theorem st18_main_v1 (V0 : Valuation τ sig (Elt F)) : st18 V0 (no_index (Proc.devRef .tc main_v1)) = val_main_v1 (F := F) (V0 (Proc.devRef .tc main_arg1)) :=
  (st18_keep V0 main_v1 (by decide)).trans (st17_main_v1 V0)
theorem st18_main_v4 (V0 : Valuation τ sig (Elt F)) : st18 V0 (no_index (Proc.devRef .tc main_v4)) = val_main_v4 (F := F) (V0 (Proc.devRef .tc main_arg1)) :=
  (st18_keep V0 main_v4 (by decide)).trans (st17_main_v4 V0)
theorem st18_main_v131 (V0 : Valuation τ sig (Elt F)) : st18 V0 (no_index (Proc.devRef .tc main_v131)) = val_main_v131 (F := F) (V0 (Proc.devRef .tc main_arg0)) (V0 (Proc.devRef .tc main_arg1)) :=
  (st18_keep V0 main_v131 (by decide)).trans (st17_main_v131 V0)
theorem st18_main_v132 (V0 : Valuation τ sig (Elt F)) : st18 V0 (no_index (Proc.devRef .tc main_v132)) = val_main_v132 (F := F) (V0 (Proc.devRef .tc main_arg0)) (V0 (Proc.devRef .tc main_arg1)) :=
  (st18_keep V0 main_v132 (by decide)).trans (st17_main_v132 V0)
theorem st18_main_v133 (V0 : Valuation τ sig (Elt F)) : st18 V0 (no_index (Proc.devRef .tc main_v133)) = val_main_v133 (F := F) (V0 (Proc.devRef .tc main_arg0)) (V0 (Proc.devRef .tc main_arg1)) :=
  (st18_keep V0 main_v133 (by decide)).trans (st17_main_v133 V0)
theorem st18_main_v139 (V0 : Valuation τ sig (Elt F)) : st18 V0 (no_index (Proc.devRef .tc main_v139)) = val_main_v139 (F := F) (V0 (Proc.devRef .tc main_arg0)) (V0 (Proc.devRef .tc main_arg1)) := by
  unfold st18
  simp only [w18]
  after_results_simp
  simp only [st17_main_v4, st17_main_v134] <;> rfl
theorem st18_main_v144 (V0 : Valuation τ sig (Elt F)) : st18 V0 (no_index (Proc.devRef .tc main_v144)) = val_main_v144 (F := F) (V0 (Proc.devRef .tc main_arg0)) (V0 (Proc.devRef .tc main_arg1)) := by
  unfold st18
  simp only [w18]
  after_results_simp
  simp only [st17_main_v4, st17_main_v131] <;> rfl

/-- Operations 173 … 182 of @main. -/
abbrev w19 : List (HloOp τ sig (Elt F)) :=
  [ binary main_v144 main_v144 main_v145 (mulf : (⟨S16384x7x7, .f32⟩ : BufTy).Contents (Elt F) → (⟨S16384x7x7, .f32⟩ : BufTy).Contents (Elt F) → (⟨S16384x7x7, .f32⟩ : BufTy).Contents (Elt F)),
    binary main_v139 main_v145 main_v146 (addf : (⟨S16384x7x7, .f32⟩ : BufTy).Contents (Elt F) → (⟨S16384x7x7, .f32⟩ : BufTy).Contents (Elt F) → (⟨S16384x7x7, .f32⟩ : BufTy).Contents (Elt F)),
    nullary main_cst_21 (constant S_ .f32 0x40A00000#32),
    unary main_cst_21 main_v147 (broadcastInDim S16384x7x7 ![] bcast_S_S16384x7x7 : (⟨S_, .f32⟩ : BufTy).Contents (Elt F) → (⟨S16384x7x7, .f32⟩ : BufTy).Contents (Elt F)),
    binary main_v147 main_v146 main_v148 (mulf : (⟨S16384x7x7, .f32⟩ : BufTy).Contents (Elt F) → (⟨S16384x7x7, .f32⟩ : BufTy).Contents (Elt F) → (⟨S16384x7x7, .f32⟩ : BufTy).Contents (Elt F)),
    unary main_v131 main_v149 ((extractStridedSlice S16384x7x7x1 ![0, 0, 0, 3] · slices_S16384x7x7x5_S16384x7x7x1_0_0_0_3) : (⟨S16384x7x7x5, .f32⟩ : BufTy).Contents (Elt F) → (⟨S16384x7x7x1, .f32⟩ : BufTy).Contents (Elt F)),
    reshape main_v149 main_v150 rfl shapeCasts_S16384x7x7x1_S16384x7x7,
    unary main_v150 main_v151 (Host.sqrt : (⟨S16384x7x7, .f32⟩ : BufTy).Contents (Elt F) → (⟨S16384x7x7, .f32⟩ : BufTy).Contents (Elt F)),
    unary main_v4 main_v152 ((extractStridedSlice S16384x7x7x1 ![0, 0, 0, 3] · slices_S16384x7x7x5_S16384x7x7x1_0_0_0_3) : (⟨S16384x7x7x5, .f32⟩ : BufTy).Contents (Elt F) → (⟨S16384x7x7x1, .f32⟩ : BufTy).Contents (Elt F)),
    reshape main_v152 main_v153 rfl shapeCasts_S16384x7x7x1_S16384x7x7 ]
theorem w19_sub : (w19 : List (HloOp τ sig (Elt F))).Forall fun op => op.bufs ⊆ tcRefs τ sig :=
  ⟨binary_bufs_sub .., binary_bufs_sub .., nullary_bufs_sub .., unary_bufs_sub .., binary_bufs_sub .., unary_bufs_sub .., reshape_bufs_sub .., unary_bufs_sub .., unary_bufs_sub .., reshape_bufs_sub ..⟩
theorem w19_fresh : ∀ op ∈ (w19 : List (HloOp τ sig (Elt F))), op.fresh = ∅ := by
  intro _ h; (repeat (cases h with | head => rfl | tail _ h => ?_)); exact nomatch h
/-- The buffers the window writes. -/
abbrev w19_W : List (Ref sig .tc) := [main_v145, main_v146, main_cst_21, main_v147, main_v148, main_v149, main_v150, main_v151, main_v152, main_v153]
theorem w19_writes : (w19 : List (HloOp τ sig (Elt F))).Forall fun op => op.writes ⊆ (w19_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after the first 19 windows. -/
def st19 (V0 : Valuation τ sig (Elt F)) : Valuation τ sig (Elt F) := after w19 (st18 V0)
/-- A buffer the window does not write keeps its contents through it. -/
theorem st19_keep (V0 : Valuation τ sig (Elt F)) (r : Ref sig .tc) (h : r ∉ w19_W) :
    st19 V0 (Proc.devRef .tc r) = st18 V0 (Proc.devRef .tc r) :=
  after_of_writes_sub w19 _ w19_writes h
theorem st19_main_arg0 (V0 : Valuation τ sig (Elt F)) : st19 V0 (no_index (Proc.devRef .tc main_arg0)) = V0 (Proc.devRef .tc main_arg0) :=
  (st19_keep V0 main_arg0 (by decide)).trans (st18_main_arg0 V0)
theorem st19_main_arg1 (V0 : Valuation τ sig (Elt F)) : st19 V0 (no_index (Proc.devRef .tc main_arg1)) = V0 (Proc.devRef .tc main_arg1) :=
  (st19_keep V0 main_arg1 (by decide)).trans (st18_main_arg1 V0)
theorem st19_main_v1 (V0 : Valuation τ sig (Elt F)) : st19 V0 (no_index (Proc.devRef .tc main_v1)) = val_main_v1 (F := F) (V0 (Proc.devRef .tc main_arg1)) :=
  (st19_keep V0 main_v1 (by decide)).trans (st18_main_v1 V0)
theorem st19_main_v4 (V0 : Valuation τ sig (Elt F)) : st19 V0 (no_index (Proc.devRef .tc main_v4)) = val_main_v4 (F := F) (V0 (Proc.devRef .tc main_arg1)) :=
  (st19_keep V0 main_v4 (by decide)).trans (st18_main_v4 V0)
theorem st19_main_v131 (V0 : Valuation τ sig (Elt F)) : st19 V0 (no_index (Proc.devRef .tc main_v131)) = val_main_v131 (F := F) (V0 (Proc.devRef .tc main_arg0)) (V0 (Proc.devRef .tc main_arg1)) :=
  (st19_keep V0 main_v131 (by decide)).trans (st18_main_v131 V0)
theorem st19_main_v132 (V0 : Valuation τ sig (Elt F)) : st19 V0 (no_index (Proc.devRef .tc main_v132)) = val_main_v132 (F := F) (V0 (Proc.devRef .tc main_arg0)) (V0 (Proc.devRef .tc main_arg1)) :=
  (st19_keep V0 main_v132 (by decide)).trans (st18_main_v132 V0)
theorem st19_main_v133 (V0 : Valuation τ sig (Elt F)) : st19 V0 (no_index (Proc.devRef .tc main_v133)) = val_main_v133 (F := F) (V0 (Proc.devRef .tc main_arg0)) (V0 (Proc.devRef .tc main_arg1)) :=
  (st19_keep V0 main_v133 (by decide)).trans (st18_main_v133 V0)
theorem st19_main_v148 (V0 : Valuation τ sig (Elt F)) : st19 V0 (no_index (Proc.devRef .tc main_v148)) = val_main_v148 (F := F) (V0 (Proc.devRef .tc main_arg0)) (V0 (Proc.devRef .tc main_arg1)) := by
  unfold st19
  simp only [w19]
  after_results_simp
  simp only [st18_main_v144, st18_main_v139] <;> rfl
theorem st19_main_v151 (V0 : Valuation τ sig (Elt F)) : st19 V0 (no_index (Proc.devRef .tc main_v151)) = val_main_v151 (F := F) (V0 (Proc.devRef .tc main_arg0)) (V0 (Proc.devRef .tc main_arg1)) := by
  unfold st19
  simp only [w19]
  after_results_simp
  simp only [st18_main_v131] <;> rfl
theorem st19_main_v153 (V0 : Valuation τ sig (Elt F)) : st19 V0 (no_index (Proc.devRef .tc main_v153)) = val_main_v153 (F := F) (V0 (Proc.devRef .tc main_arg1)) := by
  unfold st19
  simp only [w19]
  after_results_simp
  simp only [st18_main_v4] <;> rfl

/-- Operations 183 … 185 of @main. -/
abbrev w20 : List (HloOp τ sig (Elt F)) :=
  [ unary main_v153 main_v154 (Host.sqrt : (⟨S16384x7x7, .f32⟩ : BufTy).Contents (Elt F) → (⟨S16384x7x7, .f32⟩ : BufTy).Contents (Elt F)),
    binary main_v151 main_v154 main_v155 (subf : (⟨S16384x7x7, .f32⟩ : BufTy).Contents (Elt F) → (⟨S16384x7x7, .f32⟩ : BufTy).Contents (Elt F) → (⟨S16384x7x7, .f32⟩ : BufTy).Contents (Elt F)),
    binary main_v155 main_v155 main_v156 (mulf : (⟨S16384x7x7, .f32⟩ : BufTy).Contents (Elt F) → (⟨S16384x7x7, .f32⟩ : BufTy).Contents (Elt F) → (⟨S16384x7x7, .f32⟩ : BufTy).Contents (Elt F)) ]
theorem w20_sub : (w20 : List (HloOp τ sig (Elt F))).Forall fun op => op.bufs ⊆ tcRefs τ sig :=
  ⟨unary_bufs_sub .., binary_bufs_sub .., binary_bufs_sub ..⟩
theorem w20_fresh : ∀ op ∈ (w20 : List (HloOp τ sig (Elt F))), op.fresh = ∅ := by
  intro _ h; (repeat (cases h with | head => rfl | tail _ h => ?_)); exact nomatch h
/-- The buffers the window writes. -/
abbrev w20_W : List (Ref sig .tc) := [main_v154, main_v155, main_v156]
theorem w20_writes : (w20 : List (HloOp τ sig (Elt F))).Forall fun op => op.writes ⊆ (w20_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after the first 20 windows. -/
def st20 (V0 : Valuation τ sig (Elt F)) : Valuation τ sig (Elt F) := after w20 (st19 V0)
/-- A buffer the window does not write keeps its contents through it. -/
theorem st20_keep (V0 : Valuation τ sig (Elt F)) (r : Ref sig .tc) (h : r ∉ w20_W) :
    st20 V0 (Proc.devRef .tc r) = st19 V0 (Proc.devRef .tc r) :=
  after_of_writes_sub w20 _ w20_writes h
theorem st20_main_arg0 (V0 : Valuation τ sig (Elt F)) : st20 V0 (no_index (Proc.devRef .tc main_arg0)) = V0 (Proc.devRef .tc main_arg0) :=
  (st20_keep V0 main_arg0 (by decide)).trans (st19_main_arg0 V0)
theorem st20_main_arg1 (V0 : Valuation τ sig (Elt F)) : st20 V0 (no_index (Proc.devRef .tc main_arg1)) = V0 (Proc.devRef .tc main_arg1) :=
  (st20_keep V0 main_arg1 (by decide)).trans (st19_main_arg1 V0)
theorem st20_main_v1 (V0 : Valuation τ sig (Elt F)) : st20 V0 (no_index (Proc.devRef .tc main_v1)) = val_main_v1 (F := F) (V0 (Proc.devRef .tc main_arg1)) :=
  (st20_keep V0 main_v1 (by decide)).trans (st19_main_v1 V0)
theorem st20_main_v4 (V0 : Valuation τ sig (Elt F)) : st20 V0 (no_index (Proc.devRef .tc main_v4)) = val_main_v4 (F := F) (V0 (Proc.devRef .tc main_arg1)) :=
  (st20_keep V0 main_v4 (by decide)).trans (st19_main_v4 V0)
theorem st20_main_v131 (V0 : Valuation τ sig (Elt F)) : st20 V0 (no_index (Proc.devRef .tc main_v131)) = val_main_v131 (F := F) (V0 (Proc.devRef .tc main_arg0)) (V0 (Proc.devRef .tc main_arg1)) :=
  (st20_keep V0 main_v131 (by decide)).trans (st19_main_v131 V0)
theorem st20_main_v132 (V0 : Valuation τ sig (Elt F)) : st20 V0 (no_index (Proc.devRef .tc main_v132)) = val_main_v132 (F := F) (V0 (Proc.devRef .tc main_arg0)) (V0 (Proc.devRef .tc main_arg1)) :=
  (st20_keep V0 main_v132 (by decide)).trans (st19_main_v132 V0)
theorem st20_main_v133 (V0 : Valuation τ sig (Elt F)) : st20 V0 (no_index (Proc.devRef .tc main_v133)) = val_main_v133 (F := F) (V0 (Proc.devRef .tc main_arg0)) (V0 (Proc.devRef .tc main_arg1)) :=
  (st20_keep V0 main_v133 (by decide)).trans (st19_main_v133 V0)
theorem st20_main_v148 (V0 : Valuation τ sig (Elt F)) : st20 V0 (no_index (Proc.devRef .tc main_v148)) = val_main_v148 (F := F) (V0 (Proc.devRef .tc main_arg0)) (V0 (Proc.devRef .tc main_arg1)) :=
  (st20_keep V0 main_v148 (by decide)).trans (st19_main_v148 V0)
theorem st20_main_v156 (V0 : Valuation τ sig (Elt F)) : st20 V0 (no_index (Proc.devRef .tc main_v156)) = val_main_v156 (F := F) (V0 (Proc.devRef .tc main_arg0)) (V0 (Proc.devRef .tc main_arg1)) := by
  unfold st20
  simp only [w20]
  after_results_simp
  simp only [st19_main_v153, st19_main_v151] <;> rfl

/-- Operations 186 … 195 of @main. -/
abbrev w21 : List (HloOp τ sig (Elt F)) :=
  [ unary main_v131 main_v157 ((extractStridedSlice S16384x7x7x1 ![0, 0, 0, 4] · slices_S16384x7x7x5_S16384x7x7x1_0_0_0_4) : (⟨S16384x7x7x5, .f32⟩ : BufTy).Contents (Elt F) → (⟨S16384x7x7x1, .f32⟩ : BufTy).Contents (Elt F)),
    reshape main_v157 main_v158 rfl shapeCasts_S16384x7x7x1_S16384x7x7,
    unary main_v158 main_v159 (Host.sqrt : (⟨S16384x7x7, .f32⟩ : BufTy).Contents (Elt F) → (⟨S16384x7x7, .f32⟩ : BufTy).Contents (Elt F)),
    unary main_v4 main_v160 ((extractStridedSlice S16384x7x7x1 ![0, 0, 0, 4] · slices_S16384x7x7x5_S16384x7x7x1_0_0_0_4) : (⟨S16384x7x7x5, .f32⟩ : BufTy).Contents (Elt F) → (⟨S16384x7x7x1, .f32⟩ : BufTy).Contents (Elt F)),
    reshape main_v160 main_v161 rfl shapeCasts_S16384x7x7x1_S16384x7x7,
    unary main_v161 main_v162 (Host.sqrt : (⟨S16384x7x7, .f32⟩ : BufTy).Contents (Elt F) → (⟨S16384x7x7, .f32⟩ : BufTy).Contents (Elt F)),
    binary main_v159 main_v162 main_v163 (subf : (⟨S16384x7x7, .f32⟩ : BufTy).Contents (Elt F) → (⟨S16384x7x7, .f32⟩ : BufTy).Contents (Elt F) → (⟨S16384x7x7, .f32⟩ : BufTy).Contents (Elt F)),
    binary main_v163 main_v163 main_v164 (mulf : (⟨S16384x7x7, .f32⟩ : BufTy).Contents (Elt F) → (⟨S16384x7x7, .f32⟩ : BufTy).Contents (Elt F) → (⟨S16384x7x7, .f32⟩ : BufTy).Contents (Elt F)),
    binary main_v156 main_v164 main_v165 (addf : (⟨S16384x7x7, .f32⟩ : BufTy).Contents (Elt F) → (⟨S16384x7x7, .f32⟩ : BufTy).Contents (Elt F) → (⟨S16384x7x7, .f32⟩ : BufTy).Contents (Elt F)),
    nullary main_cst_22 (constant S_ .f32 0x40A00000#32) ]
theorem w21_sub : (w21 : List (HloOp τ sig (Elt F))).Forall fun op => op.bufs ⊆ tcRefs τ sig :=
  ⟨unary_bufs_sub .., reshape_bufs_sub .., unary_bufs_sub .., unary_bufs_sub .., reshape_bufs_sub .., unary_bufs_sub .., binary_bufs_sub .., binary_bufs_sub .., binary_bufs_sub .., nullary_bufs_sub ..⟩
theorem w21_fresh : ∀ op ∈ (w21 : List (HloOp τ sig (Elt F))), op.fresh = ∅ := by
  intro _ h; (repeat (cases h with | head => rfl | tail _ h => ?_)); exact nomatch h
/-- The buffers the window writes. -/
abbrev w21_W : List (Ref sig .tc) := [main_v157, main_v158, main_v159, main_v160, main_v161, main_v162, main_v163, main_v164, main_v165, main_cst_22]
theorem w21_writes : (w21 : List (HloOp τ sig (Elt F))).Forall fun op => op.writes ⊆ (w21_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after the first 21 windows. -/
def st21 (V0 : Valuation τ sig (Elt F)) : Valuation τ sig (Elt F) := after w21 (st20 V0)
/-- A buffer the window does not write keeps its contents through it. -/
theorem st21_keep (V0 : Valuation τ sig (Elt F)) (r : Ref sig .tc) (h : r ∉ w21_W) :
    st21 V0 (Proc.devRef .tc r) = st20 V0 (Proc.devRef .tc r) :=
  after_of_writes_sub w21 _ w21_writes h
theorem st21_main_arg0 (V0 : Valuation τ sig (Elt F)) : st21 V0 (no_index (Proc.devRef .tc main_arg0)) = V0 (Proc.devRef .tc main_arg0) :=
  (st21_keep V0 main_arg0 (by decide)).trans (st20_main_arg0 V0)
theorem st21_main_arg1 (V0 : Valuation τ sig (Elt F)) : st21 V0 (no_index (Proc.devRef .tc main_arg1)) = V0 (Proc.devRef .tc main_arg1) :=
  (st21_keep V0 main_arg1 (by decide)).trans (st20_main_arg1 V0)
theorem st21_main_v1 (V0 : Valuation τ sig (Elt F)) : st21 V0 (no_index (Proc.devRef .tc main_v1)) = val_main_v1 (F := F) (V0 (Proc.devRef .tc main_arg1)) :=
  (st21_keep V0 main_v1 (by decide)).trans (st20_main_v1 V0)
theorem st21_main_v132 (V0 : Valuation τ sig (Elt F)) : st21 V0 (no_index (Proc.devRef .tc main_v132)) = val_main_v132 (F := F) (V0 (Proc.devRef .tc main_arg0)) (V0 (Proc.devRef .tc main_arg1)) :=
  (st21_keep V0 main_v132 (by decide)).trans (st20_main_v132 V0)
theorem st21_main_v133 (V0 : Valuation τ sig (Elt F)) : st21 V0 (no_index (Proc.devRef .tc main_v133)) = val_main_v133 (F := F) (V0 (Proc.devRef .tc main_arg0)) (V0 (Proc.devRef .tc main_arg1)) :=
  (st21_keep V0 main_v133 (by decide)).trans (st20_main_v133 V0)
theorem st21_main_v148 (V0 : Valuation τ sig (Elt F)) : st21 V0 (no_index (Proc.devRef .tc main_v148)) = val_main_v148 (F := F) (V0 (Proc.devRef .tc main_arg0)) (V0 (Proc.devRef .tc main_arg1)) :=
  (st21_keep V0 main_v148 (by decide)).trans (st20_main_v148 V0)
theorem st21_main_v165 (V0 : Valuation τ sig (Elt F)) : st21 V0 (no_index (Proc.devRef .tc main_v165)) = val_main_v165 (F := F) (V0 (Proc.devRef .tc main_arg0)) (V0 (Proc.devRef .tc main_arg1)) := by
  unfold st21
  simp only [w21]
  after_results_simp
  simp only [st20_main_v4, st20_main_v131, st20_main_v156] <;> rfl
theorem st21_main_cst_22 (V0 : Valuation τ sig (Elt F)) : st21 V0 (no_index (Proc.devRef .tc main_cst_22)) = val_main_cst_22 (F := F) := by
  unfold st21
  simp only [w21]
  after_results_simp
  all_goals rfl

/-- Operations 196 … 205 of @main. -/
abbrev w22 : List (HloOp τ sig (Elt F)) :=
  [ unary main_cst_22 main_v166 (broadcastInDim S16384x7x7 ![] bcast_S_S16384x7x7 : (⟨S_, .f32⟩ : BufTy).Contents (Elt F) → (⟨S16384x7x7, .f32⟩ : BufTy).Contents (Elt F)),
    binary main_v166 main_v165 main_v167 (mulf : (⟨S16384x7x7, .f32⟩ : BufTy).Contents (Elt F) → (⟨S16384x7x7, .f32⟩ : BufTy).Contents (Elt F) → (⟨S16384x7x7, .f32⟩ : BufTy).Contents (Elt F)),
    unary main_arg0 main_v168 ((extractStridedSlice S16384x7x7x20 ![0, 0, 0, 10] · slices_S16384x7x7x30_S16384x7x7x20_0_0_0_10) : (⟨S16384x7x7x30, .f32⟩ : BufTy).Contents (Elt F) → (⟨S16384x7x7x20, .f32⟩ : BufTy).Contents (Elt F)),
    unary main_arg1 main_v169 ((extractStridedSlice S16384x7x7x20 ![0, 0, 0, 10] · slices_S16384x7x7x30_S16384x7x7x20_0_0_0_10) : (⟨S16384x7x7x30, .f32⟩ : BufTy).Contents (Elt F) → (⟨S16384x7x7x20, .f32⟩ : BufTy).Contents (Elt F)),
    binary main_v168 main_v169 main_v170 (subf : (⟨S16384x7x7x20, .f32⟩ : BufTy).Contents (Elt F) → (⟨S16384x7x7x20, .f32⟩ : BufTy).Contents (Elt F) → (⟨S16384x7x7x20, .f32⟩ : BufTy).Contents (Elt F)),
    binary main_v170 main_v170 main_v171 (mulf : (⟨S16384x7x7x20, .f32⟩ : BufTy).Contents (Elt F) → (⟨S16384x7x7x20, .f32⟩ : BufTy).Contents (Elt F) → (⟨S16384x7x7x20, .f32⟩ : BufTy).Contents (Elt F)),
    nullary main_cst_23 (constant S_ .f32 0x00000000#32),
    binary main_v171 main_cst_23 main_v172 ((fun x v => Host.reduceAdd x v reducesTo_S16384x7x7x20_S16384x7x7_d3 h_S_) : (⟨S16384x7x7x20, .f32⟩ : BufTy).Contents (Elt F) → (⟨S_, .f32⟩ : BufTy).Contents (Elt F) → (⟨S16384x7x7, .f32⟩ : BufTy).Contents (Elt F)),
    binary main_v148 main_v1 main_v173 (mulf : (⟨S16384x7x7, .f32⟩ : BufTy).Contents (Elt F) → (⟨S16384x7x7, .f32⟩ : BufTy).Contents (Elt F) → (⟨S16384x7x7, .f32⟩ : BufTy).Contents (Elt F)),
    nullary main_cst_24 (constant S_ .f32 0x00000000#32) ]
theorem w22_sub : (w22 : List (HloOp τ sig (Elt F))).Forall fun op => op.bufs ⊆ tcRefs τ sig :=
  ⟨unary_bufs_sub .., binary_bufs_sub .., unary_bufs_sub .., unary_bufs_sub .., binary_bufs_sub .., binary_bufs_sub .., nullary_bufs_sub .., binary_bufs_sub .., binary_bufs_sub .., nullary_bufs_sub ..⟩
theorem w22_fresh : ∀ op ∈ (w22 : List (HloOp τ sig (Elt F))), op.fresh = ∅ := by
  intro _ h; (repeat (cases h with | head => rfl | tail _ h => ?_)); exact nomatch h
/-- The buffers the window writes. -/
abbrev w22_W : List (Ref sig .tc) := [main_v166, main_v167, main_v168, main_v169, main_v170, main_v171, main_cst_23, main_v172, main_v173, main_cst_24]
theorem w22_writes : (w22 : List (HloOp τ sig (Elt F))).Forall fun op => op.writes ⊆ (w22_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after the first 22 windows. -/
def st22 (V0 : Valuation τ sig (Elt F)) : Valuation τ sig (Elt F) := after w22 (st21 V0)
/-- A buffer the window does not write keeps its contents through it. -/
theorem st22_keep (V0 : Valuation τ sig (Elt F)) (r : Ref sig .tc) (h : r ∉ w22_W) :
    st22 V0 (Proc.devRef .tc r) = st21 V0 (Proc.devRef .tc r) :=
  after_of_writes_sub w22 _ w22_writes h
theorem st22_main_arg0 (V0 : Valuation τ sig (Elt F)) : st22 V0 (no_index (Proc.devRef .tc main_arg0)) = V0 (Proc.devRef .tc main_arg0) :=
  (st22_keep V0 main_arg0 (by decide)).trans (st21_main_arg0 V0)
theorem st22_main_arg1 (V0 : Valuation τ sig (Elt F)) : st22 V0 (no_index (Proc.devRef .tc main_arg1)) = V0 (Proc.devRef .tc main_arg1) :=
  (st22_keep V0 main_arg1 (by decide)).trans (st21_main_arg1 V0)
theorem st22_main_v1 (V0 : Valuation τ sig (Elt F)) : st22 V0 (no_index (Proc.devRef .tc main_v1)) = val_main_v1 (F := F) (V0 (Proc.devRef .tc main_arg1)) :=
  (st22_keep V0 main_v1 (by decide)).trans (st21_main_v1 V0)
theorem st22_main_v132 (V0 : Valuation τ sig (Elt F)) : st22 V0 (no_index (Proc.devRef .tc main_v132)) = val_main_v132 (F := F) (V0 (Proc.devRef .tc main_arg0)) (V0 (Proc.devRef .tc main_arg1)) :=
  (st22_keep V0 main_v132 (by decide)).trans (st21_main_v132 V0)
theorem st22_main_v133 (V0 : Valuation τ sig (Elt F)) : st22 V0 (no_index (Proc.devRef .tc main_v133)) = val_main_v133 (F := F) (V0 (Proc.devRef .tc main_arg0)) (V0 (Proc.devRef .tc main_arg1)) :=
  (st22_keep V0 main_v133 (by decide)).trans (st21_main_v133 V0)
theorem st22_main_v167 (V0 : Valuation τ sig (Elt F)) : st22 V0 (no_index (Proc.devRef .tc main_v167)) = val_main_v167 (F := F) (V0 (Proc.devRef .tc main_arg0)) (V0 (Proc.devRef .tc main_arg1)) := by
  unfold st22
  simp only [w22]
  after_results_simp
  simp only [st21_main_v165, st21_main_cst_22] <;> rfl
theorem st22_main_v172 (V0 : Valuation τ sig (Elt F)) : st22 V0 (no_index (Proc.devRef .tc main_v172)) = val_main_v172 (F := F) (V0 (Proc.devRef .tc main_arg0)) (V0 (Proc.devRef .tc main_arg1)) := by
  unfold st22
  simp only [w22]
  after_results_simp
  simp only [st21_main_arg1, st21_main_arg0] <;> rfl
theorem st22_main_v173 (V0 : Valuation τ sig (Elt F)) : st22 V0 (no_index (Proc.devRef .tc main_v173)) = val_main_v173 (F := F) (V0 (Proc.devRef .tc main_arg0)) (V0 (Proc.devRef .tc main_arg1)) := by
  unfold st22
  simp only [w22]
  after_results_simp
  simp only [st21_main_v1, st21_main_v148] <;> rfl
theorem st22_main_cst_24 (V0 : Valuation τ sig (Elt F)) : st22 V0 (no_index (Proc.devRef .tc main_cst_24)) = val_main_cst_24 (F := F) := by
  unfold st22
  simp only [w22]
  after_results_simp
  all_goals rfl

/-- Operations 206 … 215 of @main. -/
abbrev w23 : List (HloOp τ sig (Elt F)) :=
  [ binary main_v173 main_cst_24 main_v174 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    binary main_v167 main_v1 main_v175 (mulf : (⟨S16384x7x7, .f32⟩ : BufTy).Contents (Elt F) → (⟨S16384x7x7, .f32⟩ : BufTy).Contents (Elt F) → (⟨S16384x7x7, .f32⟩ : BufTy).Contents (Elt F)),
    nullary main_cst_25 (constant S_ .f32 0x00000000#32),
    binary main_v175 main_cst_25 main_v176 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    binary main_v132 main_v1 main_v177 (mulf : (⟨S16384x7x7, .f32⟩ : BufTy).Contents (Elt F) → (⟨S16384x7x7, .f32⟩ : BufTy).Contents (Elt F) → (⟨S16384x7x7, .f32⟩ : BufTy).Contents (Elt F)),
    nullary main_cst_26 (constant S_ .f32 0x00000000#32),
    binary main_v177 main_cst_26 main_v178 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    binary main_v133 main_v1 main_v179 (mulf : (⟨S16384x7x7, .f32⟩ : BufTy).Contents (Elt F) → (⟨S16384x7x7, .f32⟩ : BufTy).Contents (Elt F) → (⟨S16384x7x7, .f32⟩ : BufTy).Contents (Elt F)),
    nullary main_cst_27 (constant S_ .f32 0x00000000#32),
    binary main_v179 main_cst_27 main_v180 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)) ]
theorem w23_sub : (w23 : List (HloOp τ sig (Elt F))).Forall fun op => op.bufs ⊆ tcRefs τ sig :=
  ⟨binary_bufs_sub .., binary_bufs_sub .., nullary_bufs_sub .., binary_bufs_sub .., binary_bufs_sub .., nullary_bufs_sub .., binary_bufs_sub .., binary_bufs_sub .., nullary_bufs_sub .., binary_bufs_sub ..⟩
theorem w23_fresh : ∀ op ∈ (w23 : List (HloOp τ sig (Elt F))), op.fresh = ∅ := by
  intro _ h; (repeat (cases h with | head => rfl | tail _ h => ?_)); exact nomatch h
/-- The buffers the window writes. -/
abbrev w23_W : List (Ref sig .tc) := [main_v174, main_v175, main_cst_25, main_v176, main_v177, main_cst_26, main_v178, main_v179, main_cst_27, main_v180]
theorem w23_writes : (w23 : List (HloOp τ sig (Elt F))).Forall fun op => op.writes ⊆ (w23_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after the first 23 windows. -/
def st23 (V0 : Valuation τ sig (Elt F)) : Valuation τ sig (Elt F) := after w23 (st22 V0)
/-- A buffer the window does not write keeps its contents through it. -/
theorem st23_keep (V0 : Valuation τ sig (Elt F)) (r : Ref sig .tc) (h : r ∉ w23_W) :
    st23 V0 (Proc.devRef .tc r) = st22 V0 (Proc.devRef .tc r) :=
  after_of_writes_sub w23 _ w23_writes h
theorem st23_main_arg0 (V0 : Valuation τ sig (Elt F)) : st23 V0 (no_index (Proc.devRef .tc main_arg0)) = V0 (Proc.devRef .tc main_arg0) :=
  (st23_keep V0 main_arg0 (by decide)).trans (st22_main_arg0 V0)
theorem st23_main_arg1 (V0 : Valuation τ sig (Elt F)) : st23 V0 (no_index (Proc.devRef .tc main_arg1)) = V0 (Proc.devRef .tc main_arg1) :=
  (st23_keep V0 main_arg1 (by decide)).trans (st22_main_arg1 V0)
theorem st23_main_v1 (V0 : Valuation τ sig (Elt F)) : st23 V0 (no_index (Proc.devRef .tc main_v1)) = val_main_v1 (F := F) (V0 (Proc.devRef .tc main_arg1)) :=
  (st23_keep V0 main_v1 (by decide)).trans (st22_main_v1 V0)
theorem st23_main_v172 (V0 : Valuation τ sig (Elt F)) : st23 V0 (no_index (Proc.devRef .tc main_v172)) = val_main_v172 (F := F) (V0 (Proc.devRef .tc main_arg0)) (V0 (Proc.devRef .tc main_arg1)) :=
  (st23_keep V0 main_v172 (by decide)).trans (st22_main_v172 V0)
theorem st23_main_v174 (V0 : Valuation τ sig (Elt F)) : st23 V0 (no_index (Proc.devRef .tc main_v174)) = val_main_v174 (F := F) (V0 (Proc.devRef .tc main_arg0)) (V0 (Proc.devRef .tc main_arg1)) := by
  unfold st23
  simp only [w23]
  after_results_simp
  simp only [st22_main_cst_24, st22_main_v173] <;> rfl
theorem st23_main_v176 (V0 : Valuation τ sig (Elt F)) : st23 V0 (no_index (Proc.devRef .tc main_v176)) = val_main_v176 (F := F) (V0 (Proc.devRef .tc main_arg0)) (V0 (Proc.devRef .tc main_arg1)) := by
  unfold st23
  simp only [w23]
  after_results_simp
  simp only [st22_main_v1, st22_main_v167] <;> rfl
theorem st23_main_v178 (V0 : Valuation τ sig (Elt F)) : st23 V0 (no_index (Proc.devRef .tc main_v178)) = val_main_v178 (F := F) (V0 (Proc.devRef .tc main_arg0)) (V0 (Proc.devRef .tc main_arg1)) := by
  unfold st23
  simp only [w23]
  after_results_simp
  simp only [st22_main_v1, st22_main_v132] <;> rfl
theorem st23_main_v180 (V0 : Valuation τ sig (Elt F)) : st23 V0 (no_index (Proc.devRef .tc main_v180)) = val_main_v180 (F := F) (V0 (Proc.devRef .tc main_arg0)) (V0 (Proc.devRef .tc main_arg1)) := by
  unfold st23
  simp only [w23]
  after_results_simp
  simp only [st22_main_v1, st22_main_v133] <;> rfl

/-- Operations 216 … 223 of @main. -/
abbrev w24 : List (HloOp τ sig (Elt F)) :=
  [ binary main_v172 main_v1 main_v181 (mulf : (⟨S16384x7x7, .f32⟩ : BufTy).Contents (Elt F) → (⟨S16384x7x7, .f32⟩ : BufTy).Contents (Elt F) → (⟨S16384x7x7, .f32⟩ : BufTy).Contents (Elt F)),
    nullary main_cst_28 (constant S_ .f32 0x00000000#32),
    binary main_v181 main_cst_28 main_v182 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    unary main_v174 main_v183 (broadcastInDim S1 ![] bcast_S_S1 : (⟨S_, .f32⟩ : BufTy).Contents (Elt F) → (⟨S1, .f32⟩ : BufTy).Contents (Elt F)),
    unary main_v176 main_v184 (broadcastInDim S1 ![] bcast_S_S1 : (⟨S_, .f32⟩ : BufTy).Contents (Elt F) → (⟨S1, .f32⟩ : BufTy).Contents (Elt F)),
    unary main_v178 main_v185 (broadcastInDim S1 ![] bcast_S_S1 : (⟨S_, .f32⟩ : BufTy).Contents (Elt F) → (⟨S1, .f32⟩ : BufTy).Contents (Elt F)),
    unary main_v180 main_v186 (broadcastInDim S1 ![] bcast_S_S1 : (⟨S_, .f32⟩ : BufTy).Contents (Elt F) → (⟨S1, .f32⟩ : BufTy).Contents (Elt F)),
    unary main_v182 main_v187 (broadcastInDim S1 ![] bcast_S_S1 : (⟨S_, .f32⟩ : BufTy).Contents (Elt F) → (⟨S1, .f32⟩ : BufTy).Contents (Elt F)) ]
theorem w24_sub : (w24 : List (HloOp τ sig (Elt F))).Forall fun op => op.bufs ⊆ tcRefs τ sig :=
  ⟨binary_bufs_sub .., nullary_bufs_sub .., binary_bufs_sub .., unary_bufs_sub .., unary_bufs_sub .., unary_bufs_sub .., unary_bufs_sub .., unary_bufs_sub ..⟩
theorem w24_fresh : ∀ op ∈ (w24 : List (HloOp τ sig (Elt F))), op.fresh = ∅ := by
  intro _ h; (repeat (cases h with | head => rfl | tail _ h => ?_)); exact nomatch h
/-- The buffers the window writes. -/
abbrev w24_W : List (Ref sig .tc) := [main_v181, main_cst_28, main_v182, main_v183, main_v184, main_v185, main_v186, main_v187]
theorem w24_writes : (w24 : List (HloOp τ sig (Elt F))).Forall fun op => op.writes ⊆ (w24_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The device's buffer contents after the first 24 windows. -/
def st24 (V0 : Valuation τ sig (Elt F)) : Valuation τ sig (Elt F) := after w24 (st23 V0)
/-- A buffer the window does not write keeps its contents through it. -/
theorem st24_keep (V0 : Valuation τ sig (Elt F)) (r : Ref sig .tc) (h : r ∉ w24_W) :
    st24 V0 (Proc.devRef .tc r) = st23 V0 (Proc.devRef .tc r) :=
  after_of_writes_sub w24 _ w24_writes h
theorem st24_main_arg0 (V0 : Valuation τ sig (Elt F)) : st24 V0 (no_index (Proc.devRef .tc main_arg0)) = V0 (Proc.devRef .tc main_arg0) :=
  (st24_keep V0 main_arg0 (by decide)).trans (st23_main_arg0 V0)
theorem st24_main_arg1 (V0 : Valuation τ sig (Elt F)) : st24 V0 (no_index (Proc.devRef .tc main_arg1)) = V0 (Proc.devRef .tc main_arg1) :=
  (st24_keep V0 main_arg1 (by decide)).trans (st23_main_arg1 V0)
theorem st24_main_v183 (V0 : Valuation τ sig (Elt F)) : st24 V0 (no_index (Proc.devRef .tc main_v183)) = val_main_v183 (F := F) (V0 (Proc.devRef .tc main_arg0)) (V0 (Proc.devRef .tc main_arg1)) := by
  unfold st24
  simp only [w24]
  after_results_simp
  simp only [st23_main_v174] <;> rfl
theorem st24_main_v184 (V0 : Valuation τ sig (Elt F)) : st24 V0 (no_index (Proc.devRef .tc main_v184)) = val_main_v184 (F := F) (V0 (Proc.devRef .tc main_arg0)) (V0 (Proc.devRef .tc main_arg1)) := by
  unfold st24
  simp only [w24]
  after_results_simp
  simp only [st23_main_v176] <;> rfl
theorem st24_main_v185 (V0 : Valuation τ sig (Elt F)) : st24 V0 (no_index (Proc.devRef .tc main_v185)) = val_main_v185 (F := F) (V0 (Proc.devRef .tc main_arg0)) (V0 (Proc.devRef .tc main_arg1)) := by
  unfold st24
  simp only [w24]
  after_results_simp
  simp only [st23_main_v178] <;> rfl
theorem st24_main_v186 (V0 : Valuation τ sig (Elt F)) : st24 V0 (no_index (Proc.devRef .tc main_v186)) = val_main_v186 (F := F) (V0 (Proc.devRef .tc main_arg0)) (V0 (Proc.devRef .tc main_arg1)) := by
  unfold st24
  simp only [w24]
  after_results_simp
  simp only [st23_main_v180] <;> rfl
theorem st24_main_v187 (V0 : Valuation τ sig (Elt F)) : st24 V0 (no_index (Proc.devRef .tc main_v187)) = val_main_v187 (F := F) (V0 (Proc.devRef .tc main_arg0)) (V0 (Proc.devRef .tc main_arg1)) := by
  unfold st24
  simp only [w24]
  after_results_simp
  simp only [st23_main_v1, st23_main_v172] <;> rfl

/-- Operations 224 … 224 of @main. -/
abbrev w25 : List (HloOp τ sig (Elt F)) :=
  [ nary ![main_v183, main_v184, main_v185, main_v186, main_v187] main_v188 (fun u => concatenate S5 0 [⟨S1, u 0⟩, ⟨S1, u 1⟩, ⟨S1, u 2⟩, ⟨S1, u 3⟩, ⟨S1, u 4⟩] concatenates_S1_S1_S1_S1_S1_S5_d0) ]
theorem w25_sub : (w25 : List (HloOp τ sig (Elt F))).Forall fun op => op.bufs ⊆ tcRefs τ sig :=
  (nary_bufs_sub ..)
theorem w25_fresh : ∀ op ∈ (w25 : List (HloOp τ sig (Elt F))), op.fresh = ∅ := by
  intro _ h; (repeat (cases h with | head => rfl | tail _ h => ?_)); exact nomatch h
/-- The buffers the window writes. -/
abbrev w25_W : List (Ref sig .tc) := [main_v188]
theorem w25_writes : (w25 : List (HloOp τ sig (Elt F))).Forall fun op => op.writes ⊆ (w25_W.map (Proc.devRef (τ := τ) .tc)).toFinset := by
  simp only [List.Forall]
  exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The device's buffer contents after the first 25 windows. -/
def st25 (V0 : Valuation τ sig (Elt F)) : Valuation τ sig (Elt F) := after w25 (st24 V0)
/-- A buffer the window does not write keeps its contents through it. -/
theorem st25_keep (V0 : Valuation τ sig (Elt F)) (r : Ref sig .tc) (h : r ∉ w25_W) :
    st25 V0 (Proc.devRef .tc r) = st24 V0 (Proc.devRef .tc r) :=
  after_of_writes_sub w25 _ w25_writes h
theorem st25_main_arg0 (V0 : Valuation τ sig (Elt F)) : st25 V0 (no_index (Proc.devRef .tc main_arg0)) = V0 (Proc.devRef .tc main_arg0) :=
  (st25_keep V0 main_arg0 (by decide)).trans (st24_main_arg0 V0)
theorem st25_main_arg1 (V0 : Valuation τ sig (Elt F)) : st25 V0 (no_index (Proc.devRef .tc main_arg1)) = V0 (Proc.devRef .tc main_arg1) :=
  (st25_keep V0 main_arg1 (by decide)).trans (st24_main_arg1 V0)
theorem st25_main_v188 (V0 : Valuation τ sig (Elt F)) : st25 V0 (no_index (Proc.devRef .tc main_v188)) = val_main_v188 (F := F) (V0 (Proc.devRef .tc main_arg0)) (V0 (Proc.devRef .tc main_arg1)) := by
  unfold st25
  simp only [w25]
  after_results_simp
  show concatenate S5 0 [⟨S1, (st24 V0 (Proc.devRef .tc main_v183))⟩, ⟨S1, (st24 V0 (Proc.devRef .tc main_v184))⟩, ⟨S1, (st24 V0 (Proc.devRef .tc main_v185))⟩, ⟨S1, (st24 V0 (Proc.devRef .tc main_v186))⟩, ⟨S1, (st24 V0 (Proc.devRef .tc main_v187))⟩] concatenates_S1_S1_S1_S1_S1_S5_d0 = _
  rw [st24_main_v187, st24_main_v186, st24_main_v185, st24_main_v184, st24_main_v183] <;> rfl

/-- The operations of @main's printed window 0. -/
def p0 : List (HloOp τ sig (Elt F)) := w1 ++ (w2 ++ (w3 ++ (w4 ++ (w5 ++ (w6)))))
theorem p0_sub : (p0 : List (HloOp τ sig (Elt F))).Forall fun op => op.bufs ⊆ tcRefs τ sig :=
  forall_append w1_sub (forall_append w2_sub (forall_append w3_sub (forall_append w4_sub (forall_append w5_sub (w6_sub)))))
theorem p0_fresh : ∀ op ∈ (p0 : List (HloOp τ sig (Elt F))), op.fresh = ∅ :=
  mem_append_forall w1_fresh (mem_append_forall w2_fresh (mem_append_forall w3_fresh (mem_append_forall w4_fresh (mem_append_forall w5_fresh (w6_fresh)))))
set_option maxRecDepth 8192 in
set_option maxHeartbeats 4000000 in
theorem main_part0_eq (c : Dev nD) : main_part0 (F := F) c = seq p0 := rfl
/-- The operations of @main's printed window 1. -/
def p1 : List (HloOp τ sig (Elt F)) := w7 ++ (w8 ++ (w9 ++ (w10 ++ (w11 ++ (w12 ++ (w13))))))
theorem p1_sub : (p1 : List (HloOp τ sig (Elt F))).Forall fun op => op.bufs ⊆ tcRefs τ sig :=
  forall_append w7_sub (forall_append w8_sub (forall_append w9_sub (forall_append w10_sub (forall_append w11_sub (forall_append w12_sub (w13_sub))))))
theorem p1_fresh : ∀ op ∈ (p1 : List (HloOp τ sig (Elt F))), op.fresh = ∅ :=
  mem_append_forall w7_fresh (mem_append_forall w8_fresh (mem_append_forall w9_fresh (mem_append_forall w10_fresh (mem_append_forall w11_fresh (mem_append_forall w12_fresh (w13_fresh))))))
set_option maxRecDepth 8192 in
set_option maxHeartbeats 4000000 in
theorem main_part1_eq (c : Dev nD) : main_part1 (F := F) c = seq p1 := rfl
/-- The operations of @main's printed window 2. -/
def p2 : List (HloOp τ sig (Elt F)) := w14 ++ (w15 ++ (w16 ++ (w17 ++ (w18 ++ (w19 ++ (w20))))))
theorem p2_sub : (p2 : List (HloOp τ sig (Elt F))).Forall fun op => op.bufs ⊆ tcRefs τ sig :=
  forall_append w14_sub (forall_append w15_sub (forall_append w16_sub (forall_append w17_sub (forall_append w18_sub (forall_append w19_sub (w20_sub))))))
theorem p2_fresh : ∀ op ∈ (p2 : List (HloOp τ sig (Elt F))), op.fresh = ∅ :=
  mem_append_forall w14_fresh (mem_append_forall w15_fresh (mem_append_forall w16_fresh (mem_append_forall w17_fresh (mem_append_forall w18_fresh (mem_append_forall w19_fresh (w20_fresh))))))
set_option maxRecDepth 8192 in
set_option maxHeartbeats 4000000 in
theorem main_part2_eq (c : Dev nD) : main_part2 (F := F) c = seq p2 := rfl
/-- The operations of @main's printed window 3. -/
def p3 : List (HloOp τ sig (Elt F)) := w21 ++ (w22 ++ (w23 ++ (w24 ++ (w25))))
theorem p3_sub : (p3 : List (HloOp τ sig (Elt F))).Forall fun op => op.bufs ⊆ tcRefs τ sig :=
  forall_append w21_sub (forall_append w22_sub (forall_append w23_sub (forall_append w24_sub (w25_sub))))
theorem p3_fresh : ∀ op ∈ (p3 : List (HloOp τ sig (Elt F))), op.fresh = ∅ :=
  mem_append_forall w21_fresh (mem_append_forall w22_fresh (mem_append_forall w23_fresh (mem_append_forall w24_fresh (w25_fresh))))
set_option maxRecDepth 8192 in
set_option maxHeartbeats 4000000 in
theorem main_part3_eq (c : Dev nD) : main_part3 (F := F) c = seq p3 := rfl

/-- @main's 224 operations, in order. -/
def ops : List (HloOp τ sig (Elt F)) := p0 ++ (p1 ++ (p2 ++ p3))
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  forall_append p0_sub (forall_append p1_sub (forall_append p2_sub p3_sub))
theorem ops_fresh : ∀ op ∈ (ops : List (HloOp τ sig (Elt F))), op.fresh = ∅ :=
  mem_append_forall p0_fresh (mem_append_forall p1_fresh (mem_append_forall p2_fresh p3_fresh))
/-- The whole list leaves what the last window leaves. -/
theorem after_ops (V0 : Valuation τ sig (Elt F)) : after ops V0 = st25 V0 := by
  simp only [ops, p0, p1, p2, p3, after_append]
  rfl

/-- On every device, for any float values, from any memory with zero counters: every weakly fair execution of @main
    terminates with the result buffer at its stage of the two arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v188) = Cert.ReferenceIdeal.ReadP.val_main_v188 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v188).trans (by rw [after_ops]; exact st25_main_v188 (launchContents m c)),
      (h c main_arg0).trans (by rw [after_ops]; exact st25_main_arg0 (launchContents m c)),
      (h c main_arg1).trans (by rw [after_ops]; exact st25_main_arg1 (launchContents m c))⟩)
    (run_seq scopedRefs_eq scopedSems_eq defs main (fun _ => ops) main_eq (fun _ => ops_sub) m ρ (fun _ => ops_fresh))

end Cert.ReferenceIdeal.RunHand

end
-- ==== Proof.lean ====
/-
  The certificate of the grid-cell detection loss kernel against its jnp reference.

  Both programs compute, per grid cell, five loss entries from the cell's 30 prediction and 30 label channels (two
  candidate boxes scored by intersection-over-union against the true box, the better one penalised on centre and on
  square-root extent, both scored on confidence, the class scores on squared error), each times the cell's object
  indicator, and sum every entry over all 16384 · 7 · 7 cells. The reference sums all cells at once; the kernel transposes
  the batch onto the lanes, walks 64 batch tiles of 256 on a 2 × 32 grid, sums each tile's 49 × 256 cells in two stages,
  accumulates the 32 tiles of a core's row in a resident output block, and the host adds the two cores' rows. Over the
  extended reals addition is commutative and associative, so the two orders of summation agree; the per-cell expressions are
  the same operations in the same order. The frames are the generated ones; the idealization rewrote nothing.
-/
import proofs.«407106_j42099269435938_3_alg».proof.Defs
import proofs.«407106_j42099269435938_3_alg».proof.Proof.Gen.Kernel
import proofs.«407106_j42099269435938_3_alg».proof.Proof.Gen.Kernel.Frame
import proofs.«407106_j42099269435938_3_alg».proof.Proof.Gen.KernelIdeal
import proofs.«407106_j42099269435938_3_alg».proof.Proof.Gen.KernelIdeal.Frame
import proofs.«407106_j42099269435938_3_alg».proof.Proof.Gen.ReferenceIdeal
import proofs.«407106_j42099269435938_3_alg».proof.Proof.Gen.Pre_finite_inputs
import proofs.«407106_j42099269435938_3_alg».proof.Proof.KernelValue
import proofs.«407106_j42099269435938_3_alg».proof.Proof.RefValue
import proofs.«407106_j42099269435938_3_alg».proof.Proof.RefRunHand
import Idealize.ShloMosaic.Adequacy
import Idealize.ShloMosaic.Init

noncomputable section

namespace Cert.Proof

open Idealize.ShloMosaic Idealize.ShloMosaic.TcCoe Idealize.SL.Sem

/-- The word-level kernel and its idealization run, fault-free, with their arguments unchanged. -/
theorem frame_k : Cert.frame_Kernel := fun m ρ _ => Cert.Kernel.Gen.frame m ρ
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.RunHand.run (F := Ideal) m ρ)

/-- Both programs end with the loss vector of the (agreeing) argument arrays. -/
theorem algebraic : Cert.algebraic_KernelIdeal_ReferenceIdeal := by
  intro m ρ m' ρ' _ hagree
  refine ⟨fun c => Cert.KernelIdeal.Hand.kres m c, Cert.KernelIdeal.Hand.run m ρ, ?_⟩
  refine (θ_run Cert.ReferenceIdeal.defs _ _).mono (fun _ h c => ⟨(h c).1.trans ?_, (h c).2⟩)
    (Cert.ReferenceIdeal.RunHand.run (F := Ideal) m' ρ')
  funext y
  obtain ⟨j, rfl⟩ : ∃ j : Fin 5, y = ValueIdx.ix1 j := ⟨y 0, ValueIdx.eq_ix1 y⟩
  refine (Cert.ReferenceIdeal.RefValue.val188_apply _ _ j).trans ?_
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
